-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x1024 : Shape := ⟨2, ![4096, 1024]⟩
abbrev S1024 : Shape := ⟨1, ![1024]⟩
abbrev S1024x64 : Shape := ⟨2, ![1024, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S64x2 .f32) (main_arg8 : FVec F S2 .f32) (main_v33 : IVec S_ 1) : IVec S_ 1 :=
  let main_v34 : FVec F S64x2 .f32 := Host.absf main_arg7
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S1024 .f32) (main_arg5 : FVec F S1024x64 .f32) (main_arg6 : FVec F S64 .f32) (main_arg7 : FVec F S64x2 .f32) (main_arg8 : FVec F S2 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S4096x4096 .f32) (main_arg1 : FVec F S4096x4096 .f32) (main_arg2 : FVec F S4096x4096 .f32) (main_arg3 : FVec F S4096x1024 .f32) (main_arg4 : FVec F S1024 .f32) (main_arg5 : FVec F S1024x64 .f32) (main_arg6 : FVec F S64 .f32) (main_arg7 : FVec F S64x2 .f32) (main_arg8 : FVec F S2 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_v13 main_v16
-- ==== Kernel.lean ====
abbrev S4096x4096 : Shape := ⟨2, ![4096, 4096]⟩
abbrev S4096x1024 : Shape := ⟨2, ![4096, 1024]⟩
abbrev S1024 : Shape := ⟨1, ![1024]⟩
abbrev S1024x64 : Shape := ⟨2, ![1024, 64]⟩
abbrev S64 : Shape := ⟨1, ![64]⟩
abbrev S64x2 : Shape := ⟨2, ![64, 2]⟩
abbrev S2 : Shape := ⟨1, ![2]⟩
abbrev S_ : Shape := ⟨0, ![]⟩
abbrev S1x1024 : Shape := ⟨2, ![1, 1024]⟩
abbrev S1x64 : Shape := ⟨2, ![1, 64]⟩
abbrev S1x2 : Shape := ⟨2, ![1, 2]⟩
abbrev S4096x2 : Shape := ⟨2, ![4096, 2]⟩
abbrev S256x4096 : Shape := ⟨2, ![256, 4096]⟩
abbrev S256x2 : Shape := ⟨2, ![256, 2]⟩
abbrev S256 : Shape := ⟨1, ![256]⟩
abbrev S256x1 : Shape := ⟨2, ![256, 1]⟩
abbrev S256x1024 : Shape := ⟨2, ![256, 1024]⟩
abbrev S256x64 : Shape := ⟨2, ![256, 64]⟩

abbrev nBuf : Space → Nat
  | .hbm => 23
  | .vmem => 22
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x1024, .f32⟩
  | .hbm, ⟨4, _⟩ => ⟨S1024, .f32⟩
  | .hbm, ⟨5, _⟩ => ⟨S1024x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S2, .f32⟩
  | .hbm, ⟨10, _⟩ => ⟨S_, .f32⟩
  | .hbm, ⟨11, _⟩ => ⟨S64x2, .f32⟩
  | .hbm, ⟨12, _⟩ => ⟨S64x2, .f32⟩
  | .hbm, ⟨13, _⟩ => ⟨S_, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S1x1024, .f32⟩
  | .hbm, ⟨18, _⟩ => ⟨S1x64, .f32⟩
  | .hbm, ⟨19, _⟩ => ⟨S1x2, .f32⟩
  | .hbm, ⟨20, _⟩ => ⟨S4096x2, .f32⟩
  | .hbm, ⟨21, _⟩ => ⟨S4096x4096, .f32⟩
  | .hbm, ⟨22, _⟩ => ⟨S4096x2, .f32⟩
  | .local _ .vmem, ⟨0, _⟩ => ⟨S256x4096, .f32⟩
  | .local _ .vmem, ⟨1, _⟩ => ⟨S256x4096, .f32⟩
  | .local _ .vmem, ⟨2, _⟩ => ⟨S4096x1024, .f32⟩
  | .local _ .vmem, ⟨3, _⟩ => ⟨S1x1024, .f32⟩
  | .local _ .vmem, ⟨4, _⟩ => ⟨S1024x64, .f32⟩
  | .local _ .vmem, ⟨5, _⟩ => ⟨S1x64, .f32⟩
  | .local _ .vmem, ⟨6, _⟩ => ⟨S64x2, .f32⟩
  | .local _ .vmem, ⟨7, _⟩ => ⟨S1x2, .f32⟩
  | .local _ .vmem, ⟨8, _⟩ => ⟨S256x2, .f32⟩
  | .local _ .vmem, ⟨9, _⟩ => ⟨S256x2, .f32⟩
  | .local _ .vmem, ⟨10, _⟩ => ⟨S4096x1024, .bf16⟩
  | .local _ .vmem, ⟨11, _⟩ => ⟨S256x4096, .f32⟩
  | .local _ .vmem, ⟨12, _⟩ => ⟨S256x4096, .f32⟩
  | .local _ .vmem, ⟨13, _⟩ => ⟨S256x4096, .f32⟩
  | .local _ .vmem, ⟨14, _⟩ => ⟨S256x4096, .f32⟩
  | .local _ .vmem, ⟨15, _⟩ => ⟨S4096x2, .f32⟩
  | .local _ .vmem, ⟨16, _⟩ => ⟨S256x2, .f32⟩
  | .local _ .vmem, ⟨17, _⟩ => ⟨S256x2, .f32⟩
  | .local _ .vmem, ⟨18, _⟩ => ⟨S256x4096, .f32⟩
  | .local _ .vmem, ⟨19, _⟩ => ⟨S256x4096, .f32⟩
  | .local _ .vmem, ⟨20, _⟩ => ⟨S256x2, .f32⟩
  | .local _ .vmem, ⟨21, _⟩ => ⟨S256x2, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S64x2 : S_.BroadcastsInDim S64x2 (![] : Fin 0 → Fin S64x2.rank)
  bcast_S_S2 : S_.BroadcastsInDim S2 (![] : Fin 0 → Fin S2.rank)
  shapeCasts_S1024_S1x1024 : S1024.ShapeCasts S1x1024
  shapeCasts_S64_S1x64 : S64.ShapeCasts S1x64
  shapeCasts_S2_S1x2 : S2.ShapeCasts S1x2
  inb_S4096x1024_S4096x1024_0_0 : ∀ a, (![0, 0] : Fin 2 → Nat) a + S4096x1024.size a ≤ S4096x1024.size a
  h_S4096x1024 : 0 < S4096x1024.numel
  bitsLt_bf16_f32 : FTy.bits .bf16 < FTy.bits .f32
  shapeCasts_S4096x1024_S4096x1024 : S4096x1024.ShapeCasts S4096x1024
  packedbf16_S4096x1024_S4096x1024_0_0 : (Rect.unit (s := S4096x1024) ![0, 0] S4096x1024.size inb_S4096x1024_S4096x1024_0_0).PackedRows (EltTy.packing .bf16)
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  reduces_S256x2_S256 : S256x2.Reduces [1] S256
  broadcasts_S256x1_S256x2 : S256x1.Broadcasts S256x2
  inb_S256x2_S256x2_0_0 : ∀ a, (![0, 0] : Fin 2 → Nat) a + S256x2.size a ≤ S256x2.size a
  h_S256x2 : 0 < S256x2.numel
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  shapeCasts_S256x2_S256x2 : S256x2.ShapeCasts S256x2
  slices_S256x2_o0_0_S256x1 : S256x2.Slices ![0, 0] S256x1
  slices_S256x2_o0_1_S256x1 : S256x2.Slices ![0, 1] S256x1
  dot_S256x4096_S4096x1024_S256x1024_1_0_0_1_n_n_wf : DotDims.WF S256x4096 S4096x1024 S256x1024 [1] [0] [0] [1] [] []
  dot_S256x1024_S1024x64_S256x64_1_0_0_1_n_n_wf : DotDims.WF S256x1024 S1024x64 S256x64 [1] [0] [0] [1] [] []
  dot_S256x64_S64x2_S256x2_1_0_0_1_n_n_wf : DotDims.WF S256x64 S64x2 S256x2 [1] [0] [0] [1] [] []
  dot_S256x4096_S4096x2_S256x2_1_0_0_1_n_n_wf : DotDims.WF S256x4096 S4096x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .f32 = 32 ∨ (Rect.block (s := S4096x1024) S4096x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2.size a ≤ S64x2.size a
  hwx0_5 : ∀ i : grid0.Coords, EltTy.bits .f32 = 32 ∨ (Rect.block (s := S64x2) S64x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2.size a ≤ S4096x2.size a
  hwx0_7 : ∀ i : grid0.Coords, EltTy.bits .f32 = 32 ∨ (Rect.block (s := S4096x2) S256x2.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .f32 = 32 ∨ (Rect.block (s := S4096x4096) S256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x2.size a ≤ S4096x2.size a
  hwx1_2 : ∀ i : grid1.Coords, EltTy.bits .f32 = 32 ∨ (Rect.block (s := S4096x2) S4096x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2.size a ≤ S4096x2.size a
  hwx1_3 : ∀ i : grid1.Coords, EltTy.bits .f32 = 32 ∨ (Rect.block (s := S4096x2) S256x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x4096.size a ≤ S4096x4096.size a
  hwx1_4 : ∀ i : grid1.Coords, EltTy.bits .f32 = 32 ∨ (Rect.block (s := S4096x4096) S256x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x2.size a ≤ S4096x2.size a
  hwx1_5 : ∀ i : grid1.Coords, EltTy.bits .f32 = 32 ∨ (Rect.block (s := S4096x2) S256x2.size (cc1_transform_5 i) (hinb1_5 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf
def dot_S256x4096_S4096x2_S256x2_1_0_0_1_n_n : DotDims S256x4096 S4096x2 S256x2 where
  lhsContracting := [1]
  rhsContracting := [0]
  lhsNonContracting := [0]
  rhsNonContracting := [1]
  lhsBatch := []
  rhsBatch := []
  wf := dot_S256x4096_S4096x2_S256x2_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S256x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4096x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S256x2.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9_0) S256x4096.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9_1) S256x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096x1024 : Shape := ⟨2, ![4096, 1024]⟩
abbrev S1024 : Shape := ⟨1, ![1024]⟩
abbrev S1024x64 : Shape := ⟨2, ![1024, 64]⟩
abbrev S64 : Shape := ⟨1, ![64]⟩
abbrev S64x2 : Shape := ⟨2, ![64, 2]⟩
abbrev S2 : Shape := ⟨1, ![2]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x64 : Shape := ⟨2, ![4096, 64]⟩
abbrev S1x64 : Shape := ⟨2, ![1, 64]⟩
abbrev S4096x2 : Shape := ⟨2, ![4096, 2]⟩
abbrev S1x2 : Shape := ⟨2, ![1, 2]⟩
abbrev S4096x4096x1 : Shape := ⟨3, ![4096, 4096, 1]⟩
abbrev S4096x4096x2 : Shape := ⟨3, ![4096, 4096, 2]⟩
abbrev S4096x1x2 : Shape := ⟨3, ![4096, 1, 2]⟩

abbrev nBuf : Space → Nat
  | .hbm => 107
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x1024, .f32⟩
  | .hbm, ⟨4, _⟩ => ⟨S1024, .f32⟩
  | .hbm, ⟨5, _⟩ => ⟨S1024x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S2, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .i32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x4096, .f32⟩
  | .hbm, ⟨47, _⟩ => ⟨S4096x4096, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x64, .f32⟩
  | .hbm, ⟨56, _⟩ => ⟨S1x64, .f32⟩
  | .hbm, ⟨57, _⟩ => ⟨S4096x64, .f32⟩
  | .hbm, ⟨58, _⟩ => ⟨S4096x64, .f32⟩
  | .hbm, ⟨59, _⟩ => ⟨S_, .f32⟩
  | .hbm, ⟨60, _⟩ => ⟨S_, .f32⟩
  | .hbm, ⟨61, _⟩ => ⟨S4096x64, .f32⟩
  | .hbm, ⟨62, _⟩ => ⟨S4096x64, .i1⟩
  | .hbm, ⟨63, _⟩ => ⟨S_, .f32⟩
  | .hbm, ⟨64, _⟩ => ⟨S4096x64, .f32⟩
  | .hbm, ⟨65, _⟩ => ⟨S4096x64, .f32⟩
  | .hbm, ⟨66, _⟩ => ⟨S4096x64, .f32⟩
  | .hbm, ⟨67, _⟩ => ⟨S4096x2, .f32⟩
  | .hbm, ⟨68, _⟩ => ⟨S1x2, .f32⟩
  | .hbm, ⟨69, _⟩ => ⟨S4096x2, .f32⟩
  | .hbm, ⟨70, _⟩ => ⟨S4096x2, .f32⟩
  | .hbm, ⟨71, _⟩ => ⟨S_, .f32⟩
  | .hbm, ⟨72, _⟩ => ⟨S4096x2, .f32⟩
  | .hbm, ⟨73, _⟩ => ⟨S4096x2, .f32⟩
  | .hbm, ⟨74, _⟩ => ⟨S1x2, .f32⟩
  | .hbm, ⟨75, _⟩ => ⟨S4096x2, .f32⟩
  | .hbm, ⟨76, _⟩ => ⟨S4096x2, .f32⟩
  | .hbm, ⟨77, _⟩ => ⟨S_, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S4096x1, .f32⟩
  | .hbm, ⟨83, _⟩ => ⟨S4096x2, .f32⟩
  | .hbm, ⟨84, _⟩ => ⟨S4096x2, .f32⟩
  | .hbm, ⟨85, _⟩ => ⟨S4096x2, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x2, .f32⟩
  | .hbm, ⟨90, _⟩ => ⟨S4096x2, .f32⟩
  | .hbm, ⟨91, _⟩ => ⟨S_, .f32⟩
  | .hbm, ⟨92, _⟩ => ⟨S4096x2, .f32⟩
  | .hbm, ⟨93, _⟩ => ⟨S4096x2, .f32⟩
  | .hbm, ⟨94, _⟩ => ⟨S4096x2, .f32⟩
  | .hbm, ⟨95, _⟩ => ⟨S_, .f32⟩
  | .hbm, ⟨96, _⟩ => ⟨S4096x2, .f32⟩
  | .hbm, ⟨97, _⟩ => ⟨S4096x2, .f32⟩
  | .hbm, ⟨98, _⟩ => ⟨S4096x2, .f32⟩
  | .hbm, ⟨99, _⟩ => ⟨S4096x4096x1, .f32⟩
  | .hbm, ⟨100, _⟩ => ⟨S4096x4096x1, .f32⟩
  | .hbm, ⟨101, _⟩ => ⟨S4096x4096x2, .f32⟩
  | .hbm, ⟨102, _⟩ => ⟨S4096x1x2, .f32⟩
  | .hbm, ⟨103, _⟩ => ⟨S4096x4096x2, .f32⟩
  | .hbm, ⟨104, _⟩ => ⟨S4096x4096x2, .f32⟩
  | .hbm, ⟨105, _⟩ => ⟨S_, .f32⟩
  | .hbm, ⟨106, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst_2 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_call1_cst : Ref sig .tc := ⟨.hbm, 52, rfl⟩
abbrev main_call1_v0 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_3 : Ref sig .tc := ⟨.hbm, 59, rfl⟩
abbrev main_call2_cst : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_cst_4 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_cst_5 : Ref sig .tc := ⟨.hbm, 77, rfl⟩
abbrev main_v31 : Ref sig .tc := ⟨.hbm, 78, rfl⟩
abbrev main_cst_6 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_7 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_8 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_9 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_cst_10 : Ref sig .tc := ⟨.hbm, 105, rfl⟩
abbrev main_v54 : Ref sig .tc := ⟨.hbm, 106, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  bcast_S_S4096x2 : S_.BroadcastsInDim S4096x2 (![] : Fin 0 → Fin S4096x2.rank)
  reducesTo_S4096x2_S4096_d1 : S4096x2.ReducesTo [1] S4096
  bcast_S_S4096 : S_.BroadcastsInDim S4096 (![] : Fin 0 → Fin S4096.rank)
  bcast_S4096x1_S4096x2_0_1 : S4096x1.BroadcastsInDim S4096x2 (![0, 1] : Fin 2 → Fin S4096x2.rank)
  bcast_S4096x4096_S4096x4096x1_0_1 : S4096x4096.BroadcastsInDim S4096x4096x1 (![0, 1] : Fin 2 → Fin S4096x4096x1.rank)
  concatenates_S4096x4096x1_S4096x4096x1_S4096x4096x2_d2 : Shape.Concatenates [S4096x4096x1, S4096x4096x1] S4096x4096x2 2
  bcast_S4096x2_S4096x1x2_0_2 : S4096x2.BroadcastsInDim S4096x1x2 (![0, 2] : Fin 2 → Fin S4096x1x2.rank)
  bcast_S4096x1x2_S4096x4096x2_0_1_2 : S4096x1x2.BroadcastsInDim S4096x4096x2 (![0, 1, 2] : Fin 3 → Fin S4096x4096x2.rank)
  reducesTo_S4096x4096x2_S4096x4096_d2 : S4096x4096x2.ReducesTo [2] S4096x4096
  dot_S4096x4096_S4096x1024_S4096x1024_1_0_0_1_n_n_wf : DotDims.WF S4096x4096 S4096x1024 S4096x1024 [1] [0] [0] [1] [] []
  dot_S4096x1024_S1024x64_S4096x64_1_0_0_1_n_n_wf : DotDims.WF S4096x1024 S1024x64 S4096x64 [1] [0] [0] [1] [] []
  dot_S4096x64_S64x2_S4096x2_1_0_0_1_n_n_wf : DotDims.WF S4096x64 S64x2 S4096x2 [1] [0] [0] [1] [] []
  dot_S4096x4096_S4096x2_S4096x2_1_0_0_1_n_n_wf : DotDims.WF S4096x4096 S4096x2 S4096x2 [1] [0] [0] [1] [] []

variable [Facts₀]

def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf
def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf
def dot_S4096x64_S64x2_S4096x2_1_0_0_1_n_n : DotDims S4096x64 S64x2 S4096x2 where
  lhsContracting := [1]
  rhsContracting := [0]
  lhsNonContracting := [0]
  rhsNonContracting := [1]
  lhsBatch := []
  rhsBatch := []
  wf := dot_S4096x64_S64x2_S4096x2_1_0_0_1_n_n_wf
def dot_S4096x4096_S4096x2_S4096x2_1_0_0_1_n_n : DotDims S4096x4096 S4096x2 S4096x2 where
  lhsContracting := [1]
  rhsContracting := [0]
  lhsNonContracting := [0]
  rhsNonContracting := [1]
  lhsBatch := []
  rhsBatch := []
  wf := dot_S4096x4096_S4096x2_S4096x2_1_0_0_1_n_n_wf

class Facts : Prop extends Facts₀ where

variable [Facts]
-- ==== Proof.Kernel.Gate.lean ====
/-
  The gating region (the first kernel region of the program), at any float instance and at any contents V of the
  core's buffers when the region is entered.

  At grid point t the body reads the t-th block of 256 rows of the input, the three weight arrays and the three bias
  rows (whole, the same block at every point), and writes the 256 rows of gate weights of that block. A scratch
  buffer keeps the first weight array narrowed to the half-width format: it is filled at the first point and only read
  at the later ones, so between points the region's invariant holds it at that narrowed array.
-/
import proofs.«153786_g11373073400015_week1_w4_273_15_alg».proof.Proof.Gen.Kernel.Launch
import proofs.«153786_g11373073400015_week1_w4_273_15_alg».proof.Proof.Gen.Kernel.Skeleton
import proofs.«153786_g11373073400015_week1_w4_273_15_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Gate

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rZ : Rect S256x4096 := Rect.unit (s := S256x4096) ![0, 0] S256x4096.size inb_S256x4096_S256x4096_0_0
abbrev rW1 : Rect S4096x1024 := Rect.unit (s := S4096x1024) ![0, 0] S4096x1024.size inb_S4096x1024_S4096x1024_0_0
abbrev rB1 : Rect S1x1024 := Rect.unit (s := S1x1024) ![0, 0] S1x1024.size inb_S1x1024_S1x1024_0_0
abbrev rW2 : Rect S1024x64 := Rect.unit (s := S1024x64) ![0, 0] S1024x64.size inb_S1024x64_S1024x64_0_0
abbrev rB2 : Rect S1x64 := Rect.unit (s := S1x64) ![0, 0] S1x64.size inb_S1x64_S1x64_0_0
abbrev rW3 : Rect S64x2 := Rect.unit (s := S64x2) ![0, 0] S64x2.size inb_S64x2_S64x2_0_0
abbrev rB3 : Rect S1x2 := Rect.unit (s := S1x2) ![0, 0] S1x2.size inb_S1x2_S1x2_0_0
abbrev rG : Rect S256x2 := Rect.unit (s := S256x2) ![0, 0] S256x2.size inb_S256x2_S256x2_0_0

/-- What the scratch buffer holds from the first point on: the first weight array (the second window's block, the same
    at every point) narrowed. -/
def scr0 (c : Dev nD) : Vec F S4096x1024 .bf16 := k0_pay2 (View.ld (iblk0 V c 1 t0_0) rW1)

/-- The output window's staging buffer after the body, from the input blocks and the scratch: its one store. -/
def out0_7 (x0 : Vec F S256x4096 .f32) (scr : Vec F S4096x1024 .bf16) (x2 : Vec F S1x1024 .f32) (x3 : Vec F S1024x64 .f32)
    (x4 : Vec F S1x64 .f32) (x5 : Vec F S64x2 .f32) (x6 : Vec F S1x2 .f32) : Vec F S256x2 .f32 :=
  View.canon [⟨rG, k0_pay1
    (k0_pay3 (View.ld x0 rZ) (View.ld scr rW1) (View.ld x2 rB1) (View.ld x3 rW2) (View.ld x4 rB2))
    (k0_pay4 (View.ld x0 rZ) (View.ld scr rW1) (View.ld x2 rB1) (View.ld x3 rW2) (View.ld x4 rB2))
    (View.ld x5 rW3) (View.ld x6 rB3)⟩]

/-! ## The body on whole memrefs -/

/-- The zero offsets of a whole-buffer rectangle of rank two. -/
theorem hz2 : (![0, 0] : Fin 2 → Nat) = fun _ => 0 := funext fun a => by fin_cases a <;> rfl

/-- The body's one branch condition (is this the first grid point?), as a proposition of the grid coordinates. -/
abbrev cond0 (i : grid0.Coords) : Prop :=
  Scalar.cmpi .ne (Scalar.extui (Scalar.cmpi .eq (BitVec.ofNat 32 (i 0).val) 0#32) : BitVec 32) 0#32 = 1#1

/-- It holds at the first point and at no other. -/
theorem hcond0 : ∀ t : Fin cfg0.N, cond0 (grid0.coords t) ↔ t.val = 0 :=
  (by decide +kernel : ∀ t : Fin grid0.N, cond0 (grid0.coords t) ↔ t.val = 0)

/-- The one store into the output buffer covers it. -/
theorem cover0_7 (p : Vec F S256x2 .f32) (y : S256x2.Idx) :
    ∃ pc ∈ ([⟨rG, p⟩] : List (View.Piece (Elt F) S256x2 .f32)), y ∈ pc.1.set :=
  ⟨_, List.mem_singleton_self _, View.mem_set_unit_zero (S := S256x2) hz2 inb_S256x2_S256x2_0_0 y⟩

/-- The one store into the scratch buffer covers it. -/
theorem cover0_s (p : Vec F S4096x1024 .bf16) (y : S4096x1024.Idx) :
    ∃ pc ∈ ([⟨rW1, p⟩] : List (View.Piece (Elt F) S4096x1024 .bf16)), y ∈ pc.1.set :=
  ⟨_, List.mem_singleton_self _, View.mem_set_unit_zero (S := S4096x1024) hz2 inb_S4096x1024_S4096x1024_0_0 y⟩

set_option maxHeartbeats 4000000 in
/-- The body at a point after the first, on whole memrefs: the inputs at read contents, the scratch at contents s and
    the output at anything. The branch is not taken; the scratch is only read; the output is left at out0_7 of the
    inputs and s. -/
theorem sound_kernel_later (c : Dev nD) (E : Set ℕ) (i : grid0.Coords) (hc : ¬ cond0 i)
    (arg1 : Memref sig .tc .vmem S256x4096 .f32) (harg1 : arg1.IsWhole) (arg2 : Memref sig .tc .vmem S4096x1024 .f32) (harg2 : arg2.IsWhole) (arg3 : Memref sig .tc .vmem S1x1024 .f32) (harg3 : arg3.IsWhole) (arg4 : Memref sig .tc .vmem S1024x64 .f32) (harg4 : arg4.IsWhole) (arg5 : Memref sig .tc .vmem S1x64 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S256x2 .f32) (harg8 : arg8.IsWhole) (arg9 : Memref sig .tc .vmem S4096x1024 .bf16) (harg9 : arg9.IsWhole)
    (x0 : Vec F S256x4096 .f32) (x1 : Vec F S4096x1024 .f32) (x2 : Vec F S1x1024 .f32) (x3 : Vec F S1024x64 .f32)
    (x4 : Vec F S1x64 .f32) (x5 : Vec F S64x2 .f32) (x6 : Vec F S1x2 .f32) (s : Vec F S4096x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 s x2 x3 x4 x5 x6)
            ∗ owns (c : Thread nD τ) arg9 fullShare s) -∗ K ⟨⟩))
      ⊢ wp frame (wpE (defs₀ (F := F)) Variants.none c none) E (cc0__gate_body i arg1 harg1 arg2 harg2 arg3 harg3 arg4 harg4 arg5 harg5 arg6 harg6 arg7 harg7 arg8 harg8 arg9 harg9) K := by
  simp only [cc0__gate_body_eq_skeleton]; unfold cc0__gate_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf0 hf1 hf2 hf3 hf4 hf5 hf6 hf8
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists f8; isplitr; · ipureintro; rfl
  iexact H8

set_option maxHeartbeats 4000000 in
/-- The body at the first point: the branch is taken, the scratch (at anything before) is filled with the narrowed first
    weight array and read back; the output is left at out0_7 of the inputs and that narrowed array. -/
theorem sound_kernel_first (c : Dev nD) (E : Set ℕ) (i : grid0.Coords) (hc : cond0 i)
    (arg1 : Memref sig .tc .vmem S256x4096 .f32) (harg1 : arg1.IsWhole) (arg2 : Memref sig .tc .vmem S4096x1024 .f32) (harg2 : arg2.IsWhole) (arg3 : Memref sig .tc .vmem S1x1024 .f32) (harg3 : arg3.IsWhole) (arg4 : Memref sig .tc .vmem S1024x64 .f32) (harg4 : arg4.IsWhole) (arg5 : Memref sig .tc .vmem S1x64 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S256x2 .f32) (harg8 : arg8.IsWhole) (arg9 : Memref sig .tc .vmem S4096x1024 .bf16) (harg9 : arg9.IsWhole)
    (x0 : Vec F S256x4096 .f32) (x1 : Vec F S4096x1024 .f32) (x2 : Vec F S1x1024 .f32) (x3 : Vec F S1024x64 .f32)
    (x4 : Vec F S1x64 .f32) (x5 : Vec F S64x2 .f32) (x6 : Vec F S1x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ s, owns (c : Thread nD τ) arg9 fullShare s)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 (k0_pay2 (View.ld x1 rW1)) x2 x3 x4 x5 x6)
            ∗ owns (c : Thread nD τ) arg9 fullShare (k0_pay2 (View.ld x1 rW1))) -∗ K ⟨⟩))
      ⊢ wp frame (wpE (defs₀ (F := F)) Variants.none c none) E (cc0__gate_body i arg1 harg1 arg2 harg2 arg3 harg3 arg4 harg4 arg5 harg5 arg6 harg6 arg7 harg7 arg8 harg8 arg9 harg9) K := by
  simp only [cc0__gate_body_eq_skeleton]; unfold cc0__gate_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%s, %f8, -, H8⟩, Hk⟩
  subst hf0 hf1 hf2 hf3 hf4 hf5 hf6
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover0_7 _)]
    sl_unfold_run_names
    rw [View.readCov_unit_zero (S := S4096x1024) _ hz2]
    unfold out0_7
    simp only [View.readAt_eq_ld, View.ld_unit_zero (S := S4096x1024) hz2]
  iexists _; isplitr
  swap; · iexact H8
  ipureintro
  sl_unfold_run_names
  rw [View.read_writes_eq_canon _ _ _ (cover0_s _), View.canon_unit_zero (S := S4096x1024) hz2]
  rfl

/-! ## The region's invariant -/

/-- The core's scoped buffers that are neither a staging buffer of this region nor its scratch (the staging buffers of the
    program's other region), each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The scoped buffers the region does not stage: the scratch and the rest. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ rest0 c) := by
  rw [Gen.scopedRest0_eq]; rfl

/-- The region's invariant before point t: before the first point the scratch, like every other scoped buffer the region does
    not stage, is at some contents; before any later point (and after the last) it holds the first weight array narrowed. The
    generator register is at some state throughout. -/
def Φ0 (c : Dev nD) (t : Fin (cfg0.N + 1)) : sProp 𝕄 :=
  if t.val = 0 then Pipeline.ΦA spec0 c
  else iprop(owns (c : Thread nD τ) (Memref.whole cc0_scratch0) fullShare (scr0 V c) ∗ rest0 c ∗ ∃ r, prngReg c r)

theorem Φ0_zero (c : Dev nD) (t : Fin (cfg0.N + 1)) (h : t.val = 0) : Φ0 V c t = Pipeline.ΦA spec0 c := by
  unfold Φ0; rw [if_pos h]

theorem Φ0_pos (c : Dev nD) (t : Fin (cfg0.N + 1)) (h : t.val ≠ 0) :
    Φ0 V c t = iprop(owns (c : Thread nD τ) (Memref.whole cc0_scratch0) fullShare (scr0 V c) ∗ rest0 c ∗ ∃ r, prngReg c r) := by
  unfold Φ0; rw [if_neg h]

/-- The proof data of the gating region on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (scr0 V c) (iblk0 V c 2 t) (iblk0 V c 3 t) (iblk0 V c 4 t) (iblk0 V c 5 t) (iblk0 V c 6 t)
  Φ t := Φ0 V c t
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_7 (c : Dev nD) (t : Fin cfg0.N) : (dat0 V c).after 7 t
    = out0_7 (iblk0 V c 0 t) (scr0 V c) (iblk0 V c 2 t) (iblk0 V c 3 t) (iblk0 V c 4 t) (iblk0 V c 5 t) (iblk0 V c 6 t) := by
  dsimp only [dat0]

theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]

theorem Φ_eq0 (c : Dev nD) (t : Fin (cfg0.N + 1)) : (dat0 V c).Φ t = Φ0 V c t := by dsimp only [dat0]

/-! ## What the body finds in the input windows' buffers

Each input window's current staging buffer holds its block at every point, fetched there or not: the input block is fetched
at every point, and the block index of the weight and bias windows never moves, so what the first point fetched is every
point's block. -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

/-! ## The body obligation -/

/-- What the body is called with at point t: the invariant, the core owing nothing, every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point. The inputs' buffers hold their blocks. At the first point the invariant hands the body the scratch
    at some contents and takes it back at the narrowed first weight array, which is this point's block of that window; at a
    later point it hands the scratch at the narrowed array and takes it back unchanged. The other scoped buffers, the
    generator register and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7, Φ_eq0, Φ_eq0,
    Φ0_pos V c t.succ (by rw [Fin.val_succ]; exact Nat.succ_ne_zero _)]
  by_cases ht : t.val = 0
  · obtain rfl : t = t0_0 := Fin.ext ht
    rw [Φ0_zero V c t0_0.castSucc ht]
    unfold Pipeline.ΦA
    rw [scopedRest0_split]
    iintro ⟨⟨⟨⟨%fs, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel_first c Set.univ (grid0.coords t0_0) ((hcond0 t0_0).mpr ht) _ _ _ _ _ _ _ _ _ _ _ _ _ _ _ _ _ _
      (iblk0 V c 0 t0_0) (iblk0 V c 1 t0_0) (iblk0 V c 2 t0_0) (iblk0 V c 3 t0_0) (iblk0 V c 4 t0_0) (iblk0 V c 5 t0_0) (iblk0 V c 6 t0_0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]
    · iexists fs; rw [owns_whole]; iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Φ0_pos V c t.castSucc ht]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel_later c Set.univ (grid0.coords t) (fun h => ht ((hcond0 t).mp h)) _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) (scr0 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- Entering the region: the generator register and the scoped buffers no window stages make the invariant before the
    first point. -/
theorem hin0 (c : Dev nD) :
    iprop((∃ r, prngReg c r) ∗ Pipeline.prefHeld (pcfgs (F := F) 0).pre c (fun _ => fullShare) ((cfgs 0).toPCfg_adm (Val := Elt F)).1
        ∗ Pipeline.scopedRest (Ix := Unit) (Name := ℕ) (U := UR sig nD τ) (Lvl := ℕ) (Val := Elt F) spec0 c)
      ⊢ ((dat0 V c).Φ 0 : sProp 𝕄) := by
  rw [Φ_eq0, Φ0_zero V c 0 rfl]
  unfold Pipeline.ΦA
  iintro ⟨Hg, -, Hs⟩
  isplitl [Hs]; · iexact Hs
  iexact Hg

/-- Leaving it: the invariant after the last point gives them back. -/
theorem hout0 (c : Dev nD) :
    ((dat0 V c).Φ (Fin.last cfg0.N) : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec0 c) := by
  rw [Φ_eq0, Φ0_pos V c (Fin.last cfg0.N) (by rw [Fin.val_last]; have : cfg0.N = 16 := N_0; omega),
    Pipeline.ownSems0_none, scopedRest0_split, owns_whole]
  iintro ⟨HS, HR, Hg⟩
  isplitl [Hg]; · iexact Hg
  isplitr; · iempintro
  isplitl [HS]; · iexists _; iexact HS
  iexact HR

/-- The body obligation at every point. -/
theorem body_obligation0 (c : Dev nD) : BodyObligation (dat0 (F := F) V c) (defs₀ (F := F)) Variants.none () Set.univ := fun t => by
  rw [bigSep_W0, bigSep_W0]
  exact sound_body0 V c t

end Gate

end Cert.Kernel.Fr

end
-- ==== Proof.Kernel.Fuse.lean ====
/-
  The fusion region (the second kernel region of the program), at any float instance and at any contents V of the
  core's buffers when the region is entered.

  At grid point t the body reads the t-th block of 256 rows of each graph, the gate weights whole and their t-th
  block of 256 rows (two windows on ONE array, so the core holds it half and half), and writes the 256 rows of smoothed
  gate weights and the 256 rows of the fused graph. Nothing is kept between points.
-/
import proofs.«153786_g11373073400015_week1_w4_273_15_alg».proof.Proof.Gen.Kernel.Launch
import proofs.«153786_g11373073400015_week1_w4_273_15_alg».proof.Proof.Gen.Kernel.Skeleton
import proofs.«153786_g11373073400015_week1_w4_273_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Fuse

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rA : Rect S256x4096 := Rect.unit (s := S256x4096) ![0, 0] S256x4096.size inb_S256x4096_S256x4096_0_0
abbrev rGall : Rect S4096x2 := Rect.unit (s := S4096x2) ![0, 0] S4096x2.size inb_S4096x2_S4096x2_0_0
abbrev rGrow : Rect S256x2 := Rect.unit (s := S256x2) ![0, 0] S256x2.size inb_S256x2_S256x2_0_0

/-- The smoothed-weights window's staging buffer after the body: its one store. -/
def out1_5 (g1 : Vec F S256x4096 .f32) (gall : Vec F S4096x2 .f32) (grow : Vec F S256x2 .f32) : Vec F S256x2 .f32 :=
  View.canon [⟨rGrow, k1_pay1 (View.ld g1 rA) (View.ld gall rGall) (View.ld grow rGrow)⟩]

/-- The fused-graph window's staging buffer after the body: its one store. -/
def out1_4 (g1 : Vec F S256x4096 .f32) (gall : Vec F S4096x2 .f32) (grow : Vec F S256x2 .f32) (g2 : Vec F S256x4096 .f32) :
    Vec F S256x4096 .f32 :=
  View.canon [⟨rA, k1_pay2 (View.ld g1 rA) (View.ld gall rGall) (View.ld grow rGrow) (View.ld g2 rA)⟩]

/-- The proof data of the fusion region on core c: the two windows on the gate weights hold the array at
    complementary halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 2 t) (iblk1 V c 3 t) (iblk1 V c 1 t)
    | ⟨5, _⟩ => out1_5 (iblk1 V c 0 t) (iblk1 V c 2 t) (iblk1 V c 3 t)
  Φ _ := Pipeline.ΦA spec1 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t
    = out1_4 (iblk1 V c 0 t) (iblk1 V c 2 t) (iblk1 V c 3 t) (iblk1 V c 1 t) := by dsimp only [dat1]
theorem after1_5 (c : Dev nD) (t : Fin cfg1.N) : (dat1 V c).after 5 t
    = out1_5 (iblk1 V c 0 t) (iblk1 V c 2 t) (iblk1 V c 3 t) := by dsimp only [dat1]

/-- What the body leaves in each input window's buffer: its block, in place. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-- Each input window's current staging buffer holds its block at every point, fetched there or not: unfetched, the
    block index has not moved, so the block left in place at the point before is this point's. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- Each output buffer's one store is through the whole-buffer rectangle, so it covers the buffer. -/
theorem cover1_5 (p0 : Vec F S256x2 .f32) (y : S256x2.Idx) :
    ∃ pc ∈ ([⟨rGrow, p0⟩] : List (View.Piece (Elt F) S256x2 .f32)), y ∈ pc.1.set :=
  View.cover_of_tiled [⟨rGrow, p0⟩] S256x2.size (by rfl) y
theorem cover1_4 (p0 : Vec F S256x4096 .f32) (y : S256x4096.Idx) :
    ∃ pc ∈ ([⟨rA, p0⟩] : List (View.Piece (Elt F) S256x4096 .f32)), y ∈ pc.1.set :=
  View.cover_of_tiled [⟨rA, p0⟩] S256x4096.size (by rfl) y

set_option maxHeartbeats 1000000 in
/-- The body on whole staging memrefs, the four inputs' at read contents g1, g2, gall, grow and the two outputs' at
    anything, runs to the continuation holding the inputs' as they were and each output's at its one store's
    contents. -/
theorem sound_kernel1 (c : Dev nD) (E : Set ℕ) (i : grid1.Coords)
    (arg1 : Memref sig .tc .vmem S256x4096 .f32) (harg1 : arg1.IsWhole)
    (arg2 : Memref sig .tc .vmem S256x4096 .f32) (harg2 : arg2.IsWhole)
    (arg3 : Memref sig .tc .vmem S4096x2 .f32) (harg3 : arg3.IsWhole)
    (arg4 : Memref sig .tc .vmem S256x2 .f32) (harg4 : arg4.IsWhole)
    (arg5 : Memref sig .tc .vmem S256x4096 .f32) (harg5 : arg5.IsWhole)
    (arg6 : Memref sig .tc .vmem S256x2 .f32) (harg6 : arg6.IsWhole)
    (g1 g2 : Vec F S256x4096 .f32) (gall : Vec F S4096x2 .f32) (grow : Vec F S256x2 .f32) (K : PUnit → sProp 𝕄) :
    iprop(owns (c : Thread nD τ) arg1 fullShare g1 ∗ owns (c : Thread nD τ) arg2 fullShare g2
        ∗ owns (c : Thread nD τ) arg3 fullShare gall ∗ owns (c : Thread nD τ) arg4 fullShare grow
        ∗ (∃ d, owns (c : Thread nD τ) arg5 fullShare d) ∗ (∃ d, owns (c : Thread nD τ) arg6 fullShare d)
        ∗ (iprop(owns (c : Thread nD τ) arg1 fullShare g1 ∗ owns (c : Thread nD τ) arg2 fullShare g2
            ∗ owns (c : Thread nD τ) arg3 fullShare gall ∗ owns (c : Thread nD τ) arg4 fullShare grow
            ∗ owns (c : Thread nD τ) arg5 fullShare (out1_4 g1 gall grow g2)
            ∗ owns (c : Thread nD τ) arg6 fullShare (out1_5 g1 gall grow)) -∗ K ⟨⟩))
      ⊢ wp frame (wpE (defs₀ (F := F)) Variants.none c none) E
          (cc1__fuse_body i arg1 harg1 arg2 harg2 arg3 harg3 arg4 harg4 arg5 harg5 arg6 harg6) K := by
  simp only [cc1__fuse_body_eq_skeleton]; unfold cc1__fuse_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_4 _)
  iexists _; isplitr
  swap; · iexact H6
  ipureintro
  exact View.read_writes_eq_canon _ _ _ (cover1_5 _)

/-- What the body is called with at point t: the invariant, what the core owes, and every window's current staging
    buffer at what it then holds, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' staging buffers hold their blocks, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation1 (c : Dev nD) : BodyObligation (dat1 (F := F) V c) (defs₀ (F := F)) Variants.none () Set.univ := fun t => by
  rw [bigSep_W1, bigSep_W1]
  exact sound_body1 V c t

end Fuse

end Cert.Kernel.Fr

end
-- ==== Proof.Kernel.Fold.lean ====
/-
  What a core's buffers hold at each boundary of the program: at launch, after the stretch of host operations that
  scale the third layer's weights and bias and reshape the three biases, after the gating region (the gate weights'
  array at what the region's write-backs leave, nothing else changed), after the fusion region (the two result arrays
  at what its write-backs leave, nothing else changed). No item writes an argument array, so each reaches the end as
  launched.
-/
import proofs.«153786_g11373073400015_week1_w4_273_15_alg».proof.Proof.Gen.Kernel.Launch
import proofs.«153786_g11373073400015_week1_w4_273_15_alg».proof.Proof.Gen.Kernel.Skeleton
import proofs.«153786_g11373073400015_week1_w4_273_15_alg».proof.Proof.Gen.Kernel.Points
import proofs.«153786_g11373073400015_week1_w4_273_15_alg».proof.Proof.Gen.Kernel.Regions
import proofs.«153786_g11373073400015_week1_w4_273_15_alg».proof.Proof.Kernel.Gate
import proofs.«153786_g11373073400015_week1_w4_273_15_alg».proof.Proof.Kernel.Fuse
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev B0 (c : Dev nD) : Valuation τ sig (Elt F) := fun b => m (c, b)
/-- After the host stretch. -/
abbrev B1 (c : Dev nD) : Valuation τ sig (Elt F) := StableHlo.after hostOps0 (B0 m c)
/-- The same at the TensorCore's references: what the gating region is entered at. -/
abbrev T1 : (c : Dev nD) → (b : Ref sig .tc) → Buf (Elt F) ((c : Thread nD τ).loc b) := fun c b => B1 m c b
/-- After the gating region: its arrays at what the pipeline leaves, every other buffer as entered. -/
def B2 (c : Dev nD) : Valuation τ sig (Elt F) :=
  Pipeline.withArrays spec0 c (B1 m c) fun w => (dat0 (T1 m) c).arrAt w cfg0.N
/-- The same at the TensorCore's references: what the fusion region is entered at. -/
abbrev T2 : (c : Dev nD) → (b : Ref sig .tc) → Buf (Elt F) ((c : Thread nD τ).loc b) := fun c b => B2 m c b
/-- After the fusion region: the two result arrays at what the pipeline leaves, every other buffer as entered (its
    input windows' arrays among them: two of them are one array, so the arrays are put back by name). -/
def B3 (c : Dev nD) : Valuation τ sig (Elt F) :=
  Function.update (Function.update (B2 m c) (Proc.devRef .tc main_v9_0) ((dat1 (T2 m) c).arrAt 4 cfg1.N))
    (Proc.devRef .tc main_v9_1) ((dat1 (T2 m) c).arrAt 5 cfg1.N)

theorem B2_arr (c : Dev nD) (w : Fin cfg0.W) :
    B2 m c (Proc.devRef .tc (Pipeline.arrRef spec0 w)) = (dat0 (T1 m) c).arrAt w cfg0.N := by
  unfold B2; exact Pipeline.withArrays_arr spec0 launch0.win.arr_inj c _ _ w

theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb

/-- The gate weights' array after the gating region. -/
theorem B2_main_v8 (c : Dev nD) : B2 m c (Proc.devRef .tc main_v8) = (dat0 (T1 m) c).arrAt 7 cfg0.N := B2_arr m c 7

theorem B3_main_v9_0 (c : Dev nD) : B3 m c (Proc.devRef .tc main_v9_0) = (dat1 (T2 m) c).arrAt 4 cfg1.N := by
  unfold B3
  rw [Function.update_of_ne (StableHlo.devRef_ne_of_ne (by decide) : (Proc.devRef .tc main_v9_0 : DevRef τ sig) ≠ Proc.devRef .tc main_v9_1),
    Function.update_self]

theorem B3_main_v9_1 (c : Dev nD) : B3 m c (Proc.devRef .tc main_v9_1) = (dat1 (T2 m) c).arrAt 5 cfg1.N := by
  unfold B3; rw [Function.update_self]

theorem B3_of_ne (c : Dev nD) (b : Ref sig .tc) (h0 : b ≠ main_v9_0) (h1 : b ≠ main_v9_1) :
    B3 m c (Proc.devRef .tc b) = B2 m c (Proc.devRef .tc b) := by
  unfold B3
  rw [Function.update_of_ne (StableHlo.devRef_ne_of_ne h1 : (Proc.devRef .tc b : DevRef τ sig) ≠ Proc.devRef .tc main_v9_1),
    Function.update_of_ne (StableHlo.devRef_ne_of_ne h0 : (Proc.devRef .tc b : DevRef τ sig) ≠ Proc.devRef .tc main_v9_0)]

/-- An argument array that is an input window's array of the gating region is unchanged by it. -/
theorem B2_in (c : Dev nD) (w : Fin cfg0.W) (hin : (cfg0.win w).isOut = false) :
    B2 m c (Proc.devRef .tc (Pipeline.arrRef spec0 w)) = B1 m c (Proc.devRef .tc (Pipeline.arrRef spec0 w)) :=
  (B2_arr m c w).trans (((dat0 (T1 m) c).arrAt_in w hin _).trans (A_eq0 (T1 m) c w))

theorem B3_main_arg0 (c : Dev nD) : B3 m c (Proc.devRef .tc main_arg0) = m ((c : Thread nD τ).loc main_arg0) :=
  (B3_of_ne m c main_arg0 (by decide) (by decide)).trans <| (B2_in m c 0 rfl).trans <| (V1_of m c main_arg0 (by decide)).trans rfl
theorem B3_main_arg1 (c : Dev nD) : B3 m c (Proc.devRef .tc main_arg1) = m ((c : Thread nD τ).loc main_arg1) :=
  (B3_of_ne m c main_arg1 (by decide) (by decide)).trans <| (B2_of_ne m c main_arg1 (by decide)).trans <| (V1_of m c main_arg1 (by decide)).trans rfl
theorem B3_main_arg2 (c : Dev nD) : B3 m c (Proc.devRef .tc main_arg2) = m ((c : Thread nD τ).loc main_arg2) :=
  (B3_of_ne m c main_arg2 (by decide) (by decide)).trans <| (B2_of_ne m c main_arg2 (by decide)).trans <| (V1_of m c main_arg2 (by decide)).trans rfl
theorem B3_main_arg3 (c : Dev nD) : B3 m c (Proc.devRef .tc main_arg3) = m ((c : Thread nD τ).loc main_arg3) :=
  (B3_of_ne m c main_arg3 (by decide) (by decide)).trans <| (B2_in m c 1 rfl).trans <| (V1_of m c main_arg3 (by decide)).trans rfl
theorem B3_main_arg4 (c : Dev nD) : B3 m c (Proc.devRef .tc main_arg4) = m ((c : Thread nD τ).loc main_arg4) :=
  (B3_of_ne m c main_arg4 (by decide) (by decide)).trans <| (B2_of_ne m c main_arg4 (by decide)).trans <| (V1_of m c main_arg4 (by decide)).trans rfl
theorem B3_main_arg5 (c : Dev nD) : B3 m c (Proc.devRef .tc main_arg5) = m ((c : Thread nD τ).loc main_arg5) :=
  (B3_of_ne m c main_arg5 (by decide) (by decide)).trans <| (B2_in m c 3 rfl).trans <| (V1_of m c main_arg5 (by decide)).trans rfl
theorem B3_main_arg6 (c : Dev nD) : B3 m c (Proc.devRef .tc main_arg6) = m ((c : Thread nD τ).loc main_arg6) :=
  (B3_of_ne m c main_arg6 (by decide) (by decide)).trans <| (B2_of_ne m c main_arg6 (by decide)).trans <| (V1_of m c main_arg6 (by decide)).trans rfl
theorem B3_main_arg7 (c : Dev nD) : B3 m c (Proc.devRef .tc main_arg7) = m ((c : Thread nD τ).loc main_arg7) :=
  (B3_of_ne m c main_arg7 (by decide) (by decide)).trans <| (B2_of_ne m c main_arg7 (by decide)).trans <| (V1_of m c main_arg7 (by decide)).trans rfl
theorem B3_main_arg8 (c : Dev nD) : B3 m c (Proc.devRef .tc main_arg8) = m ((c : Thread nD τ).loc main_arg8) :=
  (B3_of_ne m c main_arg8 (by decide) (by decide)).trans <| (B2_of_ne m c main_arg8 (by decide)).trans <| (V1_of m c main_arg8 (by decide)).trans rfl

end Cert.Kernel.Fr

end
-- ==== Proof.Kernel.Run.lean ====
/-
  The run of the program, at any float instance: from any memory with every counter at zero, every weakly fair
  execution terminates and leaves each unscoped buffer of a core at the last boundary's contents - the host stretch,
  then the gating region, then the fusion region, each entered from the thread state "every unscoped buffer held at the
  boundary's contents, the generator register at some state, nothing owed".

  The gating region's arrays are distinct buffers, each held whole. The fusion region reads the gate weights through
  two windows, so their array is dealt to the two windows half and half on the way in and joined again on the way out;
  its two result arrays come back at what the write-backs left.
-/
import proofs.«153786_g11373073400015_week1_w4_273_15_alg».proof.Proof.Gen.Kernel.Launch
import proofs.«153786_g11373073400015_week1_w4_273_15_alg».proof.Proof.Gen.Kernel.Skeleton
import proofs.«153786_g11373073400015_week1_w4_273_15_alg».proof.Proof.Gen.Kernel.Points
import proofs.«153786_g11373073400015_week1_w4_273_15_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The fusion region's arrays, in and out -/

section FuseArrays

variable (V V' : (c : Dev nD) → (b : Ref sig .tc) → Buf (Elt F) ((c : Thread nD τ).loc b))

/-- Window w's array of the fusion region, held at its share at contents f, is the buffer behind it held so. -/
theorem fuse_arr_eq (c : Dev nD) (w : Fin cfg1.W) (f : Buf (Elt F) ((cfg1.win w).arr.view.loc (c : Thread nD τ))) :
    ((cfg1.win w).arr.view.loc (c : Thread nD τ) ↦[(cfg1.win w).arr.view.set]{(dat1 V c).share w} f : sProp 𝕄)
      = (((c : Thread nD τ).loc (Pipeline.arrRef spec1 w)) ↦{(dat1 V c).share w} f) := by
  rw [(arr_whole1 w).set_eq_univ]

theorem share1_0 (c : Dev nD) : (dat1 V c).share 0 = fullShare := rfl
theorem share1_1 (c : Dev nD) : (dat1 V c).share 1 = fullShare := rfl
theorem share1_2 (c : Dev nD) : (dat1 V c).share 2 = fullShare.left := rfl
theorem share1_3 (c : Dev nD) : (dat1 V c).share 3 = fullShare.right := rfl
theorem share1_4 (c : Dev nD) : (dat1 V c).share 4 = fullShare := rfl
theorem share1_5 (c : Dev nD) : (dat1 V c).share 5 = fullShare := rfl

/-- Each window's array as the region finds it. -/
theorem arrAt1_zero (c : Dev nD) (w : Fin cfg1.W) : (dat1 V c).arrAt w 0 = V c (Pipeline.arrRef spec1 w) := A_eq1 V c w

/-- ENTRY: the five buffers behind the six windows, each whole at the full share, are the windows' arrays at their
    shares: the gate weights' full share is its left half with its right half. -/
theorem fuse_arrays_entry (c : Dev nD) :
    (Pipeline.arrBufs (Ix := Unit) (Name := ℕ) (U := UR sig nD τ) (Lvl := ℕ) spec1 c (V c) : sProp 𝕄)
      ⊢ (dat1 V c).arrays ((dat1 V c).arrAt · 0) := by
  have hb : (Pipeline.arrBufs (Ix := Unit) (Name := ℕ) (U := UR sig nD τ) (Lvl := ℕ) spec1 c (V c) : sProp 𝕄)
      = iprop((((c : Thread nD τ).loc main_arg1) ↦{fullShare} V c main_arg1) ∗ (((c : Thread nD τ).loc main_arg2) ↦{fullShare} V c main_arg2)
          ∗ (((c : Thread nD τ).loc main_v8) ↦{fullShare} V c main_v8) ∗ (((c : Thread nD τ).loc main_v9_0) ↦{fullShare} V c main_v9_0)
          ∗ (((c : Thread nD τ).loc main_v9_1) ↦{fullShare} V c main_v9_1)) :=
    bigSep_eq_bigSepL_of_eq [main_arg1, main_arg2, main_v8, main_v9_0, main_v9_1] (by decide) (by decide) _
  rw [hb]
  unfold Pipeline.Dat.arrays
  rw [bigSep_W1]
  simp only [View.set_whole]
  rw [share1_0, share1_1, share1_2, share1_3, share1_4, share1_5, arrAt1_zero, arrAt1_zero, arrAt1_zero, arrAt1_zero, arrAt1_zero, arrAt1_zero]
  show _ ⊢ (iprop((((c : Thread nD τ).loc main_arg1) ↦{fullShare} V c main_arg1) ∗ (((c : Thread nD τ).loc main_arg2) ↦{fullShare} V c main_arg2)
          ∗ (((c : Thread nD τ).loc main_v8) ↦{fullShare.left} V c main_v8) ∗ (((c : Thread nD τ).loc main_v8) ↦{fullShare.right} V c main_v8)
          ∗ (((c : Thread nD τ).loc main_v9_0) ↦{fullShare} V c main_v9_0) ∗ (((c : Thread nD τ).loc main_v9_1) ↦{fullShare} V c main_v9_1)) : sProp 𝕄)
  iintro ⟨H1, H2, H8, H90, H91⟩
  ihave H8' := (pointsTo_share (PosShare.mem_left_op_right fullShare)).1 $$ H8
  icases H8' with ⟨H8l, H8r⟩
  isplitl [H1]; · iexact H1
  isplitl [H2]; · iexact H2
  isplitl [H8l]; · iexact H8l
  isplitl [H8r]; · iexact H8r
  isplitl [H90]; · iexact H90
  iexact H91

/-- An input window's array is as the region found it, at every point. -/
theorem arrAt1_in (c : Dev nD) (w : Fin cfg1.W) (hin : (cfg1.win w).isOut = false) (n : Nat) :
    (dat1 V c).arrAt w n = V c (Pipeline.arrRef spec1 w) := ((dat1 V c).arrAt_in w hin n).trans (A_eq1 V c w)

/-- EXIT: the windows' arrays at what the write-backs leave - the inputs as found, the gate weights' two halves one
    full share again, the two results at their final contents - are the five buffers behind them, each whole at the
    full share. -/
theorem fuse_arrays_exit (c : Dev nD) :
    ((dat1 V c).arrays ((dat1 V c).arrAt · cfg1.N) : sProp 𝕄)
      ⊢ iprop((((c : Thread nD τ).loc main_arg1) ↦{fullShare} V c main_arg1) ∗ (((c : Thread nD τ).loc main_arg2) ↦{fullShare} V c main_arg2)
          ∗ (((c : Thread nD τ).loc main_v8) ↦{fullShare} V c main_v8) ∗ (((c : Thread nD τ).loc main_v9_0) ↦{fullShare} (dat1 V c).arrAt 4 cfg1.N)
          ∗ (((c : Thread nD τ).loc main_v9_1) ↦{fullShare} (dat1 V c).arrAt 5 cfg1.N)) := by
  unfold Pipeline.Dat.arrays
  rw [bigSep_W1]
  simp only [View.set_whole]
  rw [share1_0, share1_1, share1_2, share1_3, share1_4, share1_5, arrAt1_in V c 0 rfl, arrAt1_in V c 1 rfl, arrAt1_in V c 2 rfl,
    arrAt1_in V c 3 rfl]
  show (iprop((((c : Thread nD τ).loc main_arg1) ↦{fullShare} V c main_arg1) ∗ (((c : Thread nD τ).loc main_arg2) ↦{fullShare} V c main_arg2)
          ∗ (((c : Thread nD τ).loc main_v8) ↦{fullShare.left} V c main_v8) ∗ (((c : Thread nD τ).loc main_v8) ↦{fullShare.right} V c main_v8)
          ∗ (((c : Thread nD τ).loc main_v9_0) ↦{fullShare} (dat1 V c).arrAt 4 cfg1.N)
          ∗ (((c : Thread nD τ).loc main_v9_1) ↦{fullShare} (dat1 V c).arrAt 5 cfg1.N)) : sProp 𝕄) ⊢ _
  iintro ⟨H1, H2, H8l, H8r, H90, H91⟩
  isplitl [H1]; · iexact H1
  isplitl [H2]; · iexact H2
  isplitl [H8l H8r]
  · iapply (pointsTo_share (PosShare.mem_left_op_right fullShare)).2
    isplitl [H8l]; · iexact H8l
    iexact H8r
  isplitl [H90]; · iexact H90
  iexact H91

/-- The five buffers behind the fusion region's windows, each whole at the full share at contents V, one by one. -/
theorem fuse_arrBufs_eq (c : Dev nD) :
    (Pipeline.arrBufs (Ix := Unit) (Name := ℕ) (U := UR sig nD τ) (Lvl := ℕ) spec1 c (V c) : sProp 𝕄)
      = iprop((((c : Thread nD τ).loc main_arg1) ↦{fullShare} V c main_arg1) ∗ (((c : Thread nD τ).loc main_arg2) ↦{fullShare} V c main_arg2)
          ∗ (((c : Thread nD τ).loc main_v8) ↦{fullShare} V c main_v8) ∗ (((c : Thread nD τ).loc main_v9_0) ↦{fullShare} V c main_v9_0)
          ∗ (((c : Thread nD τ).loc main_v9_1) ↦{fullShare} V c main_v9_1)) :=
  bigSep_eq_bigSepL_of_eq [main_arg1, main_arg2, main_v8, main_v9_0, main_v9_1] (by decide) (by decide) _

end FuseArrays

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T2 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state, nothing owed. -/
abbrev R (c : Dev nD) : sProp 𝕄 := iprop((∃ r, prngReg c r) ∗ ∃ W, owes (c : Thread nD τ) (0 : CellTallies nD τ sig Unit) W)

/-- The host stretch as a segment from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes: every unscoped buffer at the last boundary's contents, the generator
    register at some state. -/
abbrev Tₙ (c : Dev nD) : sProp 𝕄 := iprop(StableHlo.held (c : Thread nD τ) (Pipeline.ucRefs τ sig) (B3 m c) ∗ ∃ r, prngReg c r)

/-- At the gating region's exit each of its arrays holds what the pipeline leaves and every other buffer what it held
    at entry. -/
theorem hF0 (c : Dev nD) (w : Fin cfg0.W) : (dat0 (T1 m) c).arrAt w cfg0.N = T2 m c (Pipeline.arrRef spec0 w) :=
  (B2_arr m c w).symm
theorem hrest0 (c : Dev nD) : ∀ b, b ∉ Finset.univ.image (Pipeline.arrRef spec0) → T2 m c b = T1 m c b :=
  fun b hb => B2_of_ne m c b fun w e => hb (Finset.mem_image.mpr ⟨w, Finset.mem_univ _, e⟩)

/-- The contents after the fusion region at the TensorCore's references. -/
abbrev T3 : (c : Dev nD) → (b : Ref sig .tc) → Buf (Elt F) ((c : Thread nD τ).loc b) := fun c b => B3 m c b

/-- Off the two result arrays the fusion region changes nothing. -/
theorem hrest1 (c : Dev nD) : ∀ b, b ∉ Finset.univ.image (Pipeline.arrRef spec1) → T3 m c b = T2 m c b :=
  fun b hb => B3_of_ne m c b (fun e => hb (e ▸ (by decide))) (fun e => hb (e ▸ (by decide)))

/-! ## The regions as segments -/

set_option backward.isDefEq.respectTransparency.types false in
/-- The gating region over the thread state: entered from every unscoped buffer at the contents after the host
    stretch, left with the gate weights' array at what the pipeline leaves. Its arrays are distinct buffers, split
    out of the unscoped buffers and put back; the generator register and the scoped rest go into the region's invariant
    and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (T1 m) c
  hout c := hout0 (T1 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fusion region over the thread state: entered from the contents the gating region left, left with the two
    result arrays at what the pipeline leaves. Two of its windows are on one array, so the buffers behind the windows
    are dealt to them by shares on the way in and joined on the way out. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (T2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hub : StableHlo.held (c : Thread nD τ) (Pipeline.ucRefs τ sig) (B2 m c)
        = (iprop(Pipeline.arrBufs (Ix := Unit) (Name := ℕ) (U := UR sig nD τ) (Lvl := ℕ) spec1 c (T2 m c) ∗ Pipeline.unscopedRest spec1 c (T2 m c)) : sProp 𝕄) := by
      rw [← Pipeline.unscopedBufs_held]
      exact Pipeline.unscopedBufs_split₀ (cfgs) 1 winFacts₀1.arr_unscoped c (T2 m c)
    rw [hub]
    iintro ⟨⟨Hub, Hp, HO⟩, -, -⟩
    icases Hub with ⟨Hb, Hrest⟩
    ihave Ha := (fuse_arrays_entry (T2 m) c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hub : StableHlo.held (c : Thread nD τ) (Pipeline.ucRefs τ sig) (B3 m c)
        = (iprop(Pipeline.arrBufs (Ix := Unit) (Name := ℕ) (U := UR sig nD τ) (Lvl := ℕ) spec1 c (T3 m c) ∗ Pipeline.unscopedRest spec1 c (T3 m c)) : sProp 𝕄) := by
      rw [← Pipeline.unscopedBufs_held]
      exact Pipeline.unscopedBufs_split₀ (cfgs) 1 winFacts₀1.arr_unscoped c (T3 m c)
    have hrest : (Pipeline.unscopedRest (Ix := Unit) (Name := ℕ) (U := UR sig nD τ) (Lvl := ℕ) spec1 c (T2 m c) : sProp 𝕄)
        = Pipeline.unscopedRest spec1 c (T3 m c) := by
      unfold Pipeline.unscopedRest
      exact bigSep_congr fun b hb => by rw [hrest1 m c b (Finset.mem_sdiff.mp hb).2]
    have hbufs : (Pipeline.arrBufs (Ix := Unit) (Name := ℕ) (U := UR sig nD τ) (Lvl := ℕ) spec1 c (T3 m c) : sProp 𝕄)
        = iprop((((c : Thread nD τ).loc main_arg1) ↦{fullShare} T2 m c main_arg1) ∗ (((c : Thread nD τ).loc main_arg2) ↦{fullShare} T2 m c main_arg2)
          ∗ (((c : Thread nD τ).loc main_v8) ↦{fullShare} T2 m c main_v8) ∗ (((c : Thread nD τ).loc main_v9_0) ↦{fullShare} (dat1 (T2 m) c).arrAt 4 cfg1.N)
          ∗ (((c : Thread nD τ).loc main_v9_1) ↦{fullShare} (dat1 (T2 m) c).arrAt 5 cfg1.N)) := by
      rw [fuse_arrBufs_eq (T3 m) c]
      show iprop((((c : Thread nD τ).loc main_arg1) ↦{fullShare} B3 m c (Proc.devRef .tc main_arg1)) ∗ (((c : Thread nD τ).loc main_arg2) ↦{fullShare} B3 m c (Proc.devRef .tc main_arg2))
          ∗ (((c : Thread nD τ).loc main_v8) ↦{fullShare} B3 m c (Proc.devRef .tc main_v8)) ∗ (((c : Thread nD τ).loc main_v9_0) ↦{fullShare} B3 m c (Proc.devRef .tc main_v9_0))
          ∗ (((c : Thread nD τ).loc main_v9_1) ↦{fullShare} B3 m c (Proc.devRef .tc main_v9_1))) = _
      rw [B3_of_ne m c main_arg1 (by decide) (by decide), B3_of_ne m c main_arg2 (by decide) (by decide), B3_of_ne m c main_v8 (by decide) (by decide),
        B3_main_v9_0, B3_main_v9_1]
    show iprop((dat1 (T2 m) c).arrays ((dat1 (T2 m) c).arrAt · cfg1.N) ∗ (dat1 (T2 m) c).owesAt () (Fin.last cfg1.N)
        ∗ (∃ r, prngReg c r) ∗ Pipeline.unscopedRest (Ix := Unit) (Name := ℕ) (U := UR sig nD τ) (Lvl := ℕ) spec1 c (T2 m c))
      ⊢ (|={Set.univ}=> iprop((StableHlo.held (c : Thread nD τ) (Pipeline.ucRefs τ sig) (B3 m c) ∗ ∃ r, prngReg c r)
          ∗ ∃ W, owes (c : Thread nD τ) (0 : CellTallies nD τ sig Unit) W) : sProp 𝕄)
    rw [hub, hbufs, ← hrest]
    iintro ⟨Ha, HO, HY, Hrest⟩
    ihave Hb := (fuse_arrays_exit (T2 m) c) $$ Ha
    imodintro
    isplitl [Hb Hrest HY]
    · isplitl [Hb Hrest]
      · isplitl [Hb]; · iexact Hb
        iexact Hrest
      iexact HY
    unfold Pipeline.Dat.owesAt Pipeline.owesWithin
    icases HO with ⟨%W, -, HO⟩; iexists W; iexact HO

/-! ## The program as segments, and the launch -/

/-- The program's three segments in order. -/
abbrev segs : List (Pipeline.Seg (pcfgs (F := F)) adm (pdats m) () defs₀ 𝒱₀ L lv) :=
  [ .host (hseg0 m), .region (reg0 m), .region (reg1 m) ]

/-- The program is the run of its segments. -/
theorem main_run (c : Dev nD) : main (F := F) c = Pipeline.Seg.run (segs m) := (main_chain c).trans (by chain_rfl)

set_option backward.isDefEq.respectTransparency.types false in
/-- From any memory with zero counters every weakly fair execution of the program terminates, nothing faulting, and
    every final state has each unscoped buffer of each core at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c),
     (h c _ (mem_uc main_arg5 (by decide))).trans (B3_main_arg5 m c),
     (h c _ (mem_uc main_arg6 (by decide))).trans (B3_main_arg6 m c),
     (h c _ (mem_uc main_arg7 (by decide))).trans (B3_main_arg7 m c),
     (h c _ (mem_uc main_arg8 (by decide))).trans (B3_main_arg8 m c)⟩) (run_all m ρ)

end Cert.Kernel.Fr

end
-- ==== Proof.KernelIdeal.Gate.lean ====
/-
  The gating region (the first kernel region of the program), at any float instance and at any contents V of the
  core's buffers when the region is entered.

  At grid point t the body reads the t-th block of 256 rows of the input, the three weight arrays and the three bias
  rows (whole, the same block at every point), and writes the 256 rows of gate weights of that block. A scratch
  buffer keeps the first weight array narrowed to the half-width format: it is filled at the first point and only read
  at the later ones, so between points the region's invariant holds it at that narrowed array.
-/
import proofs.«153786_g11373073400015_week1_w4_273_15_alg».proof.Proof.Gen.KernelIdeal.Launch
import proofs.«153786_g11373073400015_week1_w4_273_15_alg».proof.Proof.Gen.KernelIdeal.Skeleton
import proofs.«153786_g11373073400015_week1_w4_273_15_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Gate

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rZ : Rect S256x4096 := Rect.unit (s := S256x4096) ![0, 0] S256x4096.size inb_S256x4096_S256x4096_0_0
abbrev rW1 : Rect S4096x1024 := Rect.unit (s := S4096x1024) ![0, 0] S4096x1024.size inb_S4096x1024_S4096x1024_0_0
abbrev rB1 : Rect S1x1024 := Rect.unit (s := S1x1024) ![0, 0] S1x1024.size inb_S1x1024_S1x1024_0_0
abbrev rW2 : Rect S1024x64 := Rect.unit (s := S1024x64) ![0, 0] S1024x64.size inb_S1024x64_S1024x64_0_0
abbrev rB2 : Rect S1x64 := Rect.unit (s := S1x64) ![0, 0] S1x64.size inb_S1x64_S1x64_0_0
abbrev rW3 : Rect S64x2 := Rect.unit (s := S64x2) ![0, 0] S64x2.size inb_S64x2_S64x2_0_0
abbrev rB3 : Rect S1x2 := Rect.unit (s := S1x2) ![0, 0] S1x2.size inb_S1x2_S1x2_0_0
abbrev rG : Rect S256x2 := Rect.unit (s := S256x2) ![0, 0] S256x2.size inb_S256x2_S256x2_0_0

/-- What the scratch buffer holds from the first point on: the first weight array (the second window's block, the same
    at every point) narrowed. -/
def scr0 (c : Dev nD) : Vec F S4096x1024 .bf16 := k0_pay2 (View.ld (iblk0 V c 1 t0_0) rW1)

/-- The output window's staging buffer after the body, from the input blocks and the scratch: its one store. -/
def out0_7 (x0 : Vec F S256x4096 .f32) (scr : Vec F S4096x1024 .bf16) (x2 : Vec F S1x1024 .f32) (x3 : Vec F S1024x64 .f32)
    (x4 : Vec F S1x64 .f32) (x5 : Vec F S64x2 .f32) (x6 : Vec F S1x2 .f32) : Vec F S256x2 .f32 :=
  View.canon [⟨rG, k0_pay1
    (k0_pay3 (View.ld x0 rZ) (View.ld scr rW1) (View.ld x2 rB1) (View.ld x3 rW2) (View.ld x4 rB2))
    (k0_pay4 (View.ld x0 rZ) (View.ld scr rW1) (View.ld x2 rB1) (View.ld x3 rW2) (View.ld x4 rB2))
    (View.ld x5 rW3) (View.ld x6 rB3)⟩]

/-! ## The body on whole memrefs -/

/-- The zero offsets of a whole-buffer rectangle of rank two. -/
theorem hz2 : (![0, 0] : Fin 2 → Nat) = fun _ => 0 := funext fun a => by fin_cases a <;> rfl

/-- The body's one branch condition (is this the first grid point?), as a proposition of the grid coordinates. -/
abbrev cond0 (i : grid0.Coords) : Prop :=
  Scalar.cmpi .ne (Scalar.extui (Scalar.cmpi .eq (BitVec.ofNat 32 (i 0).val) 0#32) : BitVec 32) 0#32 = 1#1

/-- It holds at the first point and at no other. -/
theorem hcond0 : ∀ t : Fin cfg0.N, cond0 (grid0.coords t) ↔ t.val = 0 :=
  (by decide +kernel : ∀ t : Fin grid0.N, cond0 (grid0.coords t) ↔ t.val = 0)

/-- The one store into the output buffer covers it. -/
theorem cover0_7 (p : Vec F S256x2 .f32) (y : S256x2.Idx) :
    ∃ pc ∈ ([⟨rG, p⟩] : List (View.Piece (Elt F) S256x2 .f32)), y ∈ pc.1.set :=
  ⟨_, List.mem_singleton_self _, View.mem_set_unit_zero (S := S256x2) hz2 inb_S256x2_S256x2_0_0 y⟩

/-- The one store into the scratch buffer covers it. -/
theorem cover0_s (p : Vec F S4096x1024 .bf16) (y : S4096x1024.Idx) :
    ∃ pc ∈ ([⟨rW1, p⟩] : List (View.Piece (Elt F) S4096x1024 .bf16)), y ∈ pc.1.set :=
  ⟨_, List.mem_singleton_self _, View.mem_set_unit_zero (S := S4096x1024) hz2 inb_S4096x1024_S4096x1024_0_0 y⟩

set_option maxHeartbeats 4000000 in
/-- The body at a point after the first, on whole memrefs: the inputs at read contents, the scratch at contents s and
    the output at anything. The branch is not taken; the scratch is only read; the output is left at out0_7 of the
    inputs and s. -/
theorem sound_kernel_later (c : Dev nD) (E : Set ℕ) (i : grid0.Coords) (hc : ¬ cond0 i)
    (arg1 : Memref sig .tc .vmem S256x4096 .f32) (harg1 : arg1.IsWhole) (arg2 : Memref sig .tc .vmem S4096x1024 .f32) (harg2 : arg2.IsWhole) (arg3 : Memref sig .tc .vmem S1x1024 .f32) (harg3 : arg3.IsWhole) (arg4 : Memref sig .tc .vmem S1024x64 .f32) (harg4 : arg4.IsWhole) (arg5 : Memref sig .tc .vmem S1x64 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S256x2 .f32) (harg8 : arg8.IsWhole) (arg9 : Memref sig .tc .vmem S4096x1024 .bf16) (harg9 : arg9.IsWhole)
    (x0 : Vec F S256x4096 .f32) (x1 : Vec F S4096x1024 .f32) (x2 : Vec F S1x1024 .f32) (x3 : Vec F S1024x64 .f32)
    (x4 : Vec F S1x64 .f32) (x5 : Vec F S64x2 .f32) (x6 : Vec F S1x2 .f32) (s : Vec F S4096x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 s x2 x3 x4 x5 x6)
            ∗ owns (c : Thread nD τ) arg9 fullShare s) -∗ K ⟨⟩))
      ⊢ wp frame (wpE (defs₀ (F := F)) Variants.none c none) E (cc0__gate_body i arg1 harg1 arg2 harg2 arg3 harg3 arg4 harg4 arg5 harg5 arg6 harg6 arg7 harg7 arg8 harg8 arg9 harg9) K := by
  simp only [cc0__gate_body_eq_skeleton]; unfold cc0__gate_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf0 hf1 hf2 hf3 hf4 hf5 hf6 hf8
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists f8; isplitr; · ipureintro; rfl
  iexact H8

set_option maxHeartbeats 4000000 in
/-- The body at the first point: the branch is taken, the scratch (at anything before) is filled with the narrowed first
    weight array and read back; the output is left at out0_7 of the inputs and that narrowed array. -/
theorem sound_kernel_first (c : Dev nD) (E : Set ℕ) (i : grid0.Coords) (hc : cond0 i)
    (arg1 : Memref sig .tc .vmem S256x4096 .f32) (harg1 : arg1.IsWhole) (arg2 : Memref sig .tc .vmem S4096x1024 .f32) (harg2 : arg2.IsWhole) (arg3 : Memref sig .tc .vmem S1x1024 .f32) (harg3 : arg3.IsWhole) (arg4 : Memref sig .tc .vmem S1024x64 .f32) (harg4 : arg4.IsWhole) (arg5 : Memref sig .tc .vmem S1x64 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S256x2 .f32) (harg8 : arg8.IsWhole) (arg9 : Memref sig .tc .vmem S4096x1024 .bf16) (harg9 : arg9.IsWhole)
    (x0 : Vec F S256x4096 .f32) (x1 : Vec F S4096x1024 .f32) (x2 : Vec F S1x1024 .f32) (x3 : Vec F S1024x64 .f32)
    (x4 : Vec F S1x64 .f32) (x5 : Vec F S64x2 .f32) (x6 : Vec F S1x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ s, owns (c : Thread nD τ) arg9 fullShare s)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 (k0_pay2 (View.ld x1 rW1)) x2 x3 x4 x5 x6)
            ∗ owns (c : Thread nD τ) arg9 fullShare (k0_pay2 (View.ld x1 rW1))) -∗ K ⟨⟩))
      ⊢ wp frame (wpE (defs₀ (F := F)) Variants.none c none) E (cc0__gate_body i arg1 harg1 arg2 harg2 arg3 harg3 arg4 harg4 arg5 harg5 arg6 harg6 arg7 harg7 arg8 harg8 arg9 harg9) K := by
  simp only [cc0__gate_body_eq_skeleton]; unfold cc0__gate_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%s, %f8, -, H8⟩, Hk⟩
  subst hf0 hf1 hf2 hf3 hf4 hf5 hf6
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover0_7 _)]
    sl_unfold_run_names
    rw [View.readCov_unit_zero (S := S4096x1024) _ hz2]
    unfold out0_7
    simp only [View.readAt_eq_ld, View.ld_unit_zero (S := S4096x1024) hz2]
  iexists _; isplitr
  swap; · iexact H8
  ipureintro
  sl_unfold_run_names
  rw [View.read_writes_eq_canon _ _ _ (cover0_s _), View.canon_unit_zero (S := S4096x1024) hz2]
  rfl

/-! ## The region's invariant -/

/-- The core's scoped buffers that are neither a staging buffer of this region nor its scratch (the staging buffers of the
    program's other region), each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The scoped buffers the region does not stage: the scratch and the rest. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ rest0 c) := by
  rw [Gen.scopedRest0_eq]; rfl

/-- The region's invariant before point t: before the first point the scratch, like every other scoped buffer the region does
    not stage, is at some contents; before any later point (and after the last) it holds the first weight array narrowed. The
    generator register is at some state throughout. -/
def Φ0 (c : Dev nD) (t : Fin (cfg0.N + 1)) : sProp 𝕄 :=
  if t.val = 0 then Pipeline.ΦA spec0 c
  else iprop(owns (c : Thread nD τ) (Memref.whole cc0_scratch0) fullShare (scr0 V c) ∗ rest0 c ∗ ∃ r, prngReg c r)

theorem Φ0_zero (c : Dev nD) (t : Fin (cfg0.N + 1)) (h : t.val = 0) : Φ0 V c t = Pipeline.ΦA spec0 c := by
  unfold Φ0; rw [if_pos h]

theorem Φ0_pos (c : Dev nD) (t : Fin (cfg0.N + 1)) (h : t.val ≠ 0) :
    Φ0 V c t = iprop(owns (c : Thread nD τ) (Memref.whole cc0_scratch0) fullShare (scr0 V c) ∗ rest0 c ∗ ∃ r, prngReg c r) := by
  unfold Φ0; rw [if_neg h]

/-- The proof data of the gating region on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (scr0 V c) (iblk0 V c 2 t) (iblk0 V c 3 t) (iblk0 V c 4 t) (iblk0 V c 5 t) (iblk0 V c 6 t)
  Φ t := Φ0 V c t
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_7 (c : Dev nD) (t : Fin cfg0.N) : (dat0 V c).after 7 t
    = out0_7 (iblk0 V c 0 t) (scr0 V c) (iblk0 V c 2 t) (iblk0 V c 3 t) (iblk0 V c 4 t) (iblk0 V c 5 t) (iblk0 V c 6 t) := by
  dsimp only [dat0]

theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]

theorem Φ_eq0 (c : Dev nD) (t : Fin (cfg0.N + 1)) : (dat0 V c).Φ t = Φ0 V c t := by dsimp only [dat0]

/-! ## What the body finds in the input windows' buffers

Each input window's current staging buffer holds its block at every point, fetched there or not: the input block is fetched
at every point, and the block index of the weight and bias windows never moves, so what the first point fetched is every
point's block. -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

/-! ## The body obligation -/

/-- What the body is called with at point t: the invariant, the core owing nothing, every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point. The inputs' buffers hold their blocks. At the first point the invariant hands the body the scratch
    at some contents and takes it back at the narrowed first weight array, which is this point's block of that window; at a
    later point it hands the scratch at the narrowed array and takes it back unchanged. The other scoped buffers, the
    generator register and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7, Φ_eq0, Φ_eq0,
    Φ0_pos V c t.succ (by rw [Fin.val_succ]; exact Nat.succ_ne_zero _)]
  by_cases ht : t.val = 0
  · obtain rfl : t = t0_0 := Fin.ext ht
    rw [Φ0_zero V c t0_0.castSucc ht]
    unfold Pipeline.ΦA
    rw [scopedRest0_split]
    iintro ⟨⟨⟨⟨%fs, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel_first c Set.univ (grid0.coords t0_0) ((hcond0 t0_0).mpr ht) _ _ _ _ _ _ _ _ _ _ _ _ _ _ _ _ _ _
      (iblk0 V c 0 t0_0) (iblk0 V c 1 t0_0) (iblk0 V c 2 t0_0) (iblk0 V c 3 t0_0) (iblk0 V c 4 t0_0) (iblk0 V c 5 t0_0) (iblk0 V c 6 t0_0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]
    · iexists fs; rw [owns_whole]; iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Φ0_pos V c t.castSucc ht]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel_later c Set.univ (grid0.coords t) (fun h => ht ((hcond0 t).mp h)) _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) (scr0 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- Entering the region: the generator register and the scoped buffers no window stages make the invariant before the
    first point. -/
theorem hin0 (c : Dev nD) :
    iprop((∃ r, prngReg c r) ∗ Pipeline.prefHeld (pcfgs (F := F) 0).pre c (fun _ => fullShare) ((cfgs 0).toPCfg_adm (Val := Elt F)).1
        ∗ Pipeline.scopedRest (Ix := Unit) (Name := ℕ) (U := UR sig nD τ) (Lvl := ℕ) (Val := Elt F) spec0 c)
      ⊢ ((dat0 V c).Φ 0 : sProp 𝕄) := by
  rw [Φ_eq0, Φ0_zero V c 0 rfl]
  unfold Pipeline.ΦA
  iintro ⟨Hg, -, Hs⟩
  isplitl [Hs]; · iexact Hs
  iexact Hg

/-- Leaving it: the invariant after the last point gives them back. -/
theorem hout0 (c : Dev nD) :
    ((dat0 V c).Φ (Fin.last cfg0.N) : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec0 c) := by
  rw [Φ_eq0, Φ0_pos V c (Fin.last cfg0.N) (by rw [Fin.val_last]; have : cfg0.N = 16 := N_0; omega),
    Pipeline.ownSems0_none, scopedRest0_split, owns_whole]
  iintro ⟨HS, HR, Hg⟩
  isplitl [Hg]; · iexact Hg
  isplitr; · iempintro
  isplitl [HS]; · iexists _; iexact HS
  iexact HR

/-- The body obligation at every point. -/
theorem body_obligation0 (c : Dev nD) : BodyObligation (dat0 (F := F) V c) (defs₀ (F := F)) Variants.none () Set.univ := fun t => by
  rw [bigSep_W0, bigSep_W0]
  exact sound_body0 V c t

end Gate

end Cert.KernelIdeal.Fr

end
-- ==== Proof.KernelIdeal.Fuse.lean ====
/-
  The fusion region (the second kernel region of the program), at any float instance and at any contents V of the
  core's buffers when the region is entered.

  At grid point t the body reads the t-th block of 256 rows of each graph, the gate weights whole and their t-th
  block of 256 rows (two windows on ONE array, so the core holds it half and half), and writes the 256 rows of smoothed
  gate weights and the 256 rows of the fused graph. Nothing is kept between points.
-/
import proofs.«153786_g11373073400015_week1_w4_273_15_alg».proof.Proof.Gen.KernelIdeal.Launch
import proofs.«153786_g11373073400015_week1_w4_273_15_alg».proof.Proof.Gen.KernelIdeal.Skeleton
import proofs.«153786_g11373073400015_week1_w4_273_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Fuse

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rA : Rect S256x4096 := Rect.unit (s := S256x4096) ![0, 0] S256x4096.size inb_S256x4096_S256x4096_0_0
abbrev rGall : Rect S4096x2 := Rect.unit (s := S4096x2) ![0, 0] S4096x2.size inb_S4096x2_S4096x2_0_0
abbrev rGrow : Rect S256x2 := Rect.unit (s := S256x2) ![0, 0] S256x2.size inb_S256x2_S256x2_0_0

/-- The smoothed-weights window's staging buffer after the body: its one store. -/
def out1_5 (g1 : Vec F S256x4096 .f32) (gall : Vec F S4096x2 .f32) (grow : Vec F S256x2 .f32) : Vec F S256x2 .f32 :=
  View.canon [⟨rGrow, k1_pay1 (View.ld g1 rA) (View.ld gall rGall) (View.ld grow rGrow)⟩]

/-- The fused-graph window's staging buffer after the body: its one store. -/
def out1_4 (g1 : Vec F S256x4096 .f32) (gall : Vec F S4096x2 .f32) (grow : Vec F S256x2 .f32) (g2 : Vec F S256x4096 .f32) :
    Vec F S256x4096 .f32 :=
  View.canon [⟨rA, k1_pay2 (View.ld g1 rA) (View.ld gall rGall) (View.ld grow rGrow) (View.ld g2 rA)⟩]

/-- The proof data of the fusion region on core c: the two windows on the gate weights hold the array at
    complementary halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 2 t) (iblk1 V c 3 t) (iblk1 V c 1 t)
    | ⟨5, _⟩ => out1_5 (iblk1 V c 0 t) (iblk1 V c 2 t) (iblk1 V c 3 t)
  Φ _ := Pipeline.ΦA spec1 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t
    = out1_4 (iblk1 V c 0 t) (iblk1 V c 2 t) (iblk1 V c 3 t) (iblk1 V c 1 t) := by dsimp only [dat1]
theorem after1_5 (c : Dev nD) (t : Fin cfg1.N) : (dat1 V c).after 5 t
    = out1_5 (iblk1 V c 0 t) (iblk1 V c 2 t) (iblk1 V c 3 t) := by dsimp only [dat1]

/-- What the body leaves in each input window's buffer: its block, in place. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-- Each input window's current staging buffer holds its block at every point, fetched there or not: unfetched, the
    block index has not moved, so the block left in place at the point before is this point's. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- Each output buffer's one store is through the whole-buffer rectangle, so it covers the buffer. -/
theorem cover1_5 (p0 : Vec F S256x2 .f32) (y : S256x2.Idx) :
    ∃ pc ∈ ([⟨rGrow, p0⟩] : List (View.Piece (Elt F) S256x2 .f32)), y ∈ pc.1.set :=
  View.cover_of_tiled [⟨rGrow, p0⟩] S256x2.size (by rfl) y
theorem cover1_4 (p0 : Vec F S256x4096 .f32) (y : S256x4096.Idx) :
    ∃ pc ∈ ([⟨rA, p0⟩] : List (View.Piece (Elt F) S256x4096 .f32)), y ∈ pc.1.set :=
  View.cover_of_tiled [⟨rA, p0⟩] S256x4096.size (by rfl) y

set_option maxHeartbeats 1000000 in
/-- The body on whole staging memrefs, the four inputs' at read contents g1, g2, gall, grow and the two outputs' at
    anything, runs to the continuation holding the inputs' as they were and each output's at its one store's
    contents. -/
theorem sound_kernel1 (c : Dev nD) (E : Set ℕ) (i : grid1.Coords)
    (arg1 : Memref sig .tc .vmem S256x4096 .f32) (harg1 : arg1.IsWhole)
    (arg2 : Memref sig .tc .vmem S256x4096 .f32) (harg2 : arg2.IsWhole)
    (arg3 : Memref sig .tc .vmem S4096x2 .f32) (harg3 : arg3.IsWhole)
    (arg4 : Memref sig .tc .vmem S256x2 .f32) (harg4 : arg4.IsWhole)
    (arg5 : Memref sig .tc .vmem S256x4096 .f32) (harg5 : arg5.IsWhole)
    (arg6 : Memref sig .tc .vmem S256x2 .f32) (harg6 : arg6.IsWhole)
    (g1 g2 : Vec F S256x4096 .f32) (gall : Vec F S4096x2 .f32) (grow : Vec F S256x2 .f32) (K : PUnit → sProp 𝕄) :
    iprop(owns (c : Thread nD τ) arg1 fullShare g1 ∗ owns (c : Thread nD τ) arg2 fullShare g2
        ∗ owns (c : Thread nD τ) arg3 fullShare gall ∗ owns (c : Thread nD τ) arg4 fullShare grow
        ∗ (∃ d, owns (c : Thread nD τ) arg5 fullShare d) ∗ (∃ d, owns (c : Thread nD τ) arg6 fullShare d)
        ∗ (iprop(owns (c : Thread nD τ) arg1 fullShare g1 ∗ owns (c : Thread nD τ) arg2 fullShare g2
            ∗ owns (c : Thread nD τ) arg3 fullShare gall ∗ owns (c : Thread nD τ) arg4 fullShare grow
            ∗ owns (c : Thread nD τ) arg5 fullShare (out1_4 g1 gall grow g2)
            ∗ owns (c : Thread nD τ) arg6 fullShare (out1_5 g1 gall grow)) -∗ K ⟨⟩))
      ⊢ wp frame (wpE (defs₀ (F := F)) Variants.none c none) E
          (cc1__fuse_body i arg1 harg1 arg2 harg2 arg3 harg3 arg4 harg4 arg5 harg5 arg6 harg6) K := by
  simp only [cc1__fuse_body_eq_skeleton]; unfold cc1__fuse_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_4 _)
  iexists _; isplitr
  swap; · iexact H6
  ipureintro
  exact View.read_writes_eq_canon _ _ _ (cover1_5 _)

/-- What the body is called with at point t: the invariant, what the core owes, and every window's current staging
    buffer at what it then holds, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' staging buffers hold their blocks, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation1 (c : Dev nD) : BodyObligation (dat1 (F := F) V c) (defs₀ (F := F)) Variants.none () Set.univ := fun t => by
  rw [bigSep_W1, bigSep_W1]
  exact sound_body1 V c t

end Fuse

end Cert.KernelIdeal.Fr

end
-- ==== Proof.KernelIdeal.Fold.lean ====
/-
  What a core's buffers hold at each boundary of the program: at launch, after the stretch of host operations that
  scale the third layer's weights and bias and reshape the three biases, after the gating region (the gate weights'
  array at what the region's write-backs leave, nothing else changed), after the fusion region (the two result arrays
  at what its write-backs leave, nothing else changed). No item writes an argument array, so each reaches the end as
  launched.
-/
import proofs.«153786_g11373073400015_week1_w4_273_15_alg».proof.Proof.Gen.KernelIdeal.Launch
import proofs.«153786_g11373073400015_week1_w4_273_15_alg».proof.Proof.Gen.KernelIdeal.Skeleton
import proofs.«153786_g11373073400015_week1_w4_273_15_alg».proof.Proof.Gen.KernelIdeal.Points
import proofs.«153786_g11373073400015_week1_w4_273_15_alg».proof.Proof.Gen.KernelIdeal.Regions
import proofs.«153786_g11373073400015_week1_w4_273_15_alg».proof.Proof.KernelIdeal.Gate
import proofs.«153786_g11373073400015_week1_w4_273_15_alg».proof.Proof.KernelIdeal.Fuse
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev B0 (c : Dev nD) : Valuation τ sig (Elt F) := fun b => m (c, b)
/-- After the host stretch. -/
abbrev B1 (c : Dev nD) : Valuation τ sig (Elt F) := StableHlo.after hostOps0 (B0 m c)
/-- The same at the TensorCore's references: what the gating region is entered at. -/
abbrev T1 : (c : Dev nD) → (b : Ref sig .tc) → Buf (Elt F) ((c : Thread nD τ).loc b) := fun c b => B1 m c b
/-- After the gating region: its arrays at what the pipeline leaves, every other buffer as entered. -/
def B2 (c : Dev nD) : Valuation τ sig (Elt F) :=
  Pipeline.withArrays spec0 c (B1 m c) fun w => (dat0 (T1 m) c).arrAt w cfg0.N
/-- The same at the TensorCore's references: what the fusion region is entered at. -/
abbrev T2 : (c : Dev nD) → (b : Ref sig .tc) → Buf (Elt F) ((c : Thread nD τ).loc b) := fun c b => B2 m c b
/-- After the fusion region: the two result arrays at what the pipeline leaves, every other buffer as entered (its
    input windows' arrays among them: two of them are one array, so the arrays are put back by name). -/
def B3 (c : Dev nD) : Valuation τ sig (Elt F) :=
  Function.update (Function.update (B2 m c) (Proc.devRef .tc main_v9_0) ((dat1 (T2 m) c).arrAt 4 cfg1.N))
    (Proc.devRef .tc main_v9_1) ((dat1 (T2 m) c).arrAt 5 cfg1.N)

theorem B2_arr (c : Dev nD) (w : Fin cfg0.W) :
    B2 m c (Proc.devRef .tc (Pipeline.arrRef spec0 w)) = (dat0 (T1 m) c).arrAt w cfg0.N := by
  unfold B2; exact Pipeline.withArrays_arr spec0 launch0.win.arr_inj c _ _ w

theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb

/-- The gate weights' array after the gating region. -/
theorem B2_main_v8 (c : Dev nD) : B2 m c (Proc.devRef .tc main_v8) = (dat0 (T1 m) c).arrAt 7 cfg0.N := B2_arr m c 7

theorem B3_main_v9_0 (c : Dev nD) : B3 m c (Proc.devRef .tc main_v9_0) = (dat1 (T2 m) c).arrAt 4 cfg1.N := by
  unfold B3
  rw [Function.update_of_ne (StableHlo.devRef_ne_of_ne (by decide) : (Proc.devRef .tc main_v9_0 : DevRef τ sig) ≠ Proc.devRef .tc main_v9_1),
    Function.update_self]

theorem B3_main_v9_1 (c : Dev nD) : B3 m c (Proc.devRef .tc main_v9_1) = (dat1 (T2 m) c).arrAt 5 cfg1.N := by
  unfold B3; rw [Function.update_self]

theorem B3_of_ne (c : Dev nD) (b : Ref sig .tc) (h0 : b ≠ main_v9_0) (h1 : b ≠ main_v9_1) :
    B3 m c (Proc.devRef .tc b) = B2 m c (Proc.devRef .tc b) := by
  unfold B3
  rw [Function.update_of_ne (StableHlo.devRef_ne_of_ne h1 : (Proc.devRef .tc b : DevRef τ sig) ≠ Proc.devRef .tc main_v9_1),
    Function.update_of_ne (StableHlo.devRef_ne_of_ne h0 : (Proc.devRef .tc b : DevRef τ sig) ≠ Proc.devRef .tc main_v9_0)]

/-- An argument array that is an input window's array of the gating region is unchanged by it. -/
theorem B2_in (c : Dev nD) (w : Fin cfg0.W) (hin : (cfg0.win w).isOut = false) :
    B2 m c (Proc.devRef .tc (Pipeline.arrRef spec0 w)) = B1 m c (Proc.devRef .tc (Pipeline.arrRef spec0 w)) :=
  (B2_arr m c w).trans (((dat0 (T1 m) c).arrAt_in w hin _).trans (A_eq0 (T1 m) c w))

theorem B3_main_arg0 (c : Dev nD) : B3 m c (Proc.devRef .tc main_arg0) = m ((c : Thread nD τ).loc main_arg0) :=
  (B3_of_ne m c main_arg0 (by decide) (by decide)).trans <| (B2_in m c 0 rfl).trans <| (V1_of m c main_arg0 (by decide)).trans rfl
theorem B3_main_arg1 (c : Dev nD) : B3 m c (Proc.devRef .tc main_arg1) = m ((c : Thread nD τ).loc main_arg1) :=
  (B3_of_ne m c main_arg1 (by decide) (by decide)).trans <| (B2_of_ne m c main_arg1 (by decide)).trans <| (V1_of m c main_arg1 (by decide)).trans rfl
theorem B3_main_arg2 (c : Dev nD) : B3 m c (Proc.devRef .tc main_arg2) = m ((c : Thread nD τ).loc main_arg2) :=
  (B3_of_ne m c main_arg2 (by decide) (by decide)).trans <| (B2_of_ne m c main_arg2 (by decide)).trans <| (V1_of m c main_arg2 (by decide)).trans rfl
theorem B3_main_arg3 (c : Dev nD) : B3 m c (Proc.devRef .tc main_arg3) = m ((c : Thread nD τ).loc main_arg3) :=
  (B3_of_ne m c main_arg3 (by decide) (by decide)).trans <| (B2_in m c 1 rfl).trans <| (V1_of m c main_arg3 (by decide)).trans rfl
theorem B3_main_arg4 (c : Dev nD) : B3 m c (Proc.devRef .tc main_arg4) = m ((c : Thread nD τ).loc main_arg4) :=
  (B3_of_ne m c main_arg4 (by decide) (by decide)).trans <| (B2_of_ne m c main_arg4 (by decide)).trans <| (V1_of m c main_arg4 (by decide)).trans rfl
theorem B3_main_arg5 (c : Dev nD) : B3 m c (Proc.devRef .tc main_arg5) = m ((c : Thread nD τ).loc main_arg5) :=
  (B3_of_ne m c main_arg5 (by decide) (by decide)).trans <| (B2_in m c 3 rfl).trans <| (V1_of m c main_arg5 (by decide)).trans rfl
theorem B3_main_arg6 (c : Dev nD) : B3 m c (Proc.devRef .tc main_arg6) = m ((c : Thread nD τ).loc main_arg6) :=
  (B3_of_ne m c main_arg6 (by decide) (by decide)).trans <| (B2_of_ne m c main_arg6 (by decide)).trans <| (V1_of m c main_arg6 (by decide)).trans rfl
theorem B3_main_arg7 (c : Dev nD) : B3 m c (Proc.devRef .tc main_arg7) = m ((c : Thread nD τ).loc main_arg7) :=
  (B3_of_ne m c main_arg7 (by decide) (by decide)).trans <| (B2_of_ne m c main_arg7 (by decide)).trans <| (V1_of m c main_arg7 (by decide)).trans rfl
theorem B3_main_arg8 (c : Dev nD) : B3 m c (Proc.devRef .tc main_arg8) = m ((c : Thread nD τ).loc main_arg8) :=
  (B3_of_ne m c main_arg8 (by decide) (by decide)).trans <| (B2_of_ne m c main_arg8 (by decide)).trans <| (V1_of m c main_arg8 (by decide)).trans rfl

end Cert.KernelIdeal.Fr

end
-- ==== Proof.KernelIdeal.Run.lean ====
/-
  The run of the program, at any float instance: from any memory with every counter at zero, every weakly fair
  execution terminates and leaves each unscoped buffer of a core at the last boundary's contents - the host stretch,
  then the gating region, then the fusion region, each entered from the thread state "every unscoped buffer held at the
  boundary's contents, the generator register at some state, nothing owed".

  The gating region's arrays are distinct buffers, each held whole. The fusion region reads the gate weights through
  two windows, so their array is dealt to the two windows half and half on the way in and joined again on the way out;
  its two result arrays come back at what the write-backs left.
-/
import proofs.«153786_g11373073400015_week1_w4_273_15_alg».proof.Proof.Gen.KernelIdeal.Launch
import proofs.«153786_g11373073400015_week1_w4_273_15_alg».proof.Proof.Gen.KernelIdeal.Skeleton
import proofs.«153786_g11373073400015_week1_w4_273_15_alg».proof.Proof.Gen.KernelIdeal.Points
import proofs.«153786_g11373073400015_week1_w4_273_15_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The fusion region's arrays, in and out -/

section FuseArrays

variable (V V' : (c : Dev nD) → (b : Ref sig .tc) → Buf (Elt F) ((c : Thread nD τ).loc b))

/-- Window w's array of the fusion region, held at its share at contents f, is the buffer behind it held so. -/
theorem fuse_arr_eq (c : Dev nD) (w : Fin cfg1.W) (f : Buf (Elt F) ((cfg1.win w).arr.view.loc (c : Thread nD τ))) :
    ((cfg1.win w).arr.view.loc (c : Thread nD τ) ↦[(cfg1.win w).arr.view.set]{(dat1 V c).share w} f : sProp 𝕄)
      = (((c : Thread nD τ).loc (Pipeline.arrRef spec1 w)) ↦{(dat1 V c).share w} f) := by
  rw [(arr_whole1 w).set_eq_univ]

theorem share1_0 (c : Dev nD) : (dat1 V c).share 0 = fullShare := rfl
theorem share1_1 (c : Dev nD) : (dat1 V c).share 1 = fullShare := rfl
theorem share1_2 (c : Dev nD) : (dat1 V c).share 2 = fullShare.left := rfl
theorem share1_3 (c : Dev nD) : (dat1 V c).share 3 = fullShare.right := rfl
theorem share1_4 (c : Dev nD) : (dat1 V c).share 4 = fullShare := rfl
theorem share1_5 (c : Dev nD) : (dat1 V c).share 5 = fullShare := rfl

/-- Each window's array as the region finds it. -/
theorem arrAt1_zero (c : Dev nD) (w : Fin cfg1.W) : (dat1 V c).arrAt w 0 = V c (Pipeline.arrRef spec1 w) := A_eq1 V c w

/-- ENTRY: the five buffers behind the six windows, each whole at the full share, are the windows' arrays at their
    shares: the gate weights' full share is its left half with its right half. -/
theorem fuse_arrays_entry (c : Dev nD) :
    (Pipeline.arrBufs (Ix := Unit) (Name := ℕ) (U := UR sig nD τ) (Lvl := ℕ) spec1 c (V c) : sProp 𝕄)
      ⊢ (dat1 V c).arrays ((dat1 V c).arrAt · 0) := by
  have hb : (Pipeline.arrBufs (Ix := Unit) (Name := ℕ) (U := UR sig nD τ) (Lvl := ℕ) spec1 c (V c) : sProp 𝕄)
      = iprop((((c : Thread nD τ).loc main_arg1) ↦{fullShare} V c main_arg1) ∗ (((c : Thread nD τ).loc main_arg2) ↦{fullShare} V c main_arg2)
          ∗ (((c : Thread nD τ).loc main_v8) ↦{fullShare} V c main_v8) ∗ (((c : Thread nD τ).loc main_v9_0) ↦{fullShare} V c main_v9_0)
          ∗ (((c : Thread nD τ).loc main_v9_1) ↦{fullShare} V c main_v9_1)) :=
    bigSep_eq_bigSepL_of_eq [main_arg1, main_arg2, main_v8, main_v9_0, main_v9_1] (by decide) (by decide) _
  rw [hb]
  unfold Pipeline.Dat.arrays
  rw [bigSep_W1]
  simp only [View.set_whole]
  rw [share1_0, share1_1, share1_2, share1_3, share1_4, share1_5, arrAt1_zero, arrAt1_zero, arrAt1_zero, arrAt1_zero, arrAt1_zero, arrAt1_zero]
  show _ ⊢ (iprop((((c : Thread nD τ).loc main_arg1) ↦{fullShare} V c main_arg1) ∗ (((c : Thread nD τ).loc main_arg2) ↦{fullShare} V c main_arg2)
          ∗ (((c : Thread nD τ).loc main_v8) ↦{fullShare.left} V c main_v8) ∗ (((c : Thread nD τ).loc main_v8) ↦{fullShare.right} V c main_v8)
          ∗ (((c : Thread nD τ).loc main_v9_0) ↦{fullShare} V c main_v9_0) ∗ (((c : Thread nD τ).loc main_v9_1) ↦{fullShare} V c main_v9_1)) : sProp 𝕄)
  iintro ⟨H1, H2, H8, H90, H91⟩
  ihave H8' := (pointsTo_share (PosShare.mem_left_op_right fullShare)).1 $$ H8
  icases H8' with ⟨H8l, H8r⟩
  isplitl [H1]; · iexact H1
  isplitl [H2]; · iexact H2
  isplitl [H8l]; · iexact H8l
  isplitl [H8r]; · iexact H8r
  isplitl [H90]; · iexact H90
  iexact H91

/-- An input window's array is as the region found it, at every point. -/
theorem arrAt1_in (c : Dev nD) (w : Fin cfg1.W) (hin : (cfg1.win w).isOut = false) (n : Nat) :
    (dat1 V c).arrAt w n = V c (Pipeline.arrRef spec1 w) := ((dat1 V c).arrAt_in w hin n).trans (A_eq1 V c w)

/-- EXIT: the windows' arrays at what the write-backs leave - the inputs as found, the gate weights' two halves one
    full share again, the two results at their final contents - are the five buffers behind them, each whole at the
    full share. -/
theorem fuse_arrays_exit (c : Dev nD) :
    ((dat1 V c).arrays ((dat1 V c).arrAt · cfg1.N) : sProp 𝕄)
      ⊢ iprop((((c : Thread nD τ).loc main_arg1) ↦{fullShare} V c main_arg1) ∗ (((c : Thread nD τ).loc main_arg2) ↦{fullShare} V c main_arg2)
          ∗ (((c : Thread nD τ).loc main_v8) ↦{fullShare} V c main_v8) ∗ (((c : Thread nD τ).loc main_v9_0) ↦{fullShare} (dat1 V c).arrAt 4 cfg1.N)
          ∗ (((c : Thread nD τ).loc main_v9_1) ↦{fullShare} (dat1 V c).arrAt 5 cfg1.N)) := by
  unfold Pipeline.Dat.arrays
  rw [bigSep_W1]
  simp only [View.set_whole]
  rw [share1_0, share1_1, share1_2, share1_3, share1_4, share1_5, arrAt1_in V c 0 rfl, arrAt1_in V c 1 rfl, arrAt1_in V c 2 rfl,
    arrAt1_in V c 3 rfl]
  show (iprop((((c : Thread nD τ).loc main_arg1) ↦{fullShare} V c main_arg1) ∗ (((c : Thread nD τ).loc main_arg2) ↦{fullShare} V c main_arg2)
          ∗ (((c : Thread nD τ).loc main_v8) ↦{fullShare.left} V c main_v8) ∗ (((c : Thread nD τ).loc main_v8) ↦{fullShare.right} V c main_v8)
          ∗ (((c : Thread nD τ).loc main_v9_0) ↦{fullShare} (dat1 V c).arrAt 4 cfg1.N)
          ∗ (((c : Thread nD τ).loc main_v9_1) ↦{fullShare} (dat1 V c).arrAt 5 cfg1.N)) : sProp 𝕄) ⊢ _
  iintro ⟨H1, H2, H8l, H8r, H90, H91⟩
  isplitl [H1]; · iexact H1
  isplitl [H2]; · iexact H2
  isplitl [H8l H8r]
  · iapply (pointsTo_share (PosShare.mem_left_op_right fullShare)).2
    isplitl [H8l]; · iexact H8l
    iexact H8r
  isplitl [H90]; · iexact H90
  iexact H91

/-- The five buffers behind the fusion region's windows, each whole at the full share at contents V, one by one. -/
theorem fuse_arrBufs_eq (c : Dev nD) :
    (Pipeline.arrBufs (Ix := Unit) (Name := ℕ) (U := UR sig nD τ) (Lvl := ℕ) spec1 c (V c) : sProp 𝕄)
      = iprop((((c : Thread nD τ).loc main_arg1) ↦{fullShare} V c main_arg1) ∗ (((c : Thread nD τ).loc main_arg2) ↦{fullShare} V c main_arg2)
          ∗ (((c : Thread nD τ).loc main_v8) ↦{fullShare} V c main_v8) ∗ (((c : Thread nD τ).loc main_v9_0) ↦{fullShare} V c main_v9_0)
          ∗ (((c : Thread nD τ).loc main_v9_1) ↦{fullShare} V c main_v9_1)) :=
  bigSep_eq_bigSepL_of_eq [main_arg1, main_arg2, main_v8, main_v9_0, main_v9_1] (by decide) (by decide) _

end FuseArrays

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T2 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state, nothing owed. -/
abbrev R (c : Dev nD) : sProp 𝕄 := iprop((∃ r, prngReg c r) ∗ ∃ W, owes (c : Thread nD τ) (0 : CellTallies nD τ sig Unit) W)

/-- The host stretch as a segment from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes: every unscoped buffer at the last boundary's contents, the generator
    register at some state. -/
abbrev Tₙ (c : Dev nD) : sProp 𝕄 := iprop(StableHlo.held (c : Thread nD τ) (Pipeline.ucRefs τ sig) (B3 m c) ∗ ∃ r, prngReg c r)

/-- At the gating region's exit each of its arrays holds what the pipeline leaves and every other buffer what it held
    at entry. -/
theorem hF0 (c : Dev nD) (w : Fin cfg0.W) : (dat0 (T1 m) c).arrAt w cfg0.N = T2 m c (Pipeline.arrRef spec0 w) :=
  (B2_arr m c w).symm
theorem hrest0 (c : Dev nD) : ∀ b, b ∉ Finset.univ.image (Pipeline.arrRef spec0) → T2 m c b = T1 m c b :=
  fun b hb => B2_of_ne m c b fun w e => hb (Finset.mem_image.mpr ⟨w, Finset.mem_univ _, e⟩)

/-- The contents after the fusion region at the TensorCore's references. -/
abbrev T3 : (c : Dev nD) → (b : Ref sig .tc) → Buf (Elt F) ((c : Thread nD τ).loc b) := fun c b => B3 m c b

/-- Off the two result arrays the fusion region changes nothing. -/
theorem hrest1 (c : Dev nD) : ∀ b, b ∉ Finset.univ.image (Pipeline.arrRef spec1) → T3 m c b = T2 m c b :=
  fun b hb => B3_of_ne m c b (fun e => hb (e ▸ (by decide))) (fun e => hb (e ▸ (by decide)))

/-! ## The regions as segments -/

set_option backward.isDefEq.respectTransparency.types false in
/-- The gating region over the thread state: entered from every unscoped buffer at the contents after the host
    stretch, left with the gate weights' array at what the pipeline leaves. Its arrays are distinct buffers, split
    out of the unscoped buffers and put back; the generator register and the scoped rest go into the region's invariant
    and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (T1 m) c
  hout c := hout0 (T1 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fusion region over the thread state: entered from the contents the gating region left, left with the two
    result arrays at what the pipeline leaves. Two of its windows are on one array, so the buffers behind the windows
    are dealt to them by shares on the way in and joined on the way out. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (T2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hub : StableHlo.held (c : Thread nD τ) (Pipeline.ucRefs τ sig) (B2 m c)
        = (iprop(Pipeline.arrBufs (Ix := Unit) (Name := ℕ) (U := UR sig nD τ) (Lvl := ℕ) spec1 c (T2 m c) ∗ Pipeline.unscopedRest spec1 c (T2 m c)) : sProp 𝕄) := by
      rw [← Pipeline.unscopedBufs_held]
      exact Pipeline.unscopedBufs_split₀ (cfgs) 1 winFacts₀1.arr_unscoped c (T2 m c)
    rw [hub]
    iintro ⟨⟨Hub, Hp, HO⟩, -, -⟩
    icases Hub with ⟨Hb, Hrest⟩
    ihave Ha := (fuse_arrays_entry (T2 m) c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hub : StableHlo.held (c : Thread nD τ) (Pipeline.ucRefs τ sig) (B3 m c)
        = (iprop(Pipeline.arrBufs (Ix := Unit) (Name := ℕ) (U := UR sig nD τ) (Lvl := ℕ) spec1 c (T3 m c) ∗ Pipeline.unscopedRest spec1 c (T3 m c)) : sProp 𝕄) := by
      rw [← Pipeline.unscopedBufs_held]
      exact Pipeline.unscopedBufs_split₀ (cfgs) 1 winFacts₀1.arr_unscoped c (T3 m c)
    have hrest : (Pipeline.unscopedRest (Ix := Unit) (Name := ℕ) (U := UR sig nD τ) (Lvl := ℕ) spec1 c (T2 m c) : sProp 𝕄)
        = Pipeline.unscopedRest spec1 c (T3 m c) := by
      unfold Pipeline.unscopedRest
      exact bigSep_congr fun b hb => by rw [hrest1 m c b (Finset.mem_sdiff.mp hb).2]
    have hbufs : (Pipeline.arrBufs (Ix := Unit) (Name := ℕ) (U := UR sig nD τ) (Lvl := ℕ) spec1 c (T3 m c) : sProp 𝕄)
        = iprop((((c : Thread nD τ).loc main_arg1) ↦{fullShare} T2 m c main_arg1) ∗ (((c : Thread nD τ).loc main_arg2) ↦{fullShare} T2 m c main_arg2)
          ∗ (((c : Thread nD τ).loc main_v8) ↦{fullShare} T2 m c main_v8) ∗ (((c : Thread nD τ).loc main_v9_0) ↦{fullShare} (dat1 (T2 m) c).arrAt 4 cfg1.N)
          ∗ (((c : Thread nD τ).loc main_v9_1) ↦{fullShare} (dat1 (T2 m) c).arrAt 5 cfg1.N)) := by
      rw [fuse_arrBufs_eq (T3 m) c]
      show iprop((((c : Thread nD τ).loc main_arg1) ↦{fullShare} B3 m c (Proc.devRef .tc main_arg1)) ∗ (((c : Thread nD τ).loc main_arg2) ↦{fullShare} B3 m c (Proc.devRef .tc main_arg2))
          ∗ (((c : Thread nD τ).loc main_v8) ↦{fullShare} B3 m c (Proc.devRef .tc main_v8)) ∗ (((c : Thread nD τ).loc main_v9_0) ↦{fullShare} B3 m c (Proc.devRef .tc main_v9_0))
          ∗ (((c : Thread nD τ).loc main_v9_1) ↦{fullShare} B3 m c (Proc.devRef .tc main_v9_1))) = _
      rw [B3_of_ne m c main_arg1 (by decide) (by decide), B3_of_ne m c main_arg2 (by decide) (by decide), B3_of_ne m c main_v8 (by decide) (by decide),
        B3_main_v9_0, B3_main_v9_1]
    show iprop((dat1 (T2 m) c).arrays ((dat1 (T2 m) c).arrAt · cfg1.N) ∗ (dat1 (T2 m) c).owesAt () (Fin.last cfg1.N)
        ∗ (∃ r, prngReg c r) ∗ Pipeline.unscopedRest (Ix := Unit) (Name := ℕ) (U := UR sig nD τ) (Lvl := ℕ) spec1 c (T2 m c))
      ⊢ (|={Set.univ}=> iprop((StableHlo.held (c : Thread nD τ) (Pipeline.ucRefs τ sig) (B3 m c) ∗ ∃ r, prngReg c r)
          ∗ ∃ W, owes (c : Thread nD τ) (0 : CellTallies nD τ sig Unit) W) : sProp 𝕄)
    rw [hub, hbufs, ← hrest]
    iintro ⟨Ha, HO, HY, Hrest⟩
    ihave Hb := (fuse_arrays_exit (T2 m) c) $$ Ha
    imodintro
    isplitl [Hb Hrest HY]
    · isplitl [Hb Hrest]
      · isplitl [Hb]; · iexact Hb
        iexact Hrest
      iexact HY
    unfold Pipeline.Dat.owesAt Pipeline.owesWithin
    icases HO with ⟨%W, -, HO⟩; iexists W; iexact HO

/-! ## The program as segments, and the launch -/

/-- The program's three segments in order. -/
abbrev segs : List (Pipeline.Seg (pcfgs (F := F)) adm (pdats m) () defs₀ 𝒱₀ L lv) :=
  [ .host (hseg0 m), .region (reg0 m), .region (reg1 m) ]

/-- The program is the run of its segments. -/
theorem main_run (c : Dev nD) : main (F := F) c = Pipeline.Seg.run (segs m) := (main_chain c).trans (by chain_rfl)

set_option backward.isDefEq.respectTransparency.types false in
/-- From any memory with zero counters every weakly fair execution of the program terminates, nothing faulting, and
    every final state has each unscoped buffer of each core at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c),
     (h c _ (mem_uc main_arg5 (by decide))).trans (B3_main_arg5 m c),
     (h c _ (mem_uc main_arg6 (by decide))).trans (B3_main_arg6 m c),
     (h c _ (mem_uc main_arg7 (by decide))).trans (B3_main_arg7 m c),
     (h c _ (mem_uc main_arg8 (by decide))).trans (B3_main_arg8 m c)⟩) (run_all m ρ)

end Cert.KernelIdeal.Fr

end
-- ==== Proof.Spec.lean ====
/-
  The three result arrays of the gating network and the graph fusion, index by index on the extended reals.

  Rows are independent up to the smoothing product: row i of the input is centred and scaled by the reciprocal square
  root of its variance plus a positive literal (a layer normalisation without affine part), sent through two affine
  layers with a rectifier and a leaky rectifier, and a third affine layer whose weights and bias already carry the
  temperature 8 and the expert bias; the two logits of a row become two gate weights by the softmax taken against the
  row's maximum. The gate weights are then smoothed by the first graph, 0.7 g + 0.3 (G1 g), and the fused graph is
  G1 scaled row-wise by the first smoothed weight plus G2 scaled row-wise by the second.

  Every float literal stays the word it is printed as; sums are sums over a coordinate, the row maximum the fold of
  max from the printed lower bound, quotients the instance's quotient.
-/
import Idealize.ShloMosaic.PureOps.Ideal
import Idealize.ShloMosaic.Lib.ValueIdx

noncomputable section

open scoped BigOperators

namespace Cert.Spec

open Idealize.ShloMosaic Idealize.ShloMosaic.ValueIdx

abbrev Snn : Shape := ⟨2, ![4096, 4096]⟩
abbrev Snh : Shape := ⟨2, ![4096, 1024]⟩
abbrev Sh : Shape := ⟨1, ![1024]⟩
abbrev Shm : Shape := ⟨2, ![1024, 64]⟩
abbrev Sm : Shape := ⟨1, ![64]⟩
abbrev Sm2 : Shape := ⟨2, ![64, 2]⟩
abbrev S2 : Shape := ⟨1, ![2]⟩
abbrev Sn2 : Shape := ⟨2, ![4096, 2]⟩

/-- The expert bias (5, 0), by its two printed words. -/
def biasWord : Fin 2 → BitVec 32
  | ⟨0, _⟩ => 0x40A00000#32
  | ⟨1, _⟩ => 0x00000000#32

section Gate

variable (z : Snn.Idx → EReal) (W1 : Snh.Idx → EReal) (b1 : Sh.Idx → EReal) (W2 : Shm.Idx → EReal) (b2 : Sm.Idx → EReal)
  (W3 : Sm2.Idx → EReal) (b3 : S2.Idx → EReal)

/-- The mean of row i. -/
def mu (i : Fin 4096) : EReal := Ideal.div (∑ k : Fin 4096, z (ix2 i k)) (Ideal.ofBits .f32 0x45800000#32)

/-- Row i centred. -/
def zc (i k : Fin 4096) : EReal := z (ix2 i k) - mu z i

/-- The variance of row i: the mean of the squares of the centred row. -/
def var (i : Fin 4096) : EReal := Ideal.div (∑ k : Fin 4096, zc z i k * zc z i k) (Ideal.ofBits .f32 0x45800000#32)

/-- Row i normalised: centred, times the reciprocal square root of the variance plus the positive literal. -/
def zn (i k : Fin 4096) : EReal := zc z i k * Ideal.rsqrt (var z i + Ideal.ofBits .f32 0x3727C5AC#32)

/-- The first layer with its rectifier. -/
def h1 (i : Fin 4096) (a : Fin 1024) : EReal := max ((∑ k : Fin 4096, zn z i k * W1 (ix2 k a)) + b1 (ix1 a)) 0

/-- The second layer before its leaky rectifier. -/
def s2 (i : Fin 4096) (b : Fin 64) : EReal := (∑ a : Fin 1024, h1 z W1 b1 i a * W2 (ix2 a b)) + b2 (ix1 b)

/-- The second layer: a positive entry kept, another scaled by the printed slope. -/
def h2 (i : Fin 4096) (b : Fin 64) : EReal :=
  if 0 < s2 z W1 b1 W2 b2 i b then s2 z W1 b1 W2 b2 i b else Ideal.ofBits .f32 0x3C23D70A#32 * s2 z W1 b1 W2 b2 i b

/-- The logits: the third layer with weights and bias already multiplied by 8, the expert bias added to the bias. -/
def logit (i : Fin 4096) (j : Fin 2) : EReal :=
  (∑ b : Fin 64, h2 z W1 b1 W2 b2 i b * (W3 (ix2 b j) * Ideal.ofBits .f32 0x41000000#32))
    + (b3 (ix1 j) * Ideal.ofBits .f32 0x41000000#32 + Ideal.ofBits .f32 (biasWord j))

/-- The larger logit of row i, folded from the printed lower bound. -/
def rowmax (i : Fin 4096) : EReal :=
  (Finset.univ : Finset (Fin 2)).fold max (Ideal.ofBits .f32 0xFF800000#32) (fun j => logit z W1 b1 W2 b2 W3 b3 i j)

/-- The exponential of a logit less the row's maximum. -/
def ex (i : Fin 4096) (j : Fin 2) : EReal := Ideal.exp (logit z W1 b1 W2 b2 W3 b3 i j - rowmax z W1 b1 W2 b2 W3 b3 i)

/-- The gate weights: the softmax of a row's two logits. -/
def g0 (i : Fin 4096) (j : Fin 2) : EReal :=
  Ideal.div (ex z W1 b1 W2 b2 W3 b3 i j) (∑ j' : Fin 2, ex z W1 b1 W2 b2 W3 b3 i j')

/-- The gate weights as an array. -/
def G0 : Sn2.Idx → EReal := fun y => g0 z W1 b1 W2 b2 W3 b3 (y 0) (y 1)

end Gate

section Fuse

variable (G1 G2 : Snn.Idx → EReal) (g : Sn2.Idx → EReal)

/-- The smoothed gate weights: 0.7 g + 0.3 (G1 g). -/
def gw (i : Fin 4096) (j : Fin 2) : EReal :=
  Ideal.ofBits .f32 0x3F333333#32 * g (ix2 i j) + Ideal.ofBits .f32 0x3E99999A#32 * ∑ k : Fin 4096, G1 (ix2 i k) * g (ix2 k j)

/-- The smoothed gate weights as an array. -/
def Gw : Sn2.Idx → EReal := fun y => gw G1 g (y 0) (y 1)

/-- The fused graph: each row of G1 by the row's first smoothed weight plus the row of G2 by its second. -/
def gf (i k : Fin 4096) : EReal := G1 (ix2 i k) * gw G1 g i 0 + G2 (ix2 i k) * gw G1 g i 1

/-- The fused graph as an array. -/
def Gf : Snn.Idx → EReal := fun y => gf G1 G2 g (y 0) (y 1)

end Fuse

end Cert.Spec

end
-- ==== Proof.Value.GatePayload.lean ====
/-
  The arithmetic of the gating region's body at one row, on the extended reals: the lane sums are sums over a row, the
  three products are sums over the contracted coordinate, the row maximum is the fold of max over the row, and the
  column broadcasts repeat a row's value along the row. So the block the body stores holds, at row r and column j, the
  specification's gate weight of the input row that row r of the block holds.
-/
import proofs.«153786_g11373073400015_week1_w4_273_15_alg».proof.Proof.Gen.KernelIdeal.Skeleton
import proofs.«153786_g11373073400015_week1_w4_273_15_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val.Gate

open Cert.KernelIdeal Cert.KernelIdeal.Gen
open Idealize.ShloMosaic Idealize.SL.Sem
open Idealize.ShloMosaic.ValueIdx
open scoped BigOperators

/-! ## Column forms of the layout operations: a vector of row values kept as a one-column array, and that column
spread over the columns of a wider array -/

section Layout
variable {α : Type}

/-- An array [a] cast to [a, 1] reads, at (r, u), the operand at r. -/
theorem shapeCast_a_a1_apply {a : ℕ} (v : (⟨1, ![a]⟩ : Shape).Idx → α) (h : (⟨1, ![a]⟩ : Shape).ShapeCasts ⟨2, ![a, 1]⟩)
    (r : Fin a) (u : Fin 1) : shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- An array [a, 1] broadcast to [a, b] reads, at (r, c), the operand's row r. -/
theorem broadcastTo_a1_ab_apply {a b : ℕ} (ha : a ≠ 1) (v : (⟨2, ![a, 1]⟩ : Shape).Idx → α)
    (h : (⟨2, ![a, 1]⟩ : Shape).Broadcasts ⟨2, ![a, b]⟩) (r : Fin a) (c : Fin b) (u : Fin 1) :
    broadcastTo ⟨2, ![a, b]⟩ v h (ix2 r c) = v (ix2 r u) := by
  refine broadcastTo_apply v h (ix2 r c) (ix2 r u) fun ax => ?_
  match ax with
  | ⟨0, _⟩ =>
    show r.val = if a = 1 then 0 else r.val
    rw [if_neg ha]
  | ⟨1, _⟩ =>
    show u.val = if (1 : ℕ) = 1 then 0 else c.val
    rw [if_pos rfl]; omega

end Layout

/-! ## A reduction along the rows of a matrix -/

/-- The lane sum of a matrix, read at row r: the sum of that row. -/
theorem rowSum_apply {a b : ℕ} (x : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) (r : Fin a) :
    multiReduction (F := Ideal) .add [1] ⟨1, ![a]⟩ x 0x00000000#32 h hφ hacc (ix1 r) = ∑ k : Fin b, x (ix2 r k) := by
  refine (Ideal.multiReduction_add_single x 0x00000000#32 h hφ hacc (ix1 r)).trans ?_
  refine Finset.sum_congr rfl fun k _ => congrArg x ?_
  funext ax; apply Fin.ext
  match ax with
  | ⟨0, _⟩ => rfl
  | ⟨1, _⟩ => rfl

/-- The lane maximum of a matrix, read at row r: the fold of max over that row from the accumulator's word. -/
theorem rowMax_apply {a b : ℕ} (x : FVec Ideal ⟨2, ![a, b]⟩ .f32) (h : (⟨2, ![a, b]⟩ : Shape).Reduces [1] ⟨1, ![a]⟩)
    (hφ : FTy.f32 = FTy.f32 ∨ FTy.f32 = FTy.bf16) (hacc : (0xFF800000#32 : BitVec 32) = 0xFF800000#32) (r : Fin a) :
    multiReduction (F := Ideal) .maximumf [1] ⟨1, ![a]⟩ x 0xFF800000#32 h hφ hacc (ix1 r)
      = (Finset.univ : Finset (Fin b)).fold max (Ideal.ofBits .f32 0xFF800000#32) (fun k => x (ix2 r k)) := by
  refine (Ideal.multiReduction_maximumf_single x 0xFF800000#32 h hφ hacc (ix1 r)).trans ?_
  refine congrArg (fun f => (Finset.univ : Finset (Fin b)).fold max (Ideal.ofBits .f32 0xFF800000#32) f) ?_
  funext k
  refine congrArg x ?_
  funext ax; apply Fin.ext
  match ax with
  | ⟨0, _⟩ => rfl
  | ⟨1, _⟩ => rfl

/-! ## A product of matrices into the zero array -/

/-- A product of an [M, K] by a [K, N] matrix accumulated into zero, read at (r, c): the sum over the contracted
    coordinate of the products, once the record's operand indices are known coordinate by coordinate. -/
theorem matmul_plain_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : FVec Ideal ⟨2, ![M, K]⟩ φ₁) (B : FVec Ideal ⟨2, ![K, N]⟩ φ₂) (r : Fin M) (c : Fin N) :
    matmul D none A B (constant (F := Ideal) ⟨2, ![M, N]⟩ .f32 0x00000000#32) (ix2 r c) = ∑ k : Fin K, A (ix2 r k) * B (ix2 k c) := by
  refine (Ideal.matmul_constant_zero_apply D none A B (ix2 r c)).trans ?_
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := by
    funext ax; apply Fin.ext
    match ax with
    | ⟨0, _⟩ => exact hl0 _ _
    | ⟨1, _⟩ => exact (hl1 _ _).trans hk
  have er : D.rhsIdx (ix2 r c) ((contrEquiv1 D K hr hs).symm k) = ix2 k c := by
    funext ax; apply Fin.ext
    match ax with
    | ⟨0, _⟩ => exact (hr0 _ _).trans hk
    | ⟨1, _⟩ => exact hr1 _ _
  rw [el, er]

/-- The first layer's record, axis by axis. -/
theorem lhs1_0 (j : S256x1024.Idx) (k : dot_S256x4096_S4096x1024_S256x1024_1_0_0_1_n_n.contr.Idx) :
    (dot_S256x4096_S4096x1024_S256x1024_1_0_0_1_n_n.lhsIdx j k 0).val = (j 0).val := by
  simp [DotDims.lhsIdx, dot_S256x4096_S4096x1024_S256x1024_1_0_0_1_n_n]; rfl
theorem lhs1_1 (j : S256x1024.Idx) (k : dot_S256x4096_S4096x1024_S256x1024_1_0_0_1_n_n.contr.Idx) :
    (dot_S256x4096_S4096x1024_S256x1024_1_0_0_1_n_n.lhsIdx j k 1).val = (k ⟨0, by decide⟩).val :=
  dot_S256x4096_S4096x1024_S256x1024_1_0_0_1_n_n.lhsIdx_val_of_single rfl j k
theorem rhs1_0 (j : S256x1024.Idx) (k : dot_S256x4096_S4096x1024_S256x1024_1_0_0_1_n_n.contr.Idx) :
    (dot_S256x4096_S4096x1024_S256x1024_1_0_0_1_n_n.rhsIdx j k 0).val = (k ⟨0, by decide⟩).val :=
  dot_S256x4096_S4096x1024_S256x1024_1_0_0_1_n_n.rhsIdx_val_of_single rfl j k
theorem rhs1_1 (j : S256x1024.Idx) (k : dot_S256x4096_S4096x1024_S256x1024_1_0_0_1_n_n.contr.Idx) :
    (dot_S256x4096_S4096x1024_S256x1024_1_0_0_1_n_n.rhsIdx j k 1).val = (j 1).val := by
  simp [DotDims.rhsIdx, dot_S256x4096_S4096x1024_S256x1024_1_0_0_1_n_n]; rfl

/-- The second layer's record, axis by axis. -/
theorem lhs2_0 (j : S256x64.Idx) (k : dot_S256x1024_S1024x64_S256x64_1_0_0_1_n_n.contr.Idx) :
    (dot_S256x1024_S1024x64_S256x64_1_0_0_1_n_n.lhsIdx j k 0).val = (j 0).val := by
  simp [DotDims.lhsIdx, dot_S256x1024_S1024x64_S256x64_1_0_0_1_n_n]; rfl
theorem lhs2_1 (j : S256x64.Idx) (k : dot_S256x1024_S1024x64_S256x64_1_0_0_1_n_n.contr.Idx) :
    (dot_S256x1024_S1024x64_S256x64_1_0_0_1_n_n.lhsIdx j k 1).val = (k ⟨0, by decide⟩).val :=
  dot_S256x1024_S1024x64_S256x64_1_0_0_1_n_n.lhsIdx_val_of_single rfl j k
theorem rhs2_0 (j : S256x64.Idx) (k : dot_S256x1024_S1024x64_S256x64_1_0_0_1_n_n.contr.Idx) :
    (dot_S256x1024_S1024x64_S256x64_1_0_0_1_n_n.rhsIdx j k 0).val = (k ⟨0, by decide⟩).val :=
  dot_S256x1024_S1024x64_S256x64_1_0_0_1_n_n.rhsIdx_val_of_single rfl j k
theorem rhs2_1 (j : S256x64.Idx) (k : dot_S256x1024_S1024x64_S256x64_1_0_0_1_n_n.contr.Idx) :
    (dot_S256x1024_S1024x64_S256x64_1_0_0_1_n_n.rhsIdx j k 1).val = (j 1).val := by
  simp [DotDims.rhsIdx, dot_S256x1024_S1024x64_S256x64_1_0_0_1_n_n]; rfl

/-- The third layer's record, axis by axis. -/
theorem lhs3_0 (j : S256x2.Idx) (k : dot_S256x64_S64x2_S256x2_1_0_0_1_n_n.contr.Idx) :
    (dot_S256x64_S64x2_S256x2_1_0_0_1_n_n.lhsIdx j k 0).val = (j 0).val := by
  simp [DotDims.lhsIdx, dot_S256x64_S64x2_S256x2_1_0_0_1_n_n]; rfl
theorem lhs3_1 (j : S256x2.Idx) (k : dot_S256x64_S64x2_S256x2_1_0_0_1_n_n.contr.Idx) :
    (dot_S256x64_S64x2_S256x2_1_0_0_1_n_n.lhsIdx j k 1).val = (k ⟨0, by decide⟩).val :=
  dot_S256x64_S64x2_S256x2_1_0_0_1_n_n.lhsIdx_val_of_single rfl j k
theorem rhs3_0 (j : S256x2.Idx) (k : dot_S256x64_S64x2_S256x2_1_0_0_1_n_n.contr.Idx) :
    (dot_S256x64_S64x2_S256x2_1_0_0_1_n_n.rhsIdx j k 0).val = (k ⟨0, by decide⟩).val :=
  dot_S256x64_S64x2_S256x2_1_0_0_1_n_n.rhsIdx_val_of_single rfl j k
theorem rhs3_1 (j : S256x2.Idx) (k : dot_S256x64_S64x2_S256x2_1_0_0_1_n_n.contr.Idx) :
    (dot_S256x64_S64x2_S256x2_1_0_0_1_n_n.rhsIdx j k 1).val = (j 1).val := by
  simp [DotDims.rhsIdx, dot_S256x64_S64x2_S256x2_1_0_0_1_n_n]; rfl

/-- The three products of the gating network at an index. -/
theorem matmul1_apply (A : FVec Ideal S256x4096 .bf16) (B : FVec Ideal S4096x1024 .bf16) (r : Fin 256) (a : Fin 1024) :
    matmul dot_S256x4096_S4096x1024_S256x1024_1_0_0_1_n_n none A B (constant (F := Ideal) S256x1024 .f32 0x00000000#32) (ix2 r a)
      = ∑ k : Fin 4096, A (ix2 r k) * B (ix2 k a) :=
  matmul_plain_apply dot_S256x4096_S4096x1024_S256x1024_1_0_0_1_n_n rfl rfl lhs1_0 lhs1_1 rhs1_0 rhs1_1 A B r a
theorem matmul2_apply (A : FVec Ideal S256x1024 .f32) (B : FVec Ideal S1024x64 .f32) (r : Fin 256) (b : Fin 64) :
    matmul dot_S256x1024_S1024x64_S256x64_1_0_0_1_n_n none A B (constant (F := Ideal) S256x64 .f32 0x00000000#32) (ix2 r b)
      = ∑ a : Fin 1024, A (ix2 r a) * B (ix2 a b) :=
  matmul_plain_apply dot_S256x1024_S1024x64_S256x64_1_0_0_1_n_n rfl rfl lhs2_0 lhs2_1 rhs2_0 rhs2_1 A B r b
theorem matmul3_apply (A : FVec Ideal S256x64 .f32) (B : FVec Ideal S64x2 .f32) (r : Fin 256) (j : Fin 2) :
    matmul dot_S256x64_S64x2_S256x2_1_0_0_1_n_n none A B (constant (F := Ideal) S256x2 .f32 0x00000000#32) (ix2 r j)
      = ∑ b : Fin 64, A (ix2 r b) * B (ix2 b j) :=
  matmul_plain_apply dot_S256x64_S64x2_S256x2_1_0_0_1_n_n rfl rfl lhs3_0 lhs3_1 rhs3_0 rhs3_1 A B r j

/-! ## The pointwise operations the library does not read at an index, and the column broadcast at 256 rows -/

theorem rsqrt_apply {s : Shape} {φ : FTy} (a : FVec Ideal s φ) (i : s.Idx) : rsqrt a i = Ideal.rsqrt (a i) := rfl
theorem exp_apply {s : Shape} {φ : FTy} (a : FVec Ideal s φ) (i : s.Idx) : exp a i = Ideal.exp (a i) := rfl

theorem broadcastTo_col_apply {α : Type} {b : ℕ} (v : (⟨2, ![256, 1]⟩ : Shape).Idx → α)
    (h : (⟨2, ![256, 1]⟩ : Shape).Broadcasts ⟨2, ![256, b]⟩) (r : Fin 256) (c : Fin b) :
    broadcastTo ⟨2, ![256, b]⟩ v h (ix2 r c) = v (ix2 r (0 : Fin 1)) :=
  broadcastTo_a1_ab_apply (by decide) v h r c 0

/-! ## The body's arithmetic at a row -/

open Cert.Spec in
/-- The second layer before its leaky rectifier, at row r of the block and column b: the specification's at the row i of
    the input that row r of the block holds. -/
theorem pay3_apply (x0 : Vec Ideal S256x4096 .f32) (scr : Vec Ideal S4096x1024 .bf16) (x2 : Vec Ideal S1x1024 .f32)
    (x3 : Vec Ideal S1024x64 .f32) (x4 : Vec Ideal S1x64 .f32)
    (z : Snn.Idx → EReal) (W1 : Snh.Idx → EReal) (b1 : Sh.Idx → EReal) (W2 : Shm.Idx → EReal) (b2 : Sm.Idx → EReal)
    (i : Fin 4096) (r : Fin 256)
    (e0 : ∀ k : Fin 4096, x0 (ix2 r k) = z (ix2 i k))
    (e1 : ∀ (k : Fin 4096) (a : Fin 1024), scr (ix2 k a) = W1 (ix2 k a))
    (e2 : ∀ a : Fin 1024, x2 (ix2 (0 : Fin 1) a) = b1 (ix1 a))
    (e3 : ∀ (a : Fin 1024) (b : Fin 64), x3 (ix2 a b) = W2 (ix2 a b))
    (e4 : ∀ b : Fin 64, x4 (ix2 (0 : Fin 1) b) = b2 (ix1 b))
    (b : Fin 64) :
    k0_pay3 x0 scr x2 x3 x4 (ix2 r b) = s2 z W1 b1 W2 b2 i b := by
  unfold k0_pay3
  dsimp only
  repeat (first
    | rw [rowSum_apply]
    | simp only [addf_apply, matmul2_apply, maximumf_apply, matmul1_apply, truncf_apply, mulf_apply, subf_apply, divf_apply,
        rsqrt_apply, broadcastTo_1b_ab_apply, broadcastTo_col_apply, shapeCast_a_a1_apply, shapeCast_self,
        broadcast_apply, Ideal.ofBits_def, Ideal.ofBits_zero_f32, e0, e1, e2, e3, e4])
  rfl

/-- The leaky rectifier's condition at (r, b): whether the second layer's entry there is above zero. -/
theorem pay4_apply (x0 : Vec Ideal S256x4096 .f32) (scr : Vec Ideal S4096x1024 .bf16) (x2 : Vec Ideal S1x1024 .f32)
    (x3 : Vec Ideal S1024x64 .f32) (x4 : Vec Ideal S1x64 .f32) (r : Fin 256) (b : Fin 64) :
    k0_pay4 x0 scr x2 x3 x4 (ix2 r b) = Ideal.cmp .ogt (k0_pay3 x0 scr x2 x3 x4 (ix2 r b)) 0 := by
  unfold k0_pay4
  rw [cmpf_apply, broadcast_apply]
  show Ideal.cmp .ogt _ (Ideal.ofBits .f32 0x00000000#32) = _
  rw [Ideal.ofBits_zero_f32]

/-- A selection on "above zero" is the conditional on the order. -/
theorem select_ogt_zero (s a b : EReal) : Scalar.select (Ideal.cmp .ogt s 0) a b = if 0 < s then a else b := by
  unfold Scalar.select Ideal.cmp
  by_cases h : 0 < s <;> simp [h]

open Cert.Spec in
/-- The gate weights the body stores, at row r of the block and column j: the specification's at the input row i, given
    the second layer's entries of that row and their condition bits, the third layer's weights and bias as the region
    finds them (multiplied by 8, the bias with the expert bias added). -/
theorem pay1_apply (v34 : FVec Ideal S256x64 .f32) (v36 : IVec S256x64 1) (x5 : Vec Ideal S64x2 .f32) (x6 : Vec Ideal S1x2 .f32)
    (z : Snn.Idx → EReal) (W1 : Snh.Idx → EReal) (b1 : Sh.Idx → EReal) (W2 : Shm.Idx → EReal) (b2 : Sm.Idx → EReal)
    (W3 : Sm2.Idx → EReal) (b3 : S2.Idx → EReal) (i : Fin 4096) (r : Fin 256)
    (e34 : ∀ b : Fin 64, v34 (ix2 r b) = s2 z W1 b1 W2 b2 i b)
    (e36 : ∀ b : Fin 64, v36 (ix2 r b) = Ideal.cmp .ogt (s2 z W1 b1 W2 b2 i b) 0)
    (e5 : ∀ (b : Fin 64) (j : Fin 2), x5 (ix2 b j) = W3 (ix2 b j) * Ideal.ofBits .f32 0x41000000#32)
    (e6 : ∀ j : Fin 2, x6 (ix2 (0 : Fin 1) j) = b3 (ix1 j) * Ideal.ofBits .f32 0x41000000#32 + Ideal.ofBits .f32 (biasWord j))
    (j : Fin 2) :
    k0_pay1 v34 v36 x5 x6 (ix2 r j) = g0 z W1 b1 W2 b2 W3 b3 i j := by
  unfold k0_pay1
  dsimp only
  repeat (first
    | rw [rowSum_apply]
    | rw [rowMax_apply]
    | simp only [divf_apply, exp_apply, subf_apply, addf_apply, matmul3_apply, select_apply, mulf_apply, broadcast_apply,
        broadcastTo_col_apply, broadcastTo_1b_ab_apply, shapeCast_a_a1_apply, shapeCast_self, Ideal.ofBits_def,
        e34, e36, e5, e6, select_ogt_zero])
  rfl

/-- The narrowing of the first weight array is the identity on the extended reals. -/
theorem pay2_apply (v : Vec Ideal S4096x1024 .f32) (y : S4096x1024.Idx) : k0_pay2 v y = v y := by
  unfold k0_pay2
  rw [shapeCast_self]
  rfl

end Cert.KernelIdeal.Val.Gate

end
-- ==== Proof.Value.GateHost.lean ====
/-
  The arrays the gating region reads as the host operations before it leave them, index by index at the ideal
  instance: the third layer's weights and bias multiplied by 8 (the bias with the expert bias added), the three biases
  as one-row arrays, and the argument arrays the host operations do not write.
-/
import proofs.«153786_g11373073400015_week1_w4_273_15_alg».proof.Proof.KernelIdeal.Fold
import proofs.«153786_g11373073400015_week1_w4_273_15_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Val.Gate

open Cert.KernelIdeal Cert.KernelIdeal.Gen Cert.KernelIdeal.Fr
open Idealize.ShloMosaic Idealize.ShloMosaic.TcCoe Idealize.SL.Sem
open Idealize.ShloMosaic.ValueIdx

variable (m : (ℓ : Loc nD τ sig) → Buf (Elt Ideal) ℓ) (c : Dev nD)

/-- The seven argument arrays of the gating network as launched, each at its literal type. -/
abbrev argZ : Cert.Spec.Snn.Idx → EReal := m ((c : Thread nD τ).loc main_arg0)
abbrev argW1 : Cert.Spec.Snh.Idx → EReal := m ((c : Thread nD τ).loc main_arg3)
abbrev argB1 : Cert.Spec.Sh.Idx → EReal := m ((c : Thread nD τ).loc main_arg4)
abbrev argW2 : Cert.Spec.Shm.Idx → EReal := m ((c : Thread nD τ).loc main_arg5)
abbrev argB2 : Cert.Spec.Sm.Idx → EReal := m ((c : Thread nD τ).loc main_arg6)
abbrev argW3 : Cert.Spec.Sm2.Idx → EReal := m ((c : Thread nD τ).loc main_arg7)
abbrev argB3 : Cert.Spec.S2.Idx → EReal := m ((c : Thread nD τ).loc main_arg8)

/-- The seven arrays the region's input windows read, as the region finds them, each at its literal type. -/
abbrev inZ : S4096x4096.Idx → EReal := T1 m c main_arg0
abbrev inW1 : S4096x1024.Idx → EReal := T1 m c main_arg3
abbrev inB1 : S1x1024.Idx → EReal := T1 m c main_v5
abbrev inW2 : S1024x64.Idx → EReal := T1 m c main_arg5
abbrev inB2 : S1x64.Idx → EReal := T1 m c main_v6
abbrev inW3 : S64x2.Idx → EReal := T1 m c main_v1
abbrev inB3 : S1x2.Idx → EReal := T1 m c main_v7

/-- The host operations write no argument array: the input and the first two weight arrays reach the region as launched. -/
theorem inZ_eq : inZ m c = argZ m c := (V1_of m c main_arg0 (by decide)).trans rfl
theorem inW1_eq : inW1 m c = argW1 m c := (V1_of m c main_arg3 (by decide)).trans rfl
theorem inW2_eq : inW2 m c = argW2 m c := (V1_of m c main_arg5 (by decide)).trans rfl

/-- The splat of the scalar 8 reads 8 at every index. -/
theorem splat8_apply {t : Shape} (h : S_.BroadcastsInDim t (![] : Fin 0 → Fin t.rank)) (y : t.Idx) :
    broadcastInDim t ![] h (constant (F := Ideal) S_ .f32 0x41000000#32) y = Ideal.ofBits .f32 0x41000000#32 :=
  (broadcastInDim_apply (s := S_) ![] h _ y (fun a => a.elim0) (fun a => a.elim0)).trans rfl

/-- The first bias as a one-row array. -/
theorem inB1_apply (a : Fin 1024) : inB1 m c (ix2 (0 : Fin 1) a) = argB1 m c (ix1 a) := by
  have e : (T1 m c main_v5 : S1x1024.Idx → EReal) = shapeCast S1x1024 (argB1 m c) shapeCasts_S1024_S1x1024 := by
    show StableHlo.after hostOps0 (fun b => m (c, b)) (Proc.devRef .tc main_v5) = _
    after_results
    rfl
  show (T1 m c main_v5 : S1x1024.Idx → EReal) (ix2 (0 : Fin 1) a) = _
  rw [e]
  exact shapeCast_a_1a_apply _ _ 0 a
/-- The second bias as a one-row array. -/
theorem inB2_apply (b : Fin 64) : inB2 m c (ix2 (0 : Fin 1) b) = argB2 m c (ix1 b) := by
  have e : (T1 m c main_v6 : S1x64.Idx → EReal) = shapeCast S1x64 (argB2 m c) shapeCasts_S64_S1x64 := by
    show StableHlo.after hostOps0 (fun b => m (c, b)) (Proc.devRef .tc main_v6) = _
    after_results
    rfl
  show (T1 m c main_v6 : S1x64.Idx → EReal) (ix2 (0 : Fin 1) b) = _
  rw [e]
  exact shapeCast_a_1a_apply _ _ 0 b
/-- The third layer's weights times 8. -/
theorem inW3_apply (b : Fin 64) (j : Fin 2) :
    inW3 m c (ix2 b j) = argW3 m c (ix2 b j) * Ideal.ofBits .f32 0x41000000#32 := by
  have e : (T1 m c main_v1 : S64x2.Idx → EReal)
      = mulf (argW3 m c) (broadcastInDim S64x2 ![] bcast_S_S64x2 (constant (F := Ideal) S_ .f32 0x41000000#32)) := by
    show StableHlo.after hostOps0 (fun b => m (c, b)) (Proc.devRef .tc main_v1) = _
    after_results
  show (T1 m c main_v1 : S64x2.Idx → EReal) (ix2 b j) = _
  rw [e]
  exact congrArg (argW3 m c (ix2 b j) * ·) (splat8_apply bcast_S_S64x2 (ix2 b j))
/-- The third layer's bias times 8 plus the expert bias, as a one-row array. -/
theorem inB3_apply (j : Fin 2) :
    inB3 m c (ix2 (0 : Fin 1) j)
      = argB3 m c (ix1 j) * Ideal.ofBits .f32 0x41000000#32 + Ideal.ofBits .f32 (Cert.Spec.biasWord j) := by
  have e : (T1 m c main_v7 : S1x2.Idx → EReal)
      = shapeCast S1x2 (addf (mulf (argB3 m c) (broadcastInDim S2 ![] bcast_S_S2 (constant (F := Ideal) S_ .f32 0x41000000#32)))
          (fun i => Ideal.ofBits .f32 (lit0 (S2.rowMajor i)))) shapeCasts_S2_S1x2 := by
    show StableHlo.after hostOps0 (fun b => m (c, b)) (Proc.devRef .tc main_v7) = _
    after_results
    rfl
  have hw : lit0 (S2.rowMajor (ix1 j)) = Cert.Spec.biasWord j := by
    fin_cases j <;> rfl
  show (T1 m c main_v7 : S1x2.Idx → EReal) (ix2 (0 : Fin 1) j) = _
  rw [e, shapeCast_a_1a_apply]
  show argB3 m c (ix1 j) * broadcastInDim S2 ![] bcast_S_S2 (constant (F := Ideal) S_ .f32 0x41000000#32) (ix1 j)
      + Ideal.ofBits .f32 (lit0 (S2.rowMajor (ix1 j))) = _
  rw [splat8_apply bcast_S_S2 (ix1 j), hw]

end Cert.KernelIdeal.Val.Gate

end
-- ==== Proof.Value.Gate.lean ====
/-
  The gate weights the gating region leaves, at the ideal instance: block t of the array is what point t wrote, the
  blocks cover the 4096 rows (row r lies in block r / 256), and the body's arithmetic at row r of block t is the
  specification's at row 256 t + r. The weights and bias of the third layer reach the region already multiplied by 8
  (and the bias with the expert bias added) by the host operations before it, and the three biases as one-row arrays.
-/
import proofs.«153786_g11373073400015_week1_w4_273_15_alg».proof.Proof.KernelIdeal.Fold
import proofs.«153786_g11373073400015_week1_w4_273_15_alg».proof.Proof.Spec
import proofs.«153786_g11373073400015_week1_w4_273_15_alg».proof.Proof.Value.GatePayload
import proofs.«153786_g11373073400015_week1_w4_273_15_alg».proof.Proof.Value.GateHost
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Val.Gate

open Cert.KernelIdeal Cert.KernelIdeal.Gen Cert.KernelIdeal.Fr
open Idealize.ShloMosaic Idealize.ShloMosaic.TcCoe Idealize.SL.Sem
open Idealize.ShloMosaic.ValueIdx

variable (m : (ℓ : Loc nD τ sig) → Buf (Elt Ideal) ℓ) (c : Dev nD)

/-- The specification's gate weights of the arrays as launched. -/
abbrev Gspec : S4096x2.Idx → EReal :=
  Cert.Spec.G0 (argZ m c) (argW1 m c) (argB1 m c) (argW2 m c) (argB2 m c) (argW3 m c) (argB3 m c)

/-- The whole-buffer rectangles start at zero on both axes. -/
theorem zero_off : (![0, 0] : Fin 2 → Nat) = fun _ => 0 := funext fun a => by fin_cases a <;> rfl

/-- The printed index maps, decided over the grid: the input's and the output's blocks move with the point along the
    rows, every other window stays on its one block. -/
theorem idx_gate : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The blocks the body reads, entry by entry -/

/-- Row r of the input's block at point t is row 256 t + r of the input. -/
theorem blk_z (t : Fin cfg0.N) (r : Fin 256) (k : Fin 4096) (i : Fin 4096) (hi : i.val = t.val * 256 + r.val) :
    iblk0 (T1 m) c 0 t (ix2 r k) = argZ m c (ix2 i k) := by
  show inZ m c (((cfg0.win 0).blk t).view.emb (ix2 r k)) = _
  rw [inZ_eq]
  refine congrArg (argZ m c) ?_
  obtain ⟨e0, e1, -⟩ := idx_gate t
  funext a; apply Fin.ext
  match a with
  | ⟨0, _⟩ => show win0_0.index t (0 : Fin 2) * 256 + 1 * r.val = i.val; omega
  | ⟨1, _⟩ => show win0_0.index t (1 : Fin 2) * 4096 + 1 * k.val = k.val; omega

/-- The first weight array's block is the array. -/
theorem blk_W1 (t : Fin cfg0.N) (k : Fin 4096) (a : Fin 1024) : iblk0 (T1 m) c 1 t (ix2 k a) = argW1 m c (ix2 k a) := by
  show inW1 m c (((cfg0.win 1).blk t).view.emb (ix2 k a)) = _
  rw [inW1_eq]
  refine congrArg (argW1 m c) ?_
  obtain ⟨-, -, e0, e1, -⟩ := idx_gate t
  funext ax; apply Fin.ext
  match ax with
  | ⟨0, _⟩ => show win0_1.index t (0 : Fin 2) * 4096 + 1 * k.val = k.val; omega
  | ⟨1, _⟩ => show win0_1.index t (1 : Fin 2) * 1024 + 1 * a.val = a.val; omega

/-- The first bias row's block is the row. -/
theorem blk_B1 (t : Fin cfg0.N) (a : Fin 1024) : iblk0 (T1 m) c 2 t (ix2 (0 : Fin 1) a) = argB1 m c (ix1 a) := by
  show inB1 m c (((cfg0.win 2).blk t).view.emb (ix2 (0 : Fin 1) a)) = _
  rw [← inB1_apply]
  refine congrArg (inB1 m c) ?_
  obtain ⟨-, -, -, -, e0, e1, -⟩ := idx_gate t
  funext ax; apply Fin.ext
  match ax with
  | ⟨0, _⟩ => show win0_2.index t (0 : Fin 2) * 1 + 1 * 0 = 0; omega
  | ⟨1, _⟩ => show win0_2.index t (1 : Fin 2) * 1024 + 1 * a.val = a.val; omega

/-- The second weight array's block is the array. -/
theorem blk_W2 (t : Fin cfg0.N) (a : Fin 1024) (b : Fin 64) : iblk0 (T1 m) c 3 t (ix2 a b) = argW2 m c (ix2 a b) := by
  show inW2 m c (((cfg0.win 3).blk t).view.emb (ix2 a b)) = _
  rw [inW2_eq]
  refine congrArg (argW2 m c) ?_
  obtain ⟨-, -, -, -, -, -, e0, e1, -⟩ := idx_gate t
  funext ax; apply Fin.ext
  match ax with
  | ⟨0, _⟩ => show win0_3.index t (0 : Fin 2) * 1024 + 1 * a.val = a.val; omega
  | ⟨1, _⟩ => show win0_3.index t (1 : Fin 2) * 64 + 1 * b.val = b.val; omega

/-- The second bias row's block is the row. -/
theorem blk_B2 (t : Fin cfg0.N) (b : Fin 64) : iblk0 (T1 m) c 4 t (ix2 (0 : Fin 1) b) = argB2 m c (ix1 b) := by
  show inB2 m c (((cfg0.win 4).blk t).view.emb (ix2 (0 : Fin 1) b)) = _
  rw [← inB2_apply]
  refine congrArg (inB2 m c) ?_
  obtain ⟨-, -, -, -, -, -, -, -, e0, e1, -⟩ := idx_gate t
  funext ax; apply Fin.ext
  match ax with
  | ⟨0, _⟩ => show win0_4.index t (0 : Fin 2) * 1 + 1 * 0 = 0; omega
  | ⟨1, _⟩ => show win0_4.index t (1 : Fin 2) * 64 + 1 * b.val = b.val; omega

/-- The third weight array's block is the array the host operations left: the weights times 8. -/
theorem blk_W3 (t : Fin cfg0.N) (b : Fin 64) (j : Fin 2) :
    iblk0 (T1 m) c 5 t (ix2 b j) = argW3 m c (ix2 b j) * Ideal.ofBits .f32 0x41000000#32 := by
  show inW3 m c (((cfg0.win 5).blk t).view.emb (ix2 b j)) = _
  rw [← inW3_apply]
  refine congrArg (inW3 m c) ?_
  obtain ⟨-, -, -, -, -, -, -, -, -, -, e0, e1, -⟩ := idx_gate t
  funext ax; apply Fin.ext
  match ax with
  | ⟨0, _⟩ => show win0_5.index t (0 : Fin 2) * 64 + 1 * b.val = b.val; omega
  | ⟨1, _⟩ => show win0_5.index t (1 : Fin 2) * 2 + 1 * j.val = j.val; omega

/-- The third bias row's block is the row the host operations left: the bias times 8 plus the expert bias. -/
theorem blk_B3 (t : Fin cfg0.N) (j : Fin 2) :
    iblk0 (T1 m) c 6 t (ix2 (0 : Fin 1) j)
      = argB3 m c (ix1 j) * Ideal.ofBits .f32 0x41000000#32 + Ideal.ofBits .f32 (Cert.Spec.biasWord j) := by
  show inB3 m c (((cfg0.win 6).blk t).view.emb (ix2 (0 : Fin 1) j)) = _
  rw [← inB3_apply]
  refine congrArg (inB3 m c) ?_
  obtain ⟨-, -, -, -, -, -, -, -, -, -, -, -, e0, e1, -⟩ := idx_gate t
  funext ax; apply Fin.ext
  match ax with
  | ⟨0, _⟩ => show win0_6.index t (0 : Fin 2) * 1 + 1 * 0 = 0; omega
  | ⟨1, _⟩ => show win0_6.index t (1 : Fin 2) * 2 + 1 * j.val = j.val; omega

/-- The scratch buffer holds the first weight array: narrowing is the identity on the extended reals. -/
theorem scr_W1 (k : Fin 4096) (a : Fin 1024) : scr0 (T1 m) c (ix2 k a) = argW1 m c (ix2 k a) := by
  unfold scr0
  rw [View.ld_unit_zero (S := S4096x1024) zero_off, pay2_apply]
  exact blk_W1 m c t0_0 k a

/-! ## From the blocks to the array -/

/-- What point t writes back is block t of the specification's gate weights. -/
theorem flushed_gate (t : Fin cfg0.N) :
    (dat0 (F := Ideal) (T1 m) c).flushed 7 t = ((cfg0.win 7).blk t).view.read (Elt Ideal) (Gspec m c) := by
  show (cfg0.win 7).cut (grid0.coords t) ((dat0 (F := Ideal) (T1 m) c).after 7 t) = _
  rw [after0_7]
  unfold out0_7
  rw [View.canon_unit_zero zero_off]
  simp only [View.ld_unit_zero (S := S256x4096) zero_off, View.ld_unit_zero (S := S4096x1024) zero_off,
    View.ld_unit_zero (S := S1x1024) zero_off, View.ld_unit_zero (S := S1024x64) zero_off,
    View.ld_unit_zero (S := S1x64) zero_off, View.ld_unit_zero (S := S64x2) zero_off,
    View.ld_unit_zero (S := S1x2) zero_off]
  funext y
  obtain ⟨r, j, rfl⟩ : ∃ (r : Fin 256) (j : Fin 2), y = ix2 r j := ⟨y 0, y 1, eq_ix2 y⟩
  have hN : cfg0.N = 16 := N_0
  have hlt : t.val * 256 + r.val < 4096 := by have := t.isLt; omega
  obtain ⟨-, -, -, -, -, -, -, -, -, -, -, -, -, -, e0, e1⟩ := idx_gate t
  have hemb : ((cfg0.win 7).blk t).view.emb (ix2 r j) = ix2 (⟨t.val * 256 + r.val, hlt⟩ : Fin 4096) j := by
    funext ax; apply Fin.ext
    match ax with
    | ⟨0, _⟩ => show win0_7.index t (0 : Fin 2) * 256 + 1 * r.val = t.val * 256 + r.val; omega
    | ⟨1, _⟩ => show win0_7.index t (1 : Fin 2) * 2 + 1 * j.val = j.val; omega
  show k0_pay1 (F := Ideal) _ _ _ _ (ix2 r j) = Gspec m c (((cfg0.win 7).blk t).view.emb (ix2 r j))
  rw [hemb]
  have e34 : ∀ b : Fin 64,
      k0_pay3 (iblk0 (T1 m) c 0 t) (scr0 (T1 m) c) (iblk0 (T1 m) c 2 t) (iblk0 (T1 m) c 3 t) (iblk0 (T1 m) c 4 t) (ix2 r b)
        = Cert.Spec.s2 (argZ m c) (argW1 m c) (argB1 m c) (argW2 m c) (argB2 m c) ⟨t.val * 256 + r.val, hlt⟩ b := fun b =>
    pay3_apply (iblk0 (T1 m) c 0 t) (scr0 (T1 m) c) (iblk0 (T1 m) c 2 t) (iblk0 (T1 m) c 3 t) (iblk0 (T1 m) c 4 t)
      (argZ m c) (argW1 m c) (argB1 m c) (argW2 m c) (argB2 m c) ⟨t.val * 256 + r.val, hlt⟩ r
      (fun k => blk_z m c t r k ⟨t.val * 256 + r.val, hlt⟩ rfl) (scr_W1 m c) (blk_B1 m c t) (blk_W2 m c t) (blk_B2 m c t) b
  exact pay1_apply
    (k0_pay3 (iblk0 (T1 m) c 0 t) (scr0 (T1 m) c) (iblk0 (T1 m) c 2 t) (iblk0 (T1 m) c 3 t) (iblk0 (T1 m) c 4 t))
    (k0_pay4 (iblk0 (T1 m) c 0 t) (scr0 (T1 m) c) (iblk0 (T1 m) c 2 t) (iblk0 (T1 m) c 3 t) (iblk0 (T1 m) c 4 t))
    (iblk0 (T1 m) c 5 t) (iblk0 (T1 m) c 6 t)
    (argZ m c) (argW1 m c) (argB1 m c) (argW2 m c) (argB2 m c) (argW3 m c) (argB3 m c) ⟨t.val * 256 + r.val, hlt⟩ r
    e34 (fun b => by rw [pay4_apply, e34 b]) (blk_W3 m c t) (blk_B3 m c t) j

/-- An index of the array is in point t's block iff each coordinate is in the block's range on its axis. -/
theorem mem_blk_gate (t : Fin cfg0.N) (i : S4096x2.Idx) :
    i ∈ ((cfg0.win 7).blk t).view.set
      ↔ ∀ a : Fin 2, win0_7.index t a * S256x2.size a ≤ (i a).val ∧ (i a).val < win0_7.index t a * S256x2.size a + S256x2.size a := by
  show i ∈ ((View.whole main_v8).slice (win0_7.rect t)).set ↔ _
  rw [View.set_slice_whole, Rect.mem_set_unit]
  exact Iff.rfl

/-- Every row of the array lies in the block of the point r / 256, and every point writes its block back. -/
theorem cover_gate (i : S4096x2.Idx) :
    ∃ t : Fin cfg0.N, (cfg0.win 7).flush t = true ∧ i ∈ ((cfg0.win 7).blk t).view.set := by
  have hi0 : (i 0).val < 4096 := (i 0).isLt
  have hi1 : (i 1).val < 2 := (i 1).isLt
  have hN : cfg0.N = 16 := N_0
  have hq : (i 0).val / 256 < cfg0.N := by omega
  obtain ⟨-, -, -, -, -, -, -, -, -, -, -, -, -, -, e0, e1⟩ := idx_gate ⟨(i 0).val / 256, hq⟩
  have e0' : win0_7.index ⟨(i 0).val / 256, hq⟩ (0 : Fin 2) = (i 0).val / 256 := e0
  refine ⟨⟨(i 0).val / 256, hq⟩, flush0_7 _, ?_⟩
  rw [mem_blk_gate]
  intro a
  match a with
  | ⟨0, _⟩ =>
    show win0_7.index ⟨(i 0).val / 256, hq⟩ (0 : Fin 2) * 256 ≤ (i 0).val
      ∧ (i 0).val < win0_7.index ⟨(i 0).val / 256, hq⟩ (0 : Fin 2) * 256 + 256
    omega
  | ⟨1, _⟩ =>
    show win0_7.index ⟨(i 0).val / 256, hq⟩ (1 : Fin 2) * 2 ≤ (i 1).val
      ∧ (i 1).val < win0_7.index ⟨(i 0).val / 256, hq⟩ (1 : Fin 2) * 2 + 2
    omega

/-- The array after the region: the specification's gate weights. -/
theorem arr_gate : (dat0 (F := Ideal) (T1 m) c).arrAt 7 cfg0.N = Gspec m c :=
  (dat0 (F := Ideal) (T1 m) c).arrAt_eq_of_cover 7 (Gspec m c) (fun t _ => flushed_gate m c t) (cover_gate)

end Cert.KernelIdeal.Val.Gate

namespace Cert.KernelIdeal.Val

open Cert.KernelIdeal Cert.KernelIdeal.Gen Cert.KernelIdeal.Fr
open Idealize.ShloMosaic Idealize.ShloMosaic.TcCoe Idealize.SL.Sem
open Idealize.ShloMosaic.ValueIdx

/-- After the gating region the gate weights' array holds the specification's gate weights of the argument arrays. -/
theorem gate_value (m : (ℓ : Loc nD τ sig) → Buf (Elt Ideal) ℓ) (c : Dev nD) :
    (dat0 (F := Ideal) (T1 m) c).arrAt 7 cfg0.N
      = Cert.Spec.G0 (m ((c : Thread nD τ).loc main_arg0)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) :=
  Gate.arr_gate m c

end Cert.KernelIdeal.Val

end
-- ==== Proof.Value.Fuse.lean ====
/-
  The two arrays the fusion region leaves, at the ideal instance and at any contents V of the buffers when it is
  entered: block t of each is what point t wrote, the blocks cover the 4096 rows, and the body's arithmetic at row r of
  block t is the specification's at row 256 t + r of the two graphs and the gate weights.

  The order of the text: the smoothing product read at an entry (row r of the first graph's block against column j of
  the gate weights, a sum over the 4096 contracted positions); the two stored values at an entry; each window's block
  at point t as rows 256 t … 256 t + 255 of its array (the whole-array window on the gate weights as the array
  itself); what point t writes back as block t of the specification's arrays; the cover of the 4096 rows by the
  sixteen blocks (row r lies in block r / 256); the arrays after the last point.
-/
import proofs.«153786_g11373073400015_week1_w4_273_15_alg».proof.Proof.KernelIdeal.Fold
import proofs.«153786_g11373073400015_week1_w4_273_15_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.ValueIdx
open scoped BigOperators

/-- The smoothing product's operand indices, axis by axis. -/
theorem lhs_mm_0 (i : S256x2.Idx) (q : dot_S256x4096_S4096x2_S256x2_1_0_0_1_n_n.contr.Idx) :
    (dot_S256x4096_S4096x2_S256x2_1_0_0_1_n_n.lhsIdx i q 0).val = (i 0).val := by
  unfold DotDims.lhsIdx
  rw [dif_neg (show ¬(0 : Fin S256x4096.rank) ∈ dot_S256x4096_S4096x2_S256x2_1_0_0_1_n_n.lhsBatch by decide),
    dif_pos (show (0 : Fin S256x4096.rank) ∈ dot_S256x4096_S4096x2_S256x2_1_0_0_1_n_n.lhsNonContracting by decide)]
  rfl
theorem lhs_mm_1 (i : S256x2.Idx) (q : dot_S256x4096_S4096x2_S256x2_1_0_0_1_n_n.contr.Idx) :
    (dot_S256x4096_S4096x2_S256x2_1_0_0_1_n_n.lhsIdx i q 1).val = (q ⟨0, by decide⟩).val :=
  dot_S256x4096_S4096x2_S256x2_1_0_0_1_n_n.lhsIdx_val_of_single rfl i q
theorem rhs_mm_0 (i : S256x2.Idx) (q : dot_S256x4096_S4096x2_S256x2_1_0_0_1_n_n.contr.Idx) :
    (dot_S256x4096_S4096x2_S256x2_1_0_0_1_n_n.rhsIdx i q 0).val = (q ⟨0, by decide⟩).val :=
  dot_S256x4096_S4096x2_S256x2_1_0_0_1_n_n.rhsIdx_val_of_single rfl i q
theorem rhs_mm_1 (i : S256x2.Idx) (q : dot_S256x4096_S4096x2_S256x2_1_0_0_1_n_n.contr.Idx) :
    (dot_S256x4096_S4096x2_S256x2_1_0_0_1_n_n.rhsIdx i q 1).val = (i 1).val := by
  unfold DotDims.rhsIdx
  rw [dif_neg (show ¬(1 : Fin S4096x2.rank) ∈ dot_S256x4096_S4096x2_S256x2_1_0_0_1_n_n.rhsBatch by decide),
    dif_pos (show (1 : Fin S4096x2.rank) ∈ dot_S256x4096_S4096x2_S256x2_1_0_0_1_n_n.rhsNonContracting by decide)]
  rfl

/-- The block product into the zero splat at (r, j): row r of the left block against column j of the right. -/
theorem mm_apply (g1 : FVec Ideal S256x4096 .f32) (gall : FVec Ideal S4096x2 .f32) (r : Fin 256) (j : Fin 2) :
    matmul dot_S256x4096_S4096x2_S256x2_1_0_0_1_n_n none g1 gall (constant (F := Ideal) S256x2 .f32 0x00000000#32) (ix2 r j)
      = ∑ k : Fin 4096, g1 (ix2 r k) * gall (ix2 k j) := by
  simp only [matmul]
  rw [Ideal.matmul_constant_zero_apply, ← Equiv.sum_comp (contrEquiv1 dot_S256x4096_S4096x2_S256x2_1_0_0_1_n_n 4096 rfl rfl).symm]
  refine Finset.sum_congr rfl fun k _ => ?_
  have hk := contrEquiv1_symm_val dot_S256x4096_S4096x2_S256x2_1_0_0_1_n_n 4096 rfl rfl k
  have el : dot_S256x4096_S4096x2_S256x2_1_0_0_1_n_n.lhsIdx (ix2 r j) ((contrEquiv1 dot_S256x4096_S4096x2_S256x2_1_0_0_1_n_n 4096 rfl rfl).symm k) = ix2 r k :=
    funext fun a => Fin.ext (by
      match a with
      | ⟨0, _⟩ => exact lhs_mm_0 _ _
      | ⟨1, _⟩ => exact (lhs_mm_1 _ _).trans hk)
  have er : dot_S256x4096_S4096x2_S256x2_1_0_0_1_n_n.rhsIdx (ix2 r j) ((contrEquiv1 dot_S256x4096_S4096x2_S256x2_1_0_0_1_n_n 4096 rfl rfl).symm k) = ix2 k j :=
    funext fun a => Fin.ext (by
      match a with
      | ⟨0, _⟩ => exact (rhs_mm_0 _ _).trans hk
      | ⟨1, _⟩ => exact rhs_mm_1 _ _)
  rw [el, er]

/-- The smoothed weights' payload at (r, j). -/
theorem pay1_apply (g1 : Vec Ideal S256x4096 .f32) (gall : Vec Ideal S4096x2 .f32) (grow : Vec Ideal S256x2 .f32)
    (r : Fin 256) (j : Fin 2) :
    k1_pay1 (F := Ideal) g1 gall grow (ix2 r j)
      = Ideal.ofBits .f32 0x3F333333#32 * grow (ix2 r j)
        + Ideal.ofBits .f32 0x3E99999A#32 * ∑ k : Fin 4096, g1 (ix2 r k) * gall (ix2 k j) := by
  unfold k1_pay1
  simp only [addf_apply, mulf_apply, broadcast_apply, shapeCast_self]
  rw [mm_apply]
  rfl

section Cols
variable {α : Type}

/-- A column [256, 1] broadcast along the rows' 4096 entries reads, at (r, k), the column at r. -/
theorem bcast_col_apply (v : S256x1.Idx → α) (r : Fin 256) (k : Fin 4096) :
    broadcastTo S256x4096 v broadcasts_S256x1_S256x4096 (ix2 r k) = v (ix2 r (0 : Fin 1)) := by
  refine broadcastTo_apply v broadcasts_S256x1_S256x4096 (ix2 r k) (ix2 r (0 : Fin 1)) fun ax => ?_
  match ax with
  | ⟨0, _⟩ => rfl
  | ⟨1, _⟩ => rfl

/-- Column 0 of a [256, 2] array, broadcast along the rows, at (r, k). -/
theorem col0_apply (P : S256x2.Idx → α) (r : Fin 256) (k : Fin 4096) :
    broadcastTo S256x4096 (extractStridedSlice S256x1 ![0, 0] P slices_S256x2_o0_0_S256x1) broadcasts_S256x1_S256x4096 (ix2 r k)
      = P (ix2 r (0 : Fin 2)) :=
  (bcast_col_apply _ r k).trans (slice2_axis1_apply 0 P slices_S256x2_o0_0_S256x1 r (0 : Fin 1) (0 : Fin 2) rfl)

/-- Column 1 likewise. -/
theorem col1_apply (P : S256x2.Idx → α) (r : Fin 256) (k : Fin 4096) :
    broadcastTo S256x4096 (extractStridedSlice S256x1 ![0, 1] P slices_S256x2_o0_1_S256x1) broadcasts_S256x1_S256x4096 (ix2 r k)
      = P (ix2 r (1 : Fin 2)) :=
  (bcast_col_apply _ r k).trans (slice2_axis1_apply 1 P slices_S256x2_o0_1_S256x1 r (0 : Fin 1) (1 : Fin 2) rfl)

end Cols

/-- The fused graph's payload at (r, k): the two graphs' entries scaled by the row's two smoothed weights. -/
theorem pay2_apply (g1 g2 : Vec Ideal S256x4096 .f32) (gall : Vec Ideal S4096x2 .f32) (grow : Vec Ideal S256x2 .f32)
    (r : Fin 256) (k : Fin 4096) :
    k1_pay2 (F := Ideal) g1 gall grow g2 (ix2 r k)
      = g1 (ix2 r k) * k1_pay1 (F := Ideal) g1 gall grow (ix2 r (0 : Fin 2))
        + g2 (ix2 r k) * k1_pay1 (F := Ideal) g1 gall grow (ix2 r (1 : Fin 2)) := by
  unfold k1_pay2
  simp only [addf_apply, mulf_apply]
  rw [col0_apply, col1_apply]

/-- The whole-buffer rectangles start at the origin. -/
theorem hz : (![0, 0] : Fin 2 → Nat) = fun _ => 0 := funext fun a => by fin_cases a <;> rfl

/-- The printed index maps over the sixteen points: each row-blocked window is at block (t, 0), the whole gate-weights
    window at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

section Blocks

variable (V : (c : Dev nD) → (b : Ref sig .tc) → Buf (Elt Ideal) ((c : Thread nD τ).loc b))

/-- The first graph's block at point t is its rows 256 t … 256 t + 255. -/
theorem iblk_G1 (c : Dev nD) (t : Fin cfg1.N) (x : S256x4096.Idx) (k : S4096x4096.Idx)
    (hk0 : (k 0).val = 256 * t.val + (x 0).val) (hk1 : (k 1).val = (x 1).val) :
    (iblk1 V c 0 t : Vec Ideal S256x4096 .f32) x = (V c main_arg1 : S4096x4096.Idx → EReal) k := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 256 + 1 * (x 0).val = (k 0).val; rw [e0, hk0]; omega
  | ⟨1, _⟩ => show win1_0.index t (1 : Fin 2) * 4096 + 1 * (x 1).val = (k 1).val; rw [e1, hk1]; omega

/-- The second graph's block at point t is its rows 256 t … 256 t + 255. -/
theorem iblk_G2 (c : Dev nD) (t : Fin cfg1.N) (x : S256x4096.Idx) (k : S4096x4096.Idx)
    (hk0 : (k 0).val = 256 * t.val + (x 0).val) (hk1 : (k 1).val = (x 1).val) :
    (iblk1 V c 1 t : Vec Ideal S256x4096 .f32) x = (V c main_arg2 : S4096x4096.Idx → EReal) k := by
  obtain ⟨-, -, e0, e1, -⟩ := idx_facts t
  unfold iblk1
  rw [View.read_apply]
  show V c main_arg2 _ = V c main_arg2 _
  congr 1
  funext a
  apply Fin.ext
  match a with
  | ⟨0, _⟩ => show win1_1.index t (0 : Fin 2) * 256 + 1 * (x 0).val = (k 0).val; rw [e0, hk0]; omega
  | ⟨1, _⟩ => show win1_1.index t (1 : Fin 2) * 4096 + 1 * (x 1).val = (k 1).val; rw [e1, hk1]; omega

/-- The whole-array window on the gate weights holds the gate weights. -/
theorem iblk_gall (c : Dev nD) (t : Fin cfg1.N) (x : S4096x2.Idx) :
    (iblk1 V c 2 t : Vec Ideal S4096x2 .f32) x = (V c main_v8 : S4096x2.Idx → EReal) x := by
  obtain ⟨-, -, -, -, e0, e1, -⟩ := idx_facts t
  unfold iblk1
  rw [View.read_apply]
  show V c main_v8 _ = V c main_v8 _
  congr 1
  funext a
  apply Fin.ext
  match a with
  | ⟨0, _⟩ => show win1_2.index t (0 : Fin 2) * 4096 + 1 * (x 0).val = (x 0).val; rw [e0]; omega
  | ⟨1, _⟩ => show win1_2.index t (1 : Fin 2) * 2 + 1 * (x 1).val = (x 1).val; rw [e1]; omega

/-- The row-blocked window on the gate weights holds their rows 256 t … 256 t + 255. -/
theorem iblk_grow (c : Dev nD) (t : Fin cfg1.N) (x : S256x2.Idx) (k : S4096x2.Idx)
    (hk0 : (k 0).val = 256 * t.val + (x 0).val) (hk1 : (k 1).val = (x 1).val) :
    (iblk1 V c 3 t : Vec Ideal S256x2 .f32) x = (V c main_v8 : S4096x2.Idx → EReal) k := by
  obtain ⟨-, -, -, -, -, -, e0, e1, -⟩ := idx_facts t
  unfold iblk1
  rw [View.read_apply]
  show V c main_v8 _ = V c main_v8 _
  congr 1
  funext a
  apply Fin.ext
  match a with
  | ⟨0, _⟩ => show win1_3.index t (0 : Fin 2) * 256 + 1 * (x 0).val = (k 0).val; rw [e0, hk0]; omega
  | ⟨1, _⟩ => show win1_3.index t (1 : Fin 2) * 2 + 1 * (x 1).val = (k 1).val; rw [e1, hk1]; omega

/-- Where the fused-graph window's block at t puts its entry y in the array: row 256 t + y₀, column y₁. -/
theorem emb4 (t : Fin cfg1.N) (y : S256x4096.Idx) :
    ((((cfg1.win 4).blk t).view.emb y : S4096x4096.Idx) 0).val = 256 * t.val + (y 0).val
      ∧ ((((cfg1.win 4).blk t).view.emb y : S4096x4096.Idx) 1).val = (y 1).val := by
  obtain ⟨-, -, -, -, -, -, -, -, e0, e1, -⟩ := idx_facts t
  constructor
  · show win1_4.index t (0 : Fin 2) * 256 + 1 * (y 0).val = _; rw [e0]; omega
  · show win1_4.index t (1 : Fin 2) * 4096 + 1 * (y 1).val = _; rw [e1]; omega

/-- The same for the smoothed-weights window. -/
theorem emb5 (t : Fin cfg1.N) (y : S256x2.Idx) :
    ((((cfg1.win 5).blk t).view.emb y : S4096x2.Idx) 0).val = 256 * t.val + (y 0).val
      ∧ ((((cfg1.win 5).blk t).view.emb y : S4096x2.Idx) 1).val = (y 1).val := by
  obtain ⟨-, -, -, -, -, -, -, -, -, -, e0, e1⟩ := idx_facts t
  constructor
  · show win1_5.index t (0 : Fin 2) * 256 + 1 * (y 0).val = _; rw [e0]; omega
  · show win1_5.index t (1 : Fin 2) * 2 + 1 * (y 1).val = _; rw [e1]; omega

end Blocks

/-- The smoothed weights' payload at (r, j) when row r of the blocks is row R of the arrays: the specification's
    entry (R, j). -/
theorem pay1_pt (G1 : S4096x4096.Idx → EReal) (g : S4096x2.Idx → EReal)
    (g1 : Vec Ideal S256x4096 .f32) (gall : Vec Ideal S4096x2 .f32) (grow : Vec Ideal S256x2 .f32)
    (r : Fin 256) (j : Fin 2) (R : Fin 4096)
    (h1 : ∀ k : Fin 4096, g1 (ix2 r k) = G1 (ix2 R k))
    (h2 : ∀ x, gall x = g x)
    (h3 : grow (ix2 r j) = g (ix2 R j)) :
    k1_pay1 (F := Ideal) g1 gall grow (ix2 r j) = Cert.Spec.gw G1 g R j := by
  refine (pay1_apply g1 gall grow r j).trans ?_
  unfold Cert.Spec.gw
  rw [h3]
  simp only [h1, h2]

/-- The fused graph's payload at (r, q) likewise: the specification's entry (R, q). -/
theorem pay2_pt (G1 G2 : S4096x4096.Idx → EReal) (g : S4096x2.Idx → EReal)
    (g1 g2 : Vec Ideal S256x4096 .f32) (gall : Vec Ideal S4096x2 .f32) (grow : Vec Ideal S256x2 .f32)
    (r : Fin 256) (q : Fin 4096) (R : Fin 4096)
    (h1 : ∀ k : Fin 4096, g1 (ix2 r k) = G1 (ix2 R k))
    (h1' : g2 (ix2 r q) = G2 (ix2 R q))
    (h2 : ∀ x, gall x = g x)
    (h3 : ∀ j : Fin 2, grow (ix2 r j) = g (ix2 R j)) :
    k1_pay2 (F := Ideal) g1 gall grow g2 (ix2 r q) = Cert.Spec.gf G1 G2 g R q := by
  refine (pay2_apply g1 g2 gall grow r q).trans ?_
  rw [pay1_pt G1 g g1 gall grow r 0 R h1 h2 (h3 0), pay1_pt G1 g g1 gall grow r 1 R h1 h2 (h3 1), h1 q, h1']
  rfl

/-- Entry y of the smoothed-weights block is entry i of the specification's array, when y's row of the blocks is i's
    row of the arrays and the columns agree. -/
theorem pay1_blk (G1 : S4096x4096.Idx → EReal) (g : S4096x2.Idx → EReal)
    (g1 : Vec Ideal S256x4096 .f32) (gall : Vec Ideal S4096x2 .f32) (grow : Vec Ideal S256x2 .f32)
    (y : S256x2.Idx) (i : S4096x2.Idx)
    (h1 : ∀ k : Fin 4096, g1 (ix2 (y 0 : Fin 256) k) = G1 (ix2 (i 0 : Fin 4096) k))
    (h2 : ∀ x, gall x = g x)
    (h3 : grow y = g i)
    (hi1 : (i 1).val = (y 1).val) :
    k1_pay1 (F := Ideal) g1 gall grow y = Cert.Spec.Gw G1 g i := by
  have hj : (i 1 : Fin 2) = (y 1 : Fin 2) := Fin.ext hi1
  have hy : y = ix2 (y 0 : Fin 256) (y 1 : Fin 2) := eq_ix2 y
  have hi : i = ix2 (i 0 : Fin 4096) (y 1 : Fin 2) := (eq_ix2 i).trans (congrArg (ix2 (i 0 : Fin 4096)) hj)
  refine (congrArg (k1_pay1 (F := Ideal) g1 gall grow) hy).trans ?_
  refine (pay1_pt G1 g g1 gall grow (y 0) (y 1) (i 0) h1 h2 ((congrArg grow hy.symm).trans (h3.trans (congrArg g hi)))).trans ?_
  exact congrArg (Cert.Spec.gw G1 g (i 0)) hj.symm

/-- Entry y of the fused-graph block is entry i of the specification's array, under the same hypotheses. -/
theorem pay2_blk (G1 G2 : S4096x4096.Idx → EReal) (g : S4096x2.Idx → EReal)
    (g1 g2 : Vec Ideal S256x4096 .f32) (gall : Vec Ideal S4096x2 .f32) (grow : Vec Ideal S256x2 .f32)
    (y : S256x4096.Idx) (i : S4096x4096.Idx)
    (h1 : ∀ k : Fin 4096, g1 (ix2 (y 0 : Fin 256) k) = G1 (ix2 (i 0 : Fin 4096) k))
    (h1' : g2 y = G2 i)
    (h2 : ∀ x, gall x = g x)
    (h3 : ∀ j : Fin 2, grow (ix2 (y 0 : Fin 256) j) = g (ix2 (i 0 : Fin 4096) j))
    (hi1 : (i 1).val = (y 1).val) :
    k1_pay2 (F := Ideal) g1 gall grow g2 y = Cert.Spec.Gf G1 G2 g i := by
  have hj : (i 1 : Fin 4096) = (y 1 : Fin 4096) := Fin.ext hi1
  have hy : y = ix2 (y 0 : Fin 256) (y 1 : Fin 4096) := eq_ix2 y
  have hi : i = ix2 (i 0 : Fin 4096) (y 1 : Fin 4096) := (eq_ix2 i).trans (congrArg (ix2 (i 0 : Fin 4096)) hj)
  refine (congrArg (k1_pay2 (F := Ideal) g1 gall grow g2) hy).trans ?_
  refine (pay2_pt G1 G2 g g1 g2 gall grow (y 0) (y 1) (i 0) h1 ((congrArg g2 hy.symm).trans (h1'.trans (congrArg G2 hi))) h2 h3).trans ?_
  exact congrArg (Cert.Spec.gf G1 G2 g (i 0)) hj.symm

section Flush

variable (V : (c : Dev nD) → (b : Ref sig .tc) → Buf (Elt Ideal) ((c : Thread nD τ).loc b))

/-- What point t writes back to the smoothed weights is block t of the specification's array. -/
theorem flushed5_eq (c : Dev nD) (t : Fin cfg1.N) :
    (dat1 (F := Ideal) V c).flushed 5 t
      = ((cfg1.win 5).blk t).view.read (Elt Ideal) (Cert.Spec.Gw (V c main_arg1) (V c main_v8)) := by
  show (cfg1.win 5).cut (grid1.coords t) ((dat1 (F := Ideal) V c).after 5 t) = _
  rw [after1_5]
  unfold out1_5
  rw [View.canon_unit_zero hz]
  simp only [View.ld_unit_zero (S := S256x4096) hz, View.ld_unit_zero (S := S4096x2) hz, View.ld_unit_zero (S := S256x2) hz]
  funext y
  obtain ⟨ey0, ey1⟩ := emb5 t y
  exact pay1_blk (V c main_arg1) (V c main_v8) (iblk1 V c 0 t) (iblk1 V c 2 t) (iblk1 V c 3 t) y (((cfg1.win 5).blk t).view.emb y)
    (fun k => iblk_G1 V c t (ix2 (y 0) k) (ix2 (((cfg1.win 5).blk t).view.emb y 0) k) ey0 rfl)
    (fun x => iblk_gall V c t x)
    (iblk_grow V c t y (((cfg1.win 5).blk t).view.emb y) ey0 ey1)
    ey1

/-- What point t writes back to the fused graph is block t of the specification's array. -/
theorem flushed4_eq (c : Dev nD) (t : Fin cfg1.N) :
    (dat1 (F := Ideal) V c).flushed 4 t
      = ((cfg1.win 4).blk t).view.read (Elt Ideal) (Cert.Spec.Gf (V c main_arg1) (V c main_arg2) (V c main_v8)) := by
  show (cfg1.win 4).cut (grid1.coords t) ((dat1 (F := Ideal) V c).after 4 t) = _
  rw [after1_4]
  unfold out1_4
  rw [View.canon_unit_zero hz]
  simp only [View.ld_unit_zero (S := S256x4096) hz, View.ld_unit_zero (S := S4096x2) hz, View.ld_unit_zero (S := S256x2) hz]
  funext y
  obtain ⟨ey0, ey1⟩ := emb4 t y
  exact pay2_blk (V c main_arg1) (V c main_arg2) (V c main_v8) (iblk1 V c 0 t) (iblk1 V c 1 t) (iblk1 V c 2 t) (iblk1 V c 3 t) y
    (((cfg1.win 4).blk t).view.emb y)
    (fun k => iblk_G1 V c t (ix2 (y 0) k) (ix2 (((cfg1.win 4).blk t).view.emb y 0) k) ey0 rfl)
    (iblk_G2 V c t y (((cfg1.win 4).blk t).view.emb y) ey0 ey1)
    (fun x => iblk_gall V c t x)
    (fun j => iblk_grow V c t (ix2 (y 0) j) (ix2 (((cfg1.win 4).blk t).view.emb y 0) j) ey0 rfl)
    ey1

end Flush

/-- An index of the fused graph is in point t's block iff each coordinate is in the block's range on its axis. -/
theorem mem_blk4 (t : Fin cfg1.N) (i : S4096x4096.Idx) :
    i ∈ ((cfg1.win 4).blk t).view.set
      ↔ ∀ a : Fin 2, win1_4.index t a * S256x4096.size a ≤ (i a).val ∧ (i a).val < win1_4.index t a * S256x4096.size a + S256x4096.size a := by
  show i ∈ ((View.whole main_v9_0).slice (win1_4.rect t)).set ↔ _
  rw [View.set_slice_whole, Rect.mem_set_unit]
  exact Iff.rfl

/-- The same for the smoothed weights. -/
theorem mem_blk5 (t : Fin cfg1.N) (i : S4096x2.Idx) :
    i ∈ ((cfg1.win 5).blk t).view.set
      ↔ ∀ a : Fin 2, win1_5.index t a * S256x2.size a ≤ (i a).val ∧ (i a).val < win1_5.index t a * S256x2.size a + S256x2.size a := by
  show i ∈ ((View.whole main_v9_1).slice (win1_5.rect t)).set ↔ _
  rw [View.set_slice_whole, Rect.mem_set_unit]
  exact Iff.rfl

/-- Row r of the fused graph lies in the block of point r / 256: the sixteen blocks cover the 4096 rows. -/
theorem cover4 (i : S4096x4096.Idx) : ∃ t : Fin cfg1.N, (cfg1.win 4).flush t = true ∧ i ∈ ((cfg1.win 4).blk t).view.set := by
  have hi0 : (i 0).val < 4096 := (i 0).isLt
  have hi1 : (i 1).val < 4096 := (i 1).isLt
  have ht : (i 0).val / 256 < cfg1.N := by rw [show cfg1.N = 16 from N_1]; omega
  obtain ⟨-, -, -, -, -, -, -, -, e0, e1, -⟩ := idx_facts ⟨(i 0).val / 256, ht⟩
  refine ⟨⟨(i 0).val / 256, ht⟩, flush1_4 _, ?_⟩
  rw [mem_blk4]
  intro a
  match a with
  | ⟨0, _⟩ =>
    show win1_4.index ⟨(i 0).val / 256, ht⟩ (0 : Fin 2) * 256 ≤ (i 0).val ∧ (i 0).val < win1_4.index ⟨(i 0).val / 256, ht⟩ (0 : Fin 2) * 256 + 256
    rw [e0]; show (i 0).val / 256 * 256 ≤ (i 0).val ∧ (i 0).val < (i 0).val / 256 * 256 + 256; omega
  | ⟨1, _⟩ =>
    show win1_4.index ⟨(i 0).val / 256, ht⟩ (1 : Fin 2) * 4096 ≤ (i 1).val ∧ (i 1).val < win1_4.index ⟨(i 0).val / 256, ht⟩ (1 : Fin 2) * 4096 + 4096
    rw [e1]; omega

/-- The same for the smoothed weights. -/
theorem cover5 (i : S4096x2.Idx) : ∃ t : Fin cfg1.N, (cfg1.win 5).flush t = true ∧ i ∈ ((cfg1.win 5).blk t).view.set := by
  have hi0 : (i 0).val < 4096 := (i 0).isLt
  have hi1 : (i 1).val < 2 := (i 1).isLt
  have ht : (i 0).val / 256 < cfg1.N := by rw [show cfg1.N = 16 from N_1]; omega
  obtain ⟨-, -, -, -, -, -, -, -, -, -, e0, e1⟩ := idx_facts ⟨(i 0).val / 256, ht⟩
  refine ⟨⟨(i 0).val / 256, ht⟩, flush1_5 _, ?_⟩
  rw [mem_blk5]
  intro a
  match a with
  | ⟨0, _⟩ =>
    show win1_5.index ⟨(i 0).val / 256, ht⟩ (0 : Fin 2) * 256 ≤ (i 0).val ∧ (i 0).val < win1_5.index ⟨(i 0).val / 256, ht⟩ (0 : Fin 2) * 256 + 256
    rw [e0]; show (i 0).val / 256 * 256 ≤ (i 0).val ∧ (i 0).val < (i 0).val / 256 * 256 + 256; omega
  | ⟨1, _⟩ =>
    show win1_5.index ⟨(i 0).val / 256, ht⟩ (1 : Fin 2) * 2 ≤ (i 1).val ∧ (i 1).val < win1_5.index ⟨(i 0).val / 256, ht⟩ (1 : Fin 2) * 2 + 2
    rw [e1]; omega

/-- After the fusion region: the fused graph and the smoothed gate weights of the graphs and gate weights it was
    entered with. -/
theorem fuse_value (V : (c : Dev nD) → (b : Ref sig .tc) → Buf (Elt Ideal) ((c : Thread nD τ).loc b)) (c : Dev nD) :
    (dat1 (F := Ideal) V c).arrAt 4 cfg1.N = Cert.Spec.Gf (V c main_arg1) (V c main_arg2) (V c main_v8)
      ∧ (dat1 (F := Ideal) V c).arrAt 5 cfg1.N = Cert.Spec.Gw (V c main_arg1) (V c main_v8) :=
  ⟨(dat1 (F := Ideal) V c).arrAt_eq_of_cover 4 (Cert.Spec.Gf (V c main_arg1) (V c main_arg2) (V c main_v8))
      (fun t _ => flushed4_eq V c t) cover4,
    (dat1 (F := Ideal) V c).arrAt_eq_of_cover 5 (Cert.Spec.Gw (V c main_arg1) (V c main_v8))
      (fun t _ => flushed5_eq V c t) cover5⟩

end Cert.KernelIdeal.Val

end
-- ==== Proof.Value.Kernel.lean ====
/-
  The two result arrays of the program at the ideal instance, in terms of the launch memory: the fusion region leaves
  the fused graph and the smoothed gate weights of the two graphs (argument arrays, untouched so far) and of the gate
  weights the gating region left, which are the specification's gate weights of the other seven argument arrays.
-/
import proofs.«153786_g11373073400015_week1_w4_273_15_alg».proof.Proof.KernelIdeal.Fold
import proofs.«153786_g11373073400015_week1_w4_273_15_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import proofs.«153786_g11373073400015_week1_w4_273_15_alg».proof.Proof.Value.Gate
import proofs.«153786_g11373073400015_week1_w4_273_15_alg».proof.Proof.Value.Fuse

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.ValueIdx

variable (m : (ℓ : Loc nD τ sig) → Buf (Elt Ideal) ℓ)

/-- The specification's gate weights of the launch memory's argument arrays. -/
abbrev gates (c : Dev nD) : Cert.Spec.Sn2.Idx → EReal :=
  Cert.Spec.G0 (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

theorem B2_main_arg1 (c : Dev nD) : B2 m c (Proc.devRef .tc main_arg1) = m ((c : Thread nD τ).loc main_arg1) :=
  (B2_of_ne m c main_arg1 (by decide)).trans ((V1_of m c main_arg1 (by decide)).trans rfl)
theorem B2_main_arg2 (c : Dev nD) : B2 m c (Proc.devRef .tc main_arg2) = m ((c : Thread nD τ).loc main_arg2) :=
  (B2_of_ne m c main_arg2 (by decide)).trans ((V1_of m c main_arg2 (by decide)).trans rfl)

/-- The first result buffer at the end: the fused graph. -/
theorem kernel_v9_0 (c : Dev nD) :
    B3 m c (Proc.devRef .tc main_v9_0)
      = Cert.Spec.Gf (m ((c : Thread nD τ).loc main_arg1)) (m ((c : Thread nD τ).loc main_arg2)) (gates m c) := by
  rw [B3_main_v9_0, (fuse_value (T2 m) c).1]
  show Cert.Spec.Gf (B2 m c (Proc.devRef .tc main_arg1)) (B2 m c (Proc.devRef .tc main_arg2)) (B2 m c (Proc.devRef .tc main_v8)) = _
  rw [B2_main_arg1, B2_main_arg2, B2_main_v8, gate_value]

/-- The second result buffer at the end: the smoothed gate weights. -/
theorem kernel_v9_1 (c : Dev nD) :
    B3 m c (Proc.devRef .tc main_v9_1) = Cert.Spec.Gw (m ((c : Thread nD τ).loc main_arg1)) (gates m c) := by
  rw [B3_main_v9_1, (fuse_value (T2 m) c).2]
  show Cert.Spec.Gw (B2 m c (Proc.devRef .tc main_arg1)) (B2 m c (Proc.devRef .tc main_v8)) = _
  rw [B2_main_arg1, B2_main_v8, gate_value]

end Cert.KernelIdeal.Val

end
-- ==== Proof.Reference.Ops.lean ====
/-
  The reference program's host operations in the order it runs them, the module-local functions it calls (the
  variance, the rectifier, the leaky rectifier and the two selects inside them) written at their call sites over the
  buffers of each call.
-/
import proofs.«153786_g11373073400015_week1_w4_273_15_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The ninety-eight operations, in order: the program's own sixty-five, and at the three calls the variance's
    twenty with its select's three, the rectifier's three, and the leaky rectifier's six with its select's one. -/
abbrev ops : List (HloOp τ sig (Elt F)) :=
  [ nullary main_cst (fun i => FloatOps.ofBits .f32 (lit0 (S2.rowMajor i))),
    nullary main_cst_0 (constant S_ .f32 0x00000000#32),
    binary main_arg0 main_cst_0 main_v0 (fun x v => Host.reduceAdd x v reducesTo_S4096x4096_S4096_d1 h_S_),
    unary main_v0 main_v1 (broadcastInDim S4096x1 ![0] bcast_S4096_S4096x1_0),
    nullary main_cst_1 (constant S_ .f32 0x45800000#32),
    unary main_cst_1 main_v2 (broadcastInDim S4096x1 ![] bcast_S_S4096x1),
    binary main_v1 main_v2 main_v3 Host.divf,
    nullary main_c (constantI S_ 32 0#32),
    -- the variance of the rows of the first argument, with zero degrees of freedom removed
    TRef.nullary main_call0.cst (constant S_ .f32 0x00000000#32),
    TRef.binary (.of main_arg0) main_call0.cst main_call0.v0 (fun x v => Host.reduceAdd x v reducesTo_S4096x4096_S4096_d1 h_S_),
    TRef.unary main_call0.v0 main_call0.v1 (broadcastInDim S4096x1 ![0] bcast_S4096_S4096x1_0),
    TRef.nullary main_call0.cst_0 (constant S_ .f32 0x45800000#32),
    TRef.unary main_call0.cst_0 main_call0.v2 (broadcastInDim S4096x1 ![] bcast_S_S4096x1),
    TRef.binary main_call0.v1 main_call0.v2 main_call0.v3 Host.divf,
    TRef.unary main_call0.v3 main_call0.v4 (broadcastInDim S4096x4096 ![0, 1] bcast_S4096x1_S4096x4096_0_1),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x45800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4096x4096_S4096_d1 h_S_),
    TRef.unary main_call0.v9 main_call0.v10 (broadcastInDim S4096x1 ![0] bcast_S4096_S4096x1_0),
    TRef.unary main_call0.v8 main_call0.v11 (broadcastInDim S4096x1 ![] bcast_S_S4096x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    -- its select: the quotient where the count is positive, the not-a-number constant elsewhere
    TRef.unary main_call0.cst_4 main_call0.call0.v0 id,
    TRef.unary main_call0.call0.v0 main_call0.call0.v1 (broadcastInDim S4096x1 ![] bcast_S_S4096x1),
    TRef.ternary main_call0.v13 main_call0.v12 main_call0.call0.v1 main_call0.call0.v2 (fun p a b => select (broadcastInDim S4096x1 ![] bcast_S_S4096x1 p) a b),
    unary main_v3 main_v5 (broadcastInDim S4096x4096 ![0, 1] bcast_S4096x1_S4096x4096_0_1),
    binary main_arg0 main_v5 main_v6 subf,
    nullary main_cst_2 (constant S_ .f32 0x3727C5AC#32),
    unary main_cst_2 main_v7 (broadcastInDim S4096x1 ![] bcast_S_S4096x1),
    binary main_v4 main_v7 main_v8 addf,
    unary main_v8 main_v9 Host.sqrt,
    unary main_v9 main_v10 (broadcastInDim S4096x4096 ![0, 1] bcast_S4096x1_S4096x4096_0_1),
    binary main_v6 main_v10 main_v11 Host.divf,
    binary main_v11 main_arg3 main_v12 (fun l r => Host.dotGeneral dot_S4096x4096_S4096x1024_S4096x1024_1_0_0_1_n_n none l r),
    unary main_arg4 main_v13 (broadcastInDim S1x1024 ![1] bcast_S1024_S1x1024_1),
    unary main_v13 main_v14 (broadcastInDim S4096x1024 ![0, 1] bcast_S1x1024_S4096x1024_0_1),
    binary main_v12 main_v14 main_v15 addf,
    -- the rectifier
    TRef.nullary main_call1.cst (constant S_ .f32 0x00000000#32),
    TRef.unary main_call1.cst main_call1.v0 (broadcastInDim S4096x1024 ![] bcast_S_S4096x1024),
    TRef.binary (.of main_v15) main_call1.v0 main_call1.v1 maximumf,
    binary main_v16 main_arg5 main_v17 (fun l r => Host.dotGeneral dot_S4096x1024_S1024x64_S4096x64_1_0_0_1_n_n none l r),
    unary main_arg6 main_v18 (broadcastInDim S1x64 ![1] bcast_S64_S1x64_1),
    unary main_v18 main_v19 (broadcastInDim S4096x64 ![0, 1] bcast_S1x64_S4096x64_0_1),
    binary main_v17 main_v19 main_v20 addf,
    nullary main_cst_3 (constant S_ .f32 0x3C23D70A#32),
    -- the leaky rectifier, its select last
    TRef.nullary main_call2.cst (constant S_ .f32 0x00000000#32),
    TRef.unary main_call2.cst main_call2.v0 (broadcastInDim S4096x64 ![] bcast_S_S4096x64),
    TRef.binary (.of main_v20) main_call2.v0 main_call2.v1 (cmpf .oge),
    TRef.unary (.of main_cst_3) main_call2.v2 id,
    TRef.unary main_call2.v2 main_call2.v3 (broadcastInDim S4096x64 ![] bcast_S_S4096x64),
    TRef.binary main_call2.v3 (.of main_v20) main_call2.v4 mulf,
    TRef.ternary main_call2.v1 (.of main_v20) main_call2.v4 main_call2.call0.v0 select,
    binary main_v21 main_arg7 main_v22 (fun l r => Host.dotGeneral dot_S4096x64_S64x2_S4096x2_1_0_0_1_n_n none l r),
    unary main_arg8 main_v23 (broadcastInDim S1x2 ![1] bcast_S2_S1x2_1),
    unary main_v23 main_v24 (broadcastInDim S4096x2 ![0, 1] bcast_S1x2_S4096x2_0_1),
    binary main_v22 main_v24 main_v25 addf,
    nullary main_cst_4 (constant S_ .f32 0x41000000#32),
    unary main_cst_4 main_v26 (broadcastInDim S4096x2 ![] bcast_S_S4096x2),
    binary main_v25 main_v26 main_v27 mulf,
    unary main_cst main_v28 (broadcastInDim S1x2 ![1] bcast_S2_S1x2_1),
    unary main_v28 main_v29 (broadcastInDim S4096x2 ![0, 1] bcast_S1x2_S4096x2_0_1),
    binary main_v27 main_v29 main_v30 addf,
    nullary main_cst_5 (constant S_ .f32 0xFF800000#32),
    binary main_v30 main_cst_5 main_v31 (fun x v => Host.reduce FloatOps.maximumf x v reducesTo_S4096x2_S4096_d1 h_S_),
    nullary main_cst_6 (constant S_ .f32 0xFF800000#32),
    unary main_cst_6 main_v32 (broadcastInDim S4096 ![] bcast_S_S4096),
    binary main_v32 main_v31 main_v33 maximumf,
    unary main_v33 main_v34 (broadcastInDim S4096x1 ![0] bcast_S4096_S4096x1_0),
    unary main_v34 main_v35 (broadcastInDim S4096x2 ![0, 1] bcast_S4096x1_S4096x2_0_1),
    binary main_v30 main_v35 main_v36 subf,
    unary main_v36 main_v37 Host.exp,
    nullary main_cst_7 (constant S_ .f32 0x00000000#32),
    binary main_v37 main_cst_7 main_v38 (fun x v => Host.reduceAdd x v reducesTo_S4096x2_S4096_d1 h_S_),
    unary main_v38 main_v39 (broadcastInDim S4096x1 ![0] bcast_S4096_S4096x1_0),
    unary main_v39 main_v40 (broadcastInDim S4096x2 ![0, 1] bcast_S4096x1_S4096x2_0_1),
    binary main_v37 main_v40 main_v41 Host.divf,
    nullary main_cst_8 (constant S_ .f32 0x3F333333#32),
    unary main_cst_8 main_v42 (broadcastInDim S4096x2 ![] bcast_S_S4096x2),
    binary main_v42 main_v41 main_v43 mulf,
    binary main_arg1 main_v41 main_v44 (fun l r => Host.dotGeneral dot_S4096x4096_S4096x2_S4096x2_1_0_0_1_n_n none l r),
    nullary main_cst_9 (constant S_ .f32 0x3E99999A#32),
    unary main_cst_9 main_v45 (broadcastInDim S4096x2 ![] bcast_S_S4096x2),
    binary main_v45 main_v44 main_v46 mulf,
    binary main_v43 main_v46 main_v47 addf,
    unary main_arg1 main_v48 (broadcastInDim S4096x4096x1 ![0, 1] bcast_S4096x4096_S4096x4096x1_0_1),
    unary main_arg2 main_v49 (broadcastInDim S4096x4096x1 ![0, 1] bcast_S4096x4096_S4096x4096x1_0_1),
    binary main_v48 main_v49 main_v50 (fun a b => concatenate S4096x4096x2 2 [⟨S4096x4096x1, a⟩, ⟨S4096x4096x1, b⟩] concatenates_S4096x4096x1_S4096x4096x1_S4096x4096x2_d2),
    unary main_v47 main_v51 (broadcastInDim S4096x1x2 ![0, 2] bcast_S4096x2_S4096x1x2_0_2),
    unary main_v51 main_v52 (broadcastInDim S4096x4096x2 ![0, 1, 2] bcast_S4096x1x2_S4096x4096x2_0_1_2),
    binary main_v50 main_v52 main_v53 mulf,
    nullary main_cst_10 (constant S_ .f32 0x00000000#32),
    binary main_v53 main_cst_10 main_v54 (fun x v => Host.reduceAdd x v reducesTo_S4096x4096x2_S4096x4096_d2 h_S_) ]

end Cert.ReferenceIdeal.Hand

end
-- ==== Proof.Reference.Run.lean ====
/-
  The reference program is the straight line of its host operations, so every weakly fair execution of it terminates
  with each buffer at the fold of those operations over the launch contents.
-/
import proofs.«153786_g11373073400015_week1_w4_273_15_alg».proof.Proof.Reference.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- ninety-eight sequencing steps to re-associate, under two windows and five functions (each function's chain stands in
-- front of the rest of its window): deeper recursion and a larger budget than the defaults
set_option maxRecDepth 8192 in
set_option maxHeartbeats 4000000 in
/-- The program is that straight line: its two windows and the five functions unfolded at their calls, both sides are one
    chain of host steps once sequencing is re-associated. -/
theorem main_eq (c : Dev nD) : main (F := F) c = seq ops := by
  simp only [main, main_part0, main_part1, fn_var.body, fn_where.body, fn_relu.body, fn_where_0.body, fn_leaky_relu.body,
    seq, bind_assoc, pure_bind]
  rfl

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches only TensorCore buffers. -/
theorem ops_sub : (ops : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., unary_bufs_sub ..,
    unary_bufs_sub .., binary_bufs_sub .., nullary_bufs_sub .., unary_bufs_sub .., binary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., nullary_bufs_sub .., unary_bufs_sub ..,
    binary_bufs_sub .., binary_bufs_sub .., nullary_bufs_sub .., unary_bufs_sub .., binary_bufs_sub .., binary_bufs_sub ..,
    unary_bufs_sub .., unary_bufs_sub .., binary_bufs_sub .., unary_bufs_sub .., unary_bufs_sub .., binary_bufs_sub ..,
    nullary_bufs_sub .., binary_bufs_sub ..⟩

/-- From any memory with zero counters every weakly fair execution of the reference terminates, each TensorCore buffer
    at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.Reference.Laws.lean ====
/-
  Laws of the extended reals that carry the reference's spelling of the gating network to the specification's.

  Each holds for all extended reals, the infinities and the junk value included: a quotient by the square root of a
  positive number is the product with the reciprocal square root; a square, a finite sum of squares and its quotient by
  4096 are nonnegative, so the variance plus the positive literal is positive; a select on "at least zero" is the select
  on "above zero" when the other branch is a multiple of the entry; a nonnegative real factor distributes over sums; a
  maximum against the value a fold of maxima started from is the fold; the divisor 4096 less the real zero is 4096 and
  is above zero.
-/
import Idealize.ShloMosaic.PureOps.Ideal.Laws

open scoped BigOperators

namespace Cert.ReferenceIdeal.Hand.Law

open Idealize.ShloMosaic

/-! ## The literals -/

/-- The word 0x45800000 is the real 4096. -/
theorem ofBits_4096 : Ideal.ofBits .f32 0x45800000#32 = ((4096 : ℝ) : EReal) := by
  simp [Ideal.ofBits, Ideal.ieee]
  rw [← EReal.coe_mul]
  norm_num

/-- The word 0x41000000 is the real 8. -/
theorem ofBits_eight : Ideal.ofBits .f32 0x41000000#32 = ((8 : ℝ) : EReal) := by
  simp [Ideal.ofBits, Ideal.ieee]
  rw [← EReal.coe_mul]
  norm_num

/-- The word 0x3727C5AC is a positive real. -/
theorem ofBits_eps_pos : 0 < Ideal.ofBits .f32 0x3727C5AC#32 := by
  simp [Ideal.ofBits, Ideal.ieee]
  rw [← EReal.coe_mul]
  exact EReal.coe_pos.mpr (by positivity)

/-- The divisor of the variance: 4096 less the integer zero converted, which is 4096. -/
theorem count_sub_zero :
    Ideal.ofBits .f32 0x45800000#32 - (((0#32 : BitVec 32).toInt : ℝ) : EReal) = Ideal.ofBits .f32 0x45800000#32 := by
  rw [show (0#32 : BitVec 32).toInt = 0 from rfl, Int.cast_zero, EReal.coe_zero, sub_zero]

/-- The guard of the variance's quotient holds: 4096 is above zero. -/
theorem count_guard :
    Ideal.cmp .ogt (Ideal.ofBits .f32 0x45800000#32 - (((0#32 : BitVec 32).toInt : ℝ) : EReal))
      (Ideal.ofBits .f32 0x00000000#32) = 1#1 := by
  rw [count_sub_zero, Ideal.ofBits_zero_f32, ofBits_4096]
  have h : (0 : EReal) < ((4096 : ℝ) : EReal) := EReal.coe_pos.mpr (by norm_num)
  simp [Ideal.cmp, h]

/-! ## The variance plus the literal is positive -/

/-- A square is nonnegative. -/
theorem mul_self_nonneg (x : EReal) : 0 ≤ x * x := by
  rcases le_total 0 x with h | h
  · exact EReal.mul_nonneg_iff.mpr (.inl ⟨h, h⟩)
  · exact EReal.mul_nonneg_iff.mpr (.inr ⟨h, h⟩)

/-- A nonnegative number over 4096 is nonnegative. -/
theorem div_count_nonneg {x : EReal} (hx : 0 ≤ x) : 0 ≤ Ideal.div x (Ideal.ofBits .f32 0x45800000#32) := by
  rw [ofBits_4096, Ideal.div_coe (by norm_num)]
  exact EReal.mul_nonneg hx (EReal.coe_nonneg.mpr (by norm_num))

/-- The mean of squares plus the positive literal is positive. -/
theorem var_add_eps_pos {ι : Type*} [Fintype ι] (c : ι → EReal) :
    0 < Ideal.div (∑ k, c k * c k) (Ideal.ofBits .f32 0x45800000#32) + Ideal.ofBits .f32 0x3727C5AC#32 := by
  rw [add_comm]
  exact EReal.add_pos_of_pos_of_nonneg ofBits_eps_pos
    (div_count_nonneg (Finset.sum_nonneg fun k _ => mul_self_nonneg (c k)))

/-! ## The quotient by a square root -/

/-- Over the square root of a positive number is times its reciprocal square root. -/
theorem div_sqrt_eq_mul_rsqrt (x v : EReal) (hv : 0 < v) : Ideal.div x (Ideal.sqrt v) = x * Ideal.rsqrt v := by
  induction v using EReal.rec with
  | bot => exact absurd hv (not_lt_bot)
  | top => simp [Ideal.div]
  | coe r =>
    have hr : 0 < r := EReal.coe_pos.mp hv
    have hs : Real.sqrt r ≠ 0 := (Real.sqrt_pos.mpr hr).ne'
    rw [Ideal.sqrt_coe, Ideal.rsqrt_coe, if_neg (not_lt.mpr hr.le), if_neg (not_lt.mpr hr.le), if_neg hr.ne', Ideal.div,
      if_neg (by exact_mod_cast hs), EReal.coe_inv]

/-! ## The leaky rectifier -/

/-- A select on "at least zero" between an entry and a multiple of it is the select on "above zero". -/
theorem leaky_eq (s c : EReal) :
    Scalar.select (Ideal.cmp .oge s (Ideal.ofBits .f32 0x00000000#32)) s (c * s) = if 0 < s then s else c * s := by
  rw [Ideal.ofBits_zero_f32]
  unfold Scalar.select Ideal.cmp
  by_cases h : 0 < s
  · rw [if_pos h, if_pos]
    simp [h.le]
  · rw [if_neg h]
    rcases (not_lt.mp h).eq_or_lt with h0 | hneg
    · subst h0; simp
    · rw [if_neg]
      simp [not_le.mpr hneg]

/-! ## A nonnegative real factor distributes -/

/-- A sum times a nonnegative real is the sum of the products. -/
theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- An affine layer scaled by 8 with a bias added is the layer with weights and bias scaled and the bias added to its bias. -/
theorem affine_scale {ι : Type*} [Fintype ι] (h w : ι → EReal) (b bias : EReal) :
    ((∑ i, h i * w i) + b) * Ideal.ofBits .f32 0x41000000#32 + bias
      = (∑ i, h i * (w i * Ideal.ofBits .f32 0x41000000#32)) + (b * Ideal.ofBits .f32 0x41000000#32 + bias) := by
  rw [ofBits_eight,
    EReal.right_distrib_of_nonneg_of_ne_top (EReal.coe_nonneg.mpr (by norm_num)) (EReal.coe_ne_top 8),
    sum_mul_coe _ _ (by norm_num), add_assoc]
  simp only [mul_assoc]

/-! ## The row maximum -/

/-- A maximum against the value a fold of maxima started from is the fold. -/
theorem max_fold_max {ι : Type*} (s : Finset ι) (b : EReal) (f : ι → EReal) :
    max b (s.fold max b f) = s.fold max b f :=
  max_eq_right (Finset.le_fold_max b |>.mpr (.inl le_rfl))

/-! ## A sum of two from zero -/

/-- Zero plus a sum over two indices is the sum of the two terms. -/
theorem zero_add_sum_two (f : Fin 2 → EReal) : 0 + ∑ k : Fin 2, f k = f 0 + f 1 := by
  rw [zero_add, Fin.sum_univ_two]

end Cert.ReferenceIdeal.Hand.Law
-- ==== Proof.Reference.Stages.lean ====
/-
  The reference's operations grouped into stages, each a function of the argument arrays, and each stage read at an
  index: the row means, the centred rows, the variances under their guard, the normalised rows, the three affine layers
  with the rectifier and the leaky rectifier, the logits, their row maxima, the exponentials, the gate weights, the
  smoothed gate weights and the fused graph. Read at an index every stage is the specification's function of the same
  name; the steps between the two spellings are the laws of the extended reals proved beside this module.
-/
import proofs.«153786_g11373073400015_week1_w4_273_15_alg».proof.Proof.Gen.ReferenceIdeal
import proofs.«153786_g11373073400015_week1_w4_273_15_alg».proof.Proof.Spec
import proofs.«153786_g11373073400015_week1_w4_273_15_alg».proof.Proof.Reference.Laws
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

open scoped BigOperators

namespace Cert.ReferenceIdeal.Hand

open Cert.ReferenceIdeal Cert.ReferenceIdeal.Gen Idealize.ShloMosaic
open Idealize.ShloMosaic.ValueIdx

/-! ## The stages of the reference, each a function of the argument arrays -/

namespace Stage

/-- The scalar zero. -/
def c0 : FVec Ideal S_ .f32 := constant S_ .f32 0x00000000#32
/-- The scalar 4096. -/
def cN : FVec Ideal S_ .f32 := constant S_ .f32 0x45800000#32
/-- The row sums of a square array. -/
def rowsum (x : FVec Ideal S4096x4096 .f32) : FVec Ideal S4096 .f32 :=
  Host.reduceAdd x c0 reducesTo_S4096x4096_S4096_d1 h_S_
/-- A vector as a column. -/
def col (v : FVec Ideal S4096 .f32) : FVec Ideal S4096x1 .f32 := broadcastInDim S4096x1 ![0] bcast_S4096_S4096x1_0 v
/-- A scalar as a column. -/
def splat (c : FVec Ideal S_ .f32) : FVec Ideal S4096x1 .f32 := broadcastInDim S4096x1 ![] bcast_S_S4096x1 c
/-- A column across 4096 columns. -/
def wide (v : FVec Ideal S4096x1 .f32) : FVec Ideal S4096x4096 .f32 :=
  broadcastInDim S4096x4096 ![0, 1] bcast_S4096x1_S4096x4096_0_1 v
/-- A column across two columns. -/
def wide2 (v : FVec Ideal S4096x1 .f32) : FVec Ideal S4096x2 .f32 :=
  broadcastInDim S4096x2 ![0, 1] bcast_S4096x1_S4096x2_0_1 v

section Gate
variable (z : FVec Ideal S4096x4096 .f32) (W1 : FVec Ideal S4096x1024 .f32) (b1 : FVec Ideal S1024 .f32)
  (W2 : FVec Ideal S1024x64 .f32) (b2 : FVec Ideal S64 .f32) (W3 : FVec Ideal S64x2 .f32) (b3 : FVec Ideal S2 .f32)

/-- The row means. -/
def mean : FVec Ideal S4096x1 .f32 := Host.divf (col (rowsum z)) (splat cN)
/-- The rows centred. -/
def cen : FVec Ideal S4096x4096 .f32 := subf z (wide (mean z))
/-- The count of the variance: 4096 less the zero degrees of freedom. -/
def cnt : FVec Ideal S_ .f32 := subf cN (sitofp .f32 (constantI S_ 32 0#32))
/-- The row variances, under the guard on the count. -/
def var : FVec Ideal S4096x1 .f32 :=
  select (broadcastInDim S4096x1 ![] bcast_S_S4096x1 (cmpf .ogt cnt c0))
    (Host.divf (col (rowsum (mulf (cen z) (cen z)))) (splat cnt))
    (splat (id (constant S_ .f32 0x7FC00000#32)))
/-- The rows normalised: centred over the square root of the variance plus the literal. -/
def zn : FVec Ideal S4096x4096 .f32 :=
  Host.divf (cen z) (wide (Host.sqrt (addf (var z) (splat (constant S_ .f32 0x3727C5AC#32)))))
/-- The first layer with its rectifier. -/
def h1 : FVec Ideal S4096x1024 .f32 :=
  maximumf
    (addf (Host.dotGeneral dot_S4096x4096_S4096x1024_S4096x1024_1_0_0_1_n_n none (zn z) W1)
      (broadcastInDim S4096x1024 ![0, 1] bcast_S1x1024_S4096x1024_0_1 (broadcastInDim S1x1024 ![1] bcast_S1024_S1x1024_1 b1)))
    (broadcastInDim S4096x1024 ![] bcast_S_S4096x1024 c0)
/-- The second layer before its leaky rectifier. -/
def s2 : FVec Ideal S4096x64 .f32 :=
  addf (Host.dotGeneral dot_S4096x1024_S1024x64_S4096x64_1_0_0_1_n_n none (h1 z W1 b1) W2)
    (broadcastInDim S4096x64 ![0, 1] bcast_S1x64_S4096x64_0_1 (broadcastInDim S1x64 ![1] bcast_S64_S1x64_1 b2))
/-- The second layer. -/
def h2 : FVec Ideal S4096x64 .f32 :=
  select (cmpf .oge (s2 z W1 b1 W2 b2) (broadcastInDim S4096x64 ![] bcast_S_S4096x64 c0)) (s2 z W1 b1 W2 b2)
    (mulf (broadcastInDim S4096x64 ![] bcast_S_S4096x64 (id (constant S_ .f32 0x3C23D70A#32))) (s2 z W1 b1 W2 b2))
/-- The logits. -/
def lg : FVec Ideal S4096x2 .f32 :=
  addf
    (mulf
      (addf (Host.dotGeneral dot_S4096x64_S64x2_S4096x2_1_0_0_1_n_n none (h2 z W1 b1 W2 b2) W3)
        (broadcastInDim S4096x2 ![0, 1] bcast_S1x2_S4096x2_0_1 (broadcastInDim S1x2 ![1] bcast_S2_S1x2_1 b3)))
      (broadcastInDim S4096x2 ![] bcast_S_S4096x2 (constant S_ .f32 0x41000000#32)))
    (broadcastInDim S4096x2 ![0, 1] bcast_S1x2_S4096x2_0_1
      (broadcastInDim S1x2 ![1] bcast_S2_S1x2_1 (fun i => FloatOps.ofBits (F := Ideal) .f32 (lit0 (S2.rowMajor i)))))
/-- The row maxima of the logits. -/
def rmax : FVec Ideal S4096 .f32 :=
  maximumf (broadcastInDim S4096 ![] bcast_S_S4096 (constant S_ .f32 0xFF800000#32))
    (Host.reduce FloatOps.maximumf (lg z W1 b1 W2 b2 W3 b3) (constant (F := Ideal) S_ .f32 0xFF800000#32) reducesTo_S4096x2_S4096_d1 h_S_)
/-- The exponentials of the logits less their row maximum. -/
def ex : FVec Ideal S4096x2 .f32 :=
  Host.exp (subf (lg z W1 b1 W2 b2 W3 b3) (wide2 (col (rmax z W1 b1 W2 b2 W3 b3))))
/-- The gate weights. -/
def g : FVec Ideal S4096x2 .f32 :=
  Host.divf (ex z W1 b1 W2 b2 W3 b3)
    (wide2 (col (Host.reduceAdd (ex z W1 b1 W2 b2 W3 b3) c0 reducesTo_S4096x2_S4096_d1 h_S_)))

end Gate

section Fuse
variable (G1 G2 : FVec Ideal S4096x4096 .f32) (g : FVec Ideal S4096x2 .f32)

/-- The smoothed gate weights. -/
def gw : FVec Ideal S4096x2 .f32 :=
  addf (mulf (broadcastInDim S4096x2 ![] bcast_S_S4096x2 (constant S_ .f32 0x3F333333#32)) g)
    (mulf (broadcastInDim S4096x2 ![] bcast_S_S4096x2 (constant S_ .f32 0x3E99999A#32))
      (Host.dotGeneral dot_S4096x4096_S4096x2_S4096x2_1_0_0_1_n_n none G1 g))
/-- The fused graph. -/
def gf : FVec Ideal S4096x4096 .f32 :=
  Host.reduceAdd
    (mulf
      (concatenate S4096x4096x2 2
        [⟨S4096x4096x1, broadcastInDim S4096x4096x1 ![0, 1] bcast_S4096x4096_S4096x4096x1_0_1 G1⟩,
          ⟨S4096x4096x1, broadcastInDim S4096x4096x1 ![0, 1] bcast_S4096x4096_S4096x4096x1_0_1 G2⟩]
        concatenates_S4096x4096x1_S4096x4096x1_S4096x4096x2_d2)
      (broadcastInDim S4096x4096x2 ![0, 1, 2] bcast_S4096x1x2_S4096x4096x2_0_1_2
        (broadcastInDim S4096x1x2 ![0, 2] bcast_S4096x2_S4096x1x2_0_2 (gw G1 g))))
    c0 reducesTo_S4096x4096x2_S4096x4096_d2 h_S_

end Fuse

end Stage

/-! ## Layout operations and reductions read at an index -/

namespace Read

variable {α : Type}

/-- A scalar broadcast to any shape reads the scalar. -/
theorem splat_apply {t : Shape} (h : S_.BroadcastsInDim t (![] : Fin 0 → Fin t.rank)) (c : S_.Idx → α) (y : t.Idx) :
    broadcastInDim t ![] h c y = c ix0 :=
  broadcastInDim_apply _ h c y ix0 (fun a => a.elim0)

/-- A vector as a column reads the vector at the row. -/
theorem col_apply (v : S4096.Idx → α) (i : Fin 4096) (q : Fin 1) :
    broadcastInDim S4096x1 ![0] bcast_S4096_S4096x1_0 v (ix2 i q) = v (ix1 i) :=
  broadcastInDim_apply _ _ v _ (ix1 i) (fun a => by match a with | ⟨0, _⟩ => rfl)

/-- A column across 4096 columns reads the column at the row. -/
theorem wide_apply (v : S4096x1.Idx → α) (i k : Fin 4096) :
    broadcastInDim S4096x4096 ![0, 1] bcast_S4096x1_S4096x4096_0_1 v (ix2 i k) = v (ix2 i (0 : Fin 1)) :=
  broadcastInDim_apply _ _ v _ (ix2 i (0 : Fin 1)) (fun a => by match a with | ⟨0, _⟩ => rfl | ⟨1, _⟩ => rfl)

/-- A column across two columns reads the column at the row. -/
theorem wide2_apply (v : S4096x1.Idx → α) (i : Fin 4096) (j : Fin 2) :
    broadcastInDim S4096x2 ![0, 1] bcast_S4096x1_S4096x2_0_1 v (ix2 i j) = v (ix2 i (0 : Fin 1)) :=
  broadcastInDim_apply _ _ v _ (ix2 i (0 : Fin 1)) (fun a => by match a with | ⟨0, _⟩ => rfl | ⟨1, _⟩ => rfl)

/-- A vector as a row, then across the rows, reads the vector at the column. -/
theorem rowbias_apply {n m : Nat} (h1 : (⟨1, ![m]⟩ : Shape).BroadcastsInDim ⟨2, ![1, m]⟩ (![1] : Fin 1 → Fin 2))
    (h2 : (⟨2, ![1, m]⟩ : Shape).BroadcastsInDim ⟨2, ![n, m]⟩ (![0, 1] : Fin 2 → Fin 2)) (b : (⟨1, ![m]⟩ : Shape).Idx → α)
    (i : Fin n) (a : Fin m) :
    broadcastInDim ⟨2, ![n, m]⟩ ![0, 1] h2 (broadcastInDim ⟨2, ![1, m]⟩ ![1] h1 b) (ix2 i a) = b (ix1 a) := by
  rw [broadcastInDim_apply _ h2 _ (ix2 i a) (ix2 (0 : Fin 1) a) (fun c => by
    match c with
    | ⟨0, _⟩ => rfl
    | ⟨1, _⟩ =>
      show a.val = if m = 1 then 0 else a.val
      split
      · have := a.isLt; omega
      · rfl)]
  exact broadcastInDim_apply _ h1 b _ (ix1 a) (fun c => by
    match c with
    | ⟨0, _⟩ =>
      show a.val = if m = 1 then 0 else a.val
      split
      · have := a.isLt; omega
      · rfl)

/-- The row sums of a square array from an initial value: the value plus the sum along the row. -/
theorem rowsum_apply (x : FVec Ideal S4096x4096 .f32) (init : FVec Ideal S_ .f32) (i : Fin 4096) :
    Host.reduceAdd x init reducesTo_S4096x4096_S4096_d1 h_S_ (ix1 i) = init ix0 + ∑ k : Fin 4096, x (ix2 i k) := by
  have h : S4096x4096.Reduces [1] S4096 := by decide
  show Ideal.hostReduceAdd reducesTo_S4096x4096_S4096_d1 x (init (Shape.Idx.first h_S_)) (ix1 i) = _
  rw [Ideal.hostReduceAdd_single reducesTo_S4096x4096_S4096_d1 h, eq_ix0 (Shape.Idx.first h_S_)]
  refine congrArg (init ix0 + ·) (Finset.sum_congr rfl fun k _ => congrArg x ?_)
  funext c; apply Fin.ext
  match c with
  | ⟨0, _⟩ => rfl
  | ⟨1, _⟩ => rfl

/-- The row sums of a two-column array from an initial value. -/
theorem rowsum2_apply (x : FVec Ideal S4096x2 .f32) (init : FVec Ideal S_ .f32) (i : Fin 4096) :
    Host.reduceAdd x init reducesTo_S4096x2_S4096_d1 h_S_ (ix1 i) = init ix0 + ∑ j : Fin 2, x (ix2 i j) := by
  have h : S4096x2.Reduces [1] S4096 := by decide
  show Ideal.hostReduceAdd reducesTo_S4096x2_S4096_d1 x (init (Shape.Idx.first h_S_)) (ix1 i) = _
  rw [Ideal.hostReduceAdd_single reducesTo_S4096x2_S4096_d1 h, eq_ix0 (Shape.Idx.first h_S_)]
  refine congrArg (init ix0 + ·) (Finset.sum_congr rfl fun k _ => congrArg x ?_)
  funext c; apply Fin.ext
  match c with
  | ⟨0, _⟩ => rfl
  | ⟨1, _⟩ => rfl

/-- The sums along the last axis of a rank-3 array with two layers, from an initial value. -/
theorem layersum_apply (x : FVec Ideal S4096x4096x2 .f32) (init : FVec Ideal S_ .f32) (i k : Fin 4096) :
    Host.reduceAdd x init reducesTo_S4096x4096x2_S4096x4096_d2 h_S_ (ix2 i k) = init ix0 + ∑ j : Fin 2, x (ix3 i k j) := by
  have h : S4096x4096x2.Reduces [2] S4096x4096 := by decide
  show Ideal.hostReduceAdd reducesTo_S4096x4096x2_S4096x4096_d2 x (init (Shape.Idx.first h_S_)) (ix2 i k) = _
  rw [Ideal.hostReduceAdd_single reducesTo_S4096x4096x2_S4096x4096_d2 h, eq_ix0 (Shape.Idx.first h_S_)]
  refine congrArg (init ix0 + ·) (Finset.sum_congr rfl fun j _ => congrArg x ?_)
  funext c; apply Fin.ext
  match c with
  | ⟨0, _⟩ => rfl
  | ⟨1, _⟩ => rfl
  | ⟨2, _⟩ => rfl

/-- The row maxima of a two-column array from an initial value: the fold of the maximum along the row. -/
theorem rowmax_apply (x : FVec Ideal S4096x2 .f32) (init : FVec Ideal S_ .f32) (i : Fin 4096) :
    Host.reduce (FloatOps.maximumf (F := Ideal) (φ := .f32)) x init reducesTo_S4096x2_S4096_d1 h_S_ (ix1 i)
      = (Finset.univ : Finset (Fin 2)).fold max (init ix0) (fun j => x (ix2 i j)) := by
  have h : S4096x2.Reduces [1] S4096 := by decide
  rw [Host.reduce_eq_fold_single _ x init reducesTo_S4096x2_S4096_d1 h h_S_ (ix1 i), eq_ix0 (Shape.Idx.first h_S_)]
  refine congrArg (fun f => (Finset.univ : Finset (Fin 2)).fold max (init ix0) f) (funext fun j => congrArg x ?_)
  funext c; apply Fin.ext
  match c with
  | ⟨0, _⟩ => rfl
  | ⟨1, _⟩ => rfl

/-- The four products of the program, each the plain product of two matrices read at an index. -/
theorem dot1_apply (A : FVec Ideal S4096x4096 .f32) (B : FVec Ideal S4096x1024 .f32) (i : Fin 4096) (a : Fin 1024) :
    Host.dotGeneral dot_S4096x4096_S4096x1024_S4096x1024_1_0_0_1_n_n none A B (ix2 i a) = ∑ k : Fin 4096, A (ix2 i k) * B (ix2 k a) :=
  StackMember.dotGeneral_plain_apply (m := 4096) (n := 1024) (k := 4096) none A B i a
theorem dot2_apply (A : FVec Ideal S4096x1024 .f32) (B : FVec Ideal S1024x64 .f32) (i : Fin 4096) (b : Fin 64) :
    Host.dotGeneral dot_S4096x1024_S1024x64_S4096x64_1_0_0_1_n_n none A B (ix2 i b) = ∑ a : Fin 1024, A (ix2 i a) * B (ix2 a b) :=
  StackMember.dotGeneral_plain_apply (m := 4096) (n := 64) (k := 1024) none A B i b
theorem dot3_apply (A : FVec Ideal S4096x64 .f32) (B : FVec Ideal S64x2 .f32) (i : Fin 4096) (j : Fin 2) :
    Host.dotGeneral dot_S4096x64_S64x2_S4096x2_1_0_0_1_n_n none A B (ix2 i j) = ∑ b : Fin 64, A (ix2 i b) * B (ix2 b j) :=
  StackMember.dotGeneral_plain_apply (m := 4096) (n := 2) (k := 64) none A B i j
theorem dot4_apply (A : FVec Ideal S4096x4096 .f32) (B : FVec Ideal S4096x2 .f32) (i : Fin 4096) (j : Fin 2) :
    Host.dotGeneral dot_S4096x4096_S4096x2_S4096x2_1_0_0_1_n_n none A B (ix2 i j) = ∑ k : Fin 4096, A (ix2 i k) * B (ix2 k j) :=
  StackMember.dotGeneral_plain_apply (m := 4096) (n := 2) (k := 4096) none A B i j

/-- A square array given a unit last axis reads the array. -/
theorem unitlast_apply (G : S4096x4096.Idx → α) (i k : Fin 4096) (q : Fin 1) :
    broadcastInDim S4096x4096x1 ![0, 1] bcast_S4096x4096_S4096x4096x1_0_1 G (ix3 i k q) = G (ix2 i k) :=
  broadcastInDim_apply _ _ G _ (ix2 i k) (fun a => by match a with | ⟨0, _⟩ => rfl | ⟨1, _⟩ => rfl)

/-- Two such arrays joined along the last axis read the first at layer 0 … -/
theorem cat_apply_zero (A B : S4096x4096x1.Idx → α) (i k : Fin 4096) :
    concatenate S4096x4096x2 2 [⟨S4096x4096x1, A⟩, ⟨S4096x4096x1, B⟩] concatenates_S4096x4096x1_S4096x4096x1_S4096x4096x2_d2
      (ix3 i k (0 : Fin 2)) = A (ix3 i k (0 : Fin 1)) :=
  concatenate_pair_apply_left (t := S4096x4096x2) (s₁ := S4096x4096x1) (s₂ := S4096x4096x1) 2 A B
    concatenates_S4096x4096x1_S4096x4096x1_S4096x4096x2_d2 (ix3 i k (0 : Fin 2)) (rfl : (3 : Nat) = 3) (ix3 i k (0 : Fin 1))
    (fun b => by match b with | ⟨0, _⟩ => rfl | ⟨1, _⟩ => rfl | ⟨2, _⟩ => rfl)

/-- … and the second at layer 1. -/
theorem cat_apply_one (A B : S4096x4096x1.Idx → α) (i k : Fin 4096) :
    concatenate S4096x4096x2 2 [⟨S4096x4096x1, A⟩, ⟨S4096x4096x1, B⟩] concatenates_S4096x4096x1_S4096x4096x1_S4096x4096x2_d2
      (ix3 i k (1 : Fin 2)) = B (ix3 i k (0 : Fin 1)) :=
  concatenate_pair_apply_right (t := S4096x4096x2) (s₁ := S4096x4096x1) (s₂ := S4096x4096x1) 2 A B
    concatenates_S4096x4096x1_S4096x4096x1_S4096x4096x2_d2 (ix3 i k (1 : Fin 2)) (rfl : (3 : Nat) = 3) (rfl : (3 : Nat) = 3)
    (ix3 i k (0 : Fin 1))
    (fun b hb => by
      match b with
      | ⟨0, _⟩ => rfl
      | ⟨1, _⟩ => rfl
      | ⟨2, _⟩ => exact absurd rfl hb)
    rfl

/-- A two-column array given a unit middle axis, then across 4096 of them, reads the array at the row and layer. -/
theorem rowlayer_apply (w : S4096x2.Idx → α) (i k : Fin 4096) (j : Fin 2) :
    broadcastInDim S4096x4096x2 ![0, 1, 2] bcast_S4096x1x2_S4096x4096x2_0_1_2
      (broadcastInDim S4096x1x2 ![0, 2] bcast_S4096x2_S4096x1x2_0_2 w) (ix3 i k j) = w (ix2 i j) := by
  rw [broadcastInDim_apply _ bcast_S4096x1x2_S4096x4096x2_0_1_2 _ (ix3 i k j) (ix3 i (0 : Fin 1) j)
    (fun a => by match a with | ⟨0, _⟩ => rfl | ⟨1, _⟩ => rfl | ⟨2, _⟩ => rfl)]
  exact broadcastInDim_apply _ bcast_S4096x2_S4096x1x2_0_2 w _ (ix2 i j)
    (fun a => by match a with | ⟨0, _⟩ => rfl | ⟨1, _⟩ => rfl)

end Read

namespace Stage

open Read

/-- The count of the variance is 4096. -/
theorem cnt_apply (y : S_.Idx) : cnt y = Ideal.ofBits .f32 0x45800000#32 := Law.count_sub_zero

section GateRead
variable (z : FVec Ideal S4096x4096 .f32) (W1 : FVec Ideal S4096x1024 .f32) (b1 : FVec Ideal S1024 .f32)
  (W2 : FVec Ideal S1024x64 .f32) (b2 : FVec Ideal S64 .f32) (W3 : FVec Ideal S64x2 .f32) (b3 : FVec Ideal S2 .f32)

/-- The row means are the specification's. -/
theorem mean_apply (i : Fin 4096) (q : Fin 1) : mean z (ix2 i q) = Cert.Spec.mu z i := by
  show Ideal.div (col (rowsum z) (ix2 i q)) (splat cN (ix2 i q)) = _
  unfold col rowsum splat
  rw [col_apply, rowsum_apply, splat_apply]
  show Ideal.div (Ideal.ofBits .f32 0x00000000#32 + _) (Ideal.ofBits .f32 0x45800000#32) = _
  rw [Ideal.ofBits_zero_f32, zero_add]
  rfl

/-- The centred rows are the specification's. -/
theorem cen_apply (i k : Fin 4096) : cen z (ix2 i k) = Cert.Spec.zc z i k := by
  show z (ix2 i k) - wide (mean z) (ix2 i k) = _
  unfold wide
  rw [wide_apply, mean_apply]
  rfl

/-- The variances: the guard on the count holds, so the select takes the quotient, whose divisor is 4096. -/
theorem var_apply (i : Fin 4096) (q : Fin 1) : var z (ix2 i q) = Cert.Spec.var z i := by
  show Scalar.select (broadcastInDim S4096x1 ![] bcast_S_S4096x1 (cmpf .ogt cnt c0) (ix2 i q))
      (Ideal.div (col (rowsum (mulf (cen z) (cen z))) (ix2 i q)) (splat cnt (ix2 i q))) _ = _
  have hg : cmpf .ogt cnt c0 ix0 = 1#1 := Law.count_guard
  unfold col rowsum splat
  rw [splat_apply, hg, select_one, splat_apply, col_apply, rowsum_apply, cnt_apply]
  show Ideal.div (Ideal.ofBits .f32 0x00000000#32 + ∑ k : Fin 4096, cen z (ix2 i k) * cen z (ix2 i k)) _ = _
  rw [Ideal.ofBits_zero_f32, zero_add]
  simp only [cen_apply]
  rfl

/-- The normalised rows: the variance plus the literal is positive, so the quotient by its square root is the product
    with its reciprocal square root. -/
theorem zn_apply (i k : Fin 4096) : zn z (ix2 i k) = Cert.Spec.zn z i k := by
  show Ideal.div (cen z (ix2 i k))
      (wide (Host.sqrt (addf (var z) (splat (constant S_ .f32 0x3727C5AC#32)))) (ix2 i k)) = _
  unfold wide
  rw [wide_apply]
  show Ideal.div _ (Ideal.sqrt (var z (ix2 i 0) + splat (constant S_ .f32 0x3727C5AC#32) (ix2 i 0))) = _
  unfold splat
  rw [splat_apply, var_apply, cen_apply]
  have hpos : 0 < Cert.Spec.var z i + Ideal.ofBits .f32 0x3727C5AC#32 :=
    Law.var_add_eps_pos (fun k => Cert.Spec.zc z i k)
  show Ideal.div _ (Ideal.sqrt (Cert.Spec.var z i + Ideal.ofBits .f32 0x3727C5AC#32)) = _
  rw [Law.div_sqrt_eq_mul_rsqrt _ _ hpos]
  rfl

/-- The first layer. -/
theorem h1_apply (i : Fin 4096) (a : Fin 1024) : h1 z W1 b1 (ix2 i a) = Cert.Spec.h1 z W1 b1 i a := by
  show max (Host.dotGeneral dot_S4096x4096_S4096x1024_S4096x1024_1_0_0_1_n_n none (zn z) W1 (ix2 i a)
      + broadcastInDim S4096x1024 ![0, 1] bcast_S1x1024_S4096x1024_0_1 (broadcastInDim S1x1024 ![1] bcast_S1024_S1x1024_1 b1) (ix2 i a))
      (broadcastInDim S4096x1024 ![] bcast_S_S4096x1024 c0 (ix2 i a)) = _
  rw [dot1_apply, rowbias_apply, splat_apply]
  show max _ (Ideal.ofBits .f32 0x00000000#32) = _
  rw [Ideal.ofBits_zero_f32]
  simp only [zn_apply]
  rfl

/-- The second layer before its leaky rectifier. -/
theorem s2_apply (i : Fin 4096) (b : Fin 64) : s2 z W1 b1 W2 b2 (ix2 i b) = Cert.Spec.s2 z W1 b1 W2 b2 i b := by
  show Host.dotGeneral dot_S4096x1024_S1024x64_S4096x64_1_0_0_1_n_n none (h1 z W1 b1) W2 (ix2 i b)
      + broadcastInDim S4096x64 ![0, 1] bcast_S1x64_S4096x64_0_1 (broadcastInDim S1x64 ![1] bcast_S64_S1x64_1 b2) (ix2 i b) = _
  rw [dot2_apply, rowbias_apply]
  simp only [h1_apply]
  rfl

/-- The second layer: the select on "at least zero" is the specification's on "above zero". -/
theorem h2_apply (i : Fin 4096) (b : Fin 64) : h2 z W1 b1 W2 b2 (ix2 i b) = Cert.Spec.h2 z W1 b1 W2 b2 i b := by
  show Scalar.select
      (Ideal.cmp .oge (s2 z W1 b1 W2 b2 (ix2 i b)) (broadcastInDim S4096x64 ![] bcast_S_S4096x64 c0 (ix2 i b)))
      (s2 z W1 b1 W2 b2 (ix2 i b))
      (broadcastInDim S4096x64 ![] bcast_S_S4096x64 (id (constant S_ .f32 0x3C23D70A#32)) (ix2 i b) * s2 z W1 b1 W2 b2 (ix2 i b)) = _
  rw [splat_apply, splat_apply, s2_apply]
  show Scalar.select (Ideal.cmp .oge _ (Ideal.ofBits .f32 0x00000000#32)) _ (Ideal.ofBits .f32 0x3C23D70A#32 * _) = _
  rw [Law.leaky_eq]
  rfl

/-- The printed bias table at a column is the specification's word. -/
theorem lit_apply (j : Fin 2) : lit0 (S2.rowMajor (ix1 j)) = Cert.Spec.biasWord j := by
  match j with
  | ⟨0, _⟩ => rfl
  | ⟨1, _⟩ => rfl

/-- The logits: the factor 8 distributes over the affine layer. -/
theorem lg_apply (i : Fin 4096) (j : Fin 2) : lg z W1 b1 W2 b2 W3 b3 (ix2 i j) = Cert.Spec.logit z W1 b1 W2 b2 W3 b3 i j := by
  show (Host.dotGeneral dot_S4096x64_S64x2_S4096x2_1_0_0_1_n_n none (h2 z W1 b1 W2 b2) W3 (ix2 i j)
        + broadcastInDim S4096x2 ![0, 1] bcast_S1x2_S4096x2_0_1 (broadcastInDim S1x2 ![1] bcast_S2_S1x2_1 b3) (ix2 i j))
      * broadcastInDim S4096x2 ![] bcast_S_S4096x2 (constant S_ .f32 0x41000000#32) (ix2 i j)
      + broadcastInDim S4096x2 ![0, 1] bcast_S1x2_S4096x2_0_1
          (broadcastInDim S1x2 ![1] bcast_S2_S1x2_1 (fun i => FloatOps.ofBits (F := Ideal) .f32 (lit0 (S2.rowMajor i)))) (ix2 i j) = _
  rw [dot3_apply, rowbias_apply, rowbias_apply, splat_apply]
  show ((∑ b : Fin 64, h2 z W1 b1 W2 b2 (ix2 i b) * W3 (ix2 b j)) + b3 (ix1 j)) * Ideal.ofBits .f32 0x41000000#32
      + Ideal.ofBits .f32 (lit0 (S2.rowMajor (ix1 j))) = _
  rw [lit_apply, Law.affine_scale]
  simp only [h2_apply]
  rfl

/-- The row maxima: the maximum against the lower bound the fold started from changes nothing. -/
theorem rmax_apply (i : Fin 4096) : rmax z W1 b1 W2 b2 W3 b3 (ix1 i) = Cert.Spec.rowmax z W1 b1 W2 b2 W3 b3 i := by
  show max (broadcastInDim S4096 ![] bcast_S_S4096 (constant S_ .f32 0xFF800000#32) (ix1 i))
      (Host.reduce (FloatOps.maximumf (F := Ideal) (φ := .f32)) (lg z W1 b1 W2 b2 W3 b3)
        (constant (F := Ideal) S_ .f32 0xFF800000#32) reducesTo_S4096x2_S4096_d1 h_S_ (ix1 i)) = _
  rw [splat_apply, rowmax_apply]
  show max (Ideal.ofBits .f32 0xFF800000#32)
      ((Finset.univ : Finset (Fin 2)).fold max (Ideal.ofBits .f32 0xFF800000#32) fun j => lg z W1 b1 W2 b2 W3 b3 (ix2 i j)) = _
  rw [Law.max_fold_max]
  simp only [lg_apply]
  rfl

/-- The exponentials. -/
theorem ex_apply (i : Fin 4096) (j : Fin 2) : ex z W1 b1 W2 b2 W3 b3 (ix2 i j) = Cert.Spec.ex z W1 b1 W2 b2 W3 b3 i j := by
  show Ideal.exp (lg z W1 b1 W2 b2 W3 b3 (ix2 i j) - wide2 (col (rmax z W1 b1 W2 b2 W3 b3)) (ix2 i j)) = _
  unfold wide2 col
  rw [wide2_apply, col_apply, lg_apply, rmax_apply]
  rfl

/-- The gate weights. -/
theorem g_apply (i : Fin 4096) (j : Fin 2) : g z W1 b1 W2 b2 W3 b3 (ix2 i j) = Cert.Spec.g0 z W1 b1 W2 b2 W3 b3 i j := by
  show Ideal.div (ex z W1 b1 W2 b2 W3 b3 (ix2 i j))
      (wide2 (col (Host.reduceAdd (ex z W1 b1 W2 b2 W3 b3) c0 reducesTo_S4096x2_S4096_d1 h_S_)) (ix2 i j)) = _
  unfold wide2 col
  rw [wide2_apply, col_apply, rowsum2_apply, ex_apply]
  show Ideal.div _ (Ideal.ofBits .f32 0x00000000#32 + _) = _
  rw [Ideal.ofBits_zero_f32, zero_add]
  simp only [ex_apply]
  rfl

/-- The gate weights as an array are the specification's. -/
theorem g_eq : g z W1 b1 W2 b2 W3 b3 = Cert.Spec.G0 z W1 b1 W2 b2 W3 b3 := by
  funext y
  obtain ⟨i, j, rfl⟩ : ∃ (i : Fin 4096) (j : Fin 2), y = ix2 i j := ⟨y 0, y 1, eq_ix2 y⟩
  exact g_apply z W1 b1 W2 b2 W3 b3 i j

end GateRead

section FuseRead
variable (G1 G2 : FVec Ideal S4096x4096 .f32) (g : FVec Ideal S4096x2 .f32)

/-- The smoothed gate weights. -/
theorem gw_apply (i : Fin 4096) (j : Fin 2) : gw G1 g (ix2 i j) = Cert.Spec.gw G1 g i j := by
  show broadcastInDim S4096x2 ![] bcast_S_S4096x2 (constant S_ .f32 0x3F333333#32) (ix2 i j) * g (ix2 i j)
      + broadcastInDim S4096x2 ![] bcast_S_S4096x2 (constant S_ .f32 0x3E99999A#32) (ix2 i j)
        * Host.dotGeneral dot_S4096x4096_S4096x2_S4096x2_1_0_0_1_n_n none G1 g (ix2 i j) = _
  rw [splat_apply, splat_apply, dot4_apply]
  rfl

/-- The smoothed gate weights as an array are the specification's. -/
theorem gw_eq : gw G1 g = Cert.Spec.Gw G1 g := by
  funext y
  obtain ⟨i, j, rfl⟩ : ∃ (i : Fin 4096) (j : Fin 2), y = ix2 i j := ⟨y 0, y 1, eq_ix2 y⟩
  exact gw_apply G1 g i j

/-- The fused graph: the sum over the two layers from zero is the sum of the two products. -/
theorem gf_apply (i k : Fin 4096) : gf G1 G2 g (ix2 i k) = Cert.Spec.gf G1 G2 g i k := by
  unfold gf
  rw [layersum_apply]
  show Ideal.ofBits .f32 0x00000000#32 + ∑ j : Fin 2,
      concatenate S4096x4096x2 2
          [⟨S4096x4096x1, broadcastInDim S4096x4096x1 ![0, 1] bcast_S4096x4096_S4096x4096x1_0_1 G1⟩,
            ⟨S4096x4096x1, broadcastInDim S4096x4096x1 ![0, 1] bcast_S4096x4096_S4096x4096x1_0_1 G2⟩]
          concatenates_S4096x4096x1_S4096x4096x1_S4096x4096x2_d2 (ix3 i k j)
        * broadcastInDim S4096x4096x2 ![0, 1, 2] bcast_S4096x1x2_S4096x4096x2_0_1_2
            (broadcastInDim S4096x1x2 ![0, 2] bcast_S4096x2_S4096x1x2_0_2 (gw G1 g)) (ix3 i k j) = _
  rw [Ideal.ofBits_zero_f32, Law.zero_add_sum_two, cat_apply_zero, cat_apply_one, unitlast_apply, unitlast_apply,
    rowlayer_apply, rowlayer_apply, gw_apply, gw_apply]
  rfl

/-- The fused graph as an array is the specification's. -/
theorem gf_eq : gf G1 G2 g = Cert.Spec.Gf G1 G2 g := by
  funext y
  obtain ⟨i, k, rfl⟩ : ∃ (i k : Fin 4096), y = ix2 i k := ⟨y 0, y 1, eq_ix2 y⟩
  exact gf_apply G1 G2 g i k

end FuseRead

end Stage

end Cert.ReferenceIdeal.Hand

end
-- ==== Proof.Reference.Value.lean ====
/-
  What the reference's operations compute, read off their fold: the fused graph and the smoothed gate weights of the
  specification, and every argument array untouched.

  Where the reference differs from the specification's spelling the two agree on all extended reals: a quotient by a
  square root of a positive number is the product with its reciprocal square root; a select on "at least zero" and one on
  "above zero" differ only at zero, where the slope times zero is zero; a nonnegative real factor distributes over any
  sum; the variance's divisor 4096 less a zero count is 4096 and its guard holds; a maximum against the lower bound it
  was folded from changes nothing; a sum of two products from a zero is the sum of the two.

  The fold of the operations at a result buffer is, by unrolling it, the composition of the stages named beside this
  module; each stage read at an index is the specification's function, by those laws.
-/
import proofs.«153786_g11373073400015_week1_w4_273_15_alg».proof.Proof.Reference.Ops
import proofs.«153786_g11373073400015_week1_w4_273_15_alg».proof.Proof.Reference.Stages
import proofs.«153786_g11373073400015_week1_w4_273_15_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The gate weights of the specification at a valuation's argument arrays. -/
abbrev specG0 (V : Valuation τ sig (Elt Ideal)) : Cert.Spec.Sn2.Idx → EReal :=
  Cert.Spec.G0 (V (main_arg0 : DevRef τ sig)) (V (main_arg3 : DevRef τ sig)) (V (main_arg4 : DevRef τ sig))
    (V (main_arg5 : DevRef τ sig)) (V (main_arg6 : DevRef τ sig)) (V (main_arg7 : DevRef τ sig)) (V (main_arg8 : DevRef τ sig))

/-- The stages' gate weights at a valuation's argument arrays. -/
abbrev stageG (V : Valuation τ sig (Elt Ideal)) : FVec Ideal S4096x2 .f32 :=
  Stage.g (V (main_arg0 : DevRef τ sig)) (V (main_arg3 : DevRef τ sig)) (V (main_arg4 : DevRef τ sig))
    (V (main_arg5 : DevRef τ sig)) (V (main_arg6 : DevRef τ sig)) (V (main_arg7 : DevRef τ sig)) (V (main_arg8 : DevRef τ sig))

-- the reductions, the layout operations and the products stay folded while the fold is unrolled: the equation never looks inside them
attribute [local irreducible] Host.reduce Host.reduceAdd concatenate broadcastInDim in
set_option maxRecDepth 16384 in
/-- The fold at the second result's buffer is the stages' smoothed gate weights: each operation's result decides whether
    the buffer read is the one it writes, and what is left is the stages' composition, term for term. -/
theorem fold_v47 (V : Valuation τ sig (Elt Ideal)) :
    after (ops (F := Ideal)) V (main_v47 : DevRef τ sig) = Stage.gw (V (main_arg1 : DevRef τ sig)) (stageG V) := by
  simp only [after_cons, after_nil]
  rfl

attribute [local irreducible] Host.reduce Host.reduceAdd concatenate broadcastInDim in
set_option maxRecDepth 16384 in
/-- The fold at the first result's buffer is the stages' fused graph. -/
theorem fold_v54 (V : Valuation τ sig (Elt Ideal)) :
    after (ops (F := Ideal)) V (main_v54 : DevRef τ sig)
      = Stage.gf (V (main_arg1 : DevRef τ sig)) (V (main_arg2 : DevRef τ sig)) (stageG V) := by
  simp only [after_cons, after_nil]
  rfl

/-- The stages' gate weights are the specification's. -/
theorem stageG_eq (V : Valuation τ sig (Elt Ideal)) : stageG V = specG0 V := Stage.g_eq _ _ _ _ _ _ _

/-- The first result: the fused graph. -/
theorem value_v54 (V : Valuation τ sig (Elt Ideal)) :
    after (ops (F := Ideal)) V (main_v54 : DevRef τ sig)
      = Cert.Spec.Gf (V (main_arg1 : DevRef τ sig)) (V (main_arg2 : DevRef τ sig)) (specG0 V) := by
  rw [fold_v54, stageG_eq, Stage.gf_eq]

/-- The second result: the smoothed gate weights. -/
theorem value_v47 (V : Valuation τ sig (Elt Ideal)) :
    after (ops (F := Ideal)) V (main_v47 : DevRef τ sig) = Cert.Spec.Gw (V (main_arg1 : DevRef τ sig)) (specG0 V) := by
  rw [fold_v47, stageG_eq, Stage.gw_eq]

set_option maxRecDepth 16384 in
/-- No operation writes an argument array. -/
theorem value_arg (V : Valuation τ sig (Elt Ideal)) (b : Ref sig .tc)
    (hb : b ∈ ([main_arg0, main_arg1, main_arg2, main_arg3, main_arg4, main_arg5, main_arg6, main_arg7, main_arg8] : List (Ref sig .tc))) :
    after (ops (F := Ideal)) V (b : DevRef τ sig) = V (b : DevRef τ sig) := by
  simp only [List.mem_cons, List.mem_nil_iff, or_false] at hb
  rcases hb with rfl | rfl | rfl | rfl | rfl | rfl | rfl | rfl | rfl <;>
    (simp only [after_cons, after_nil]; rfl)

end Cert.ReferenceIdeal.Hand

end
-- ==== Proof.lean ====
/-
  The certificate's five claims.

  Both kernel programs (the word-level one and its idealization, the same text at two float instances) are run through
  their three segments - a stretch of host operations, the gating region, the fusion region - by one argument generic in
  the instance, which leaves every unscoped buffer of a core at known contents; the frames read the argument arrays off
  it. The reference is a straight line of host operations. The idealization rewrote nothing, so there is nothing to
  preserve. At the ideal instance the two result arrays of the kernel program and of the reference are the same two
  functions of the argument arrays: the fused graph and the smoothed gate weights of the specification, for every
  input (no finiteness is used: each law that joins the two spellings holds on all extended reals).
-/
import proofs.«153786_g11373073400015_week1_w4_273_15_alg».proof.Defs
import proofs.«153786_g11373073400015_week1_w4_273_15_alg».proof.Proof.Gen.Kernel
import proofs.«153786_g11373073400015_week1_w4_273_15_alg».proof.Proof.Gen.KernelIdeal
import proofs.«153786_g11373073400015_week1_w4_273_15_alg».proof.Proof.Gen.ReferenceIdeal
import proofs.«153786_g11373073400015_week1_w4_273_15_alg».proof.Proof.Gen.Pre_finite_inputs
import proofs.«153786_g11373073400015_week1_w4_273_15_alg».proof.Proof.Kernel.Run
import proofs.«153786_g11373073400015_week1_w4_273_15_alg».proof.Proof.KernelIdeal.Run
import proofs.«153786_g11373073400015_week1_w4_273_15_alg».proof.Proof.Value.Kernel
import proofs.«153786_g11373073400015_week1_w4_273_15_alg».proof.Proof.Reference.Run
import proofs.«153786_g11373073400015_week1_w4_273_15_alg».proof.Proof.Reference.Value
import Idealize.ShloMosaic.Adequacy
import Idealize.ShloMosaic.Init

noncomputable section

namespace Cert.Proof

open Idealize.ShloMosaic Idealize.SL.Sem Idealize.ShloMosaic.TcCoe

/-- The word-level program runs and leaves its arguments as launched. -/
theorem frame_k : Cert.frame_Kernel := fun m ρ _ => Cert.Kernel.Fr.frame (F := Bits) m ρ

/-- So does its idealization. -/
theorem frame_ki : Cert.frame_KernelIdeal := fun m ρ _ => Cert.KernelIdeal.Fr.frame (F := Ideal) m ρ

open Cert.ReferenceIdeal Cert.ReferenceIdeal.Hand in
/-- The reference runs and writes no argument. -/
theorem frame_ri : Cert.frame_ReferenceIdeal := fun m ρ _ =>
  (θ_run Cert.ReferenceIdeal.defs _ _).mono (fun _ h c =>
    ⟨(h c main_arg0).trans (value_arg _ main_arg0 (by decide)), (h c main_arg1).trans (value_arg _ main_arg1 (by decide)),
     (h c main_arg2).trans (value_arg _ main_arg2 (by decide)), (h c main_arg3).trans (value_arg _ main_arg3 (by decide)),
     (h c main_arg4).trans (value_arg _ main_arg4 (by decide)), (h c main_arg5).trans (value_arg _ main_arg5 (by decide)),
     (h c main_arg6).trans (value_arg _ main_arg6 (by decide)), (h c main_arg7).trans (value_arg _ main_arg7 (by decide)),
     (h c main_arg8).trans (value_arg _ main_arg8 (by decide))⟩)
    (Cert.ReferenceIdeal.Hand.run_main (F := Ideal) m ρ)

/-- The ideal pass rewrote no operation. -/
theorem preserves : Cert.preserves_Kernel_KernelIdeal := trivial

open Cert.KernelIdeal Cert.KernelIdeal.Fr Cert.KernelIdeal.Val in
/-- The idealized kernel program ends with its two result arrays at the specification's arrays of its arguments. -/
theorem kernel_run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v9_0)
          = Cert.Spec.Gf (m ((c.tc : Thread nD τ).loc main_arg1)) (m ((c.tc : Thread nD τ).loc main_arg2)) (gates m c)
      ∧ r.2.mem ((c.tc : Thread nD τ).loc main_v9_1) = Cert.Spec.Gw (m ((c.tc : Thread nD τ).loc main_arg1)) (gates m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run Cert.KernelIdeal.defs _ _).mono (fun _ h c =>
    ⟨(h c _ (mem_uc main_v9_0 (by decide))).trans (kernel_v9_0 m c),
     (h c _ (mem_uc main_v9_1 (by decide))).trans (kernel_v9_1 m c),
     (h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c),
     (h c _ (mem_uc main_arg5 (by decide))).trans (B3_main_arg5 m c),
     (h c _ (mem_uc main_arg6 (by decide))).trans (B3_main_arg6 m c),
     (h c _ (mem_uc main_arg7 (by decide))).trans (B3_main_arg7 m c),
     (h c _ (mem_uc main_arg8 (by decide))).trans (B3_main_arg8 m c)⟩)
    (Cert.KernelIdeal.Fr.run_all (F := Ideal) m ρ)

open Cert.ReferenceIdeal Cert.ReferenceIdeal.Hand in
/-- The reference ends with its two result arrays at the same two arrays of ITS arguments. -/
theorem reference_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v54)
          = Cert.Spec.Gf (m ((c.tc : Thread nD τ).loc main_arg1)) (m ((c.tc : Thread nD τ).loc main_arg2))
              (Cert.Spec.G0 (m ((c.tc : Thread nD τ).loc main_arg0)) (m ((c.tc : Thread nD τ).loc main_arg3)) (m ((c.tc : Thread nD τ).loc main_arg4))
                (m ((c.tc : Thread nD τ).loc main_arg5)) (m ((c.tc : Thread nD τ).loc main_arg6)) (m ((c.tc : Thread nD τ).loc main_arg7))
                (m ((c.tc : Thread nD τ).loc main_arg8)))
      ∧ r.2.mem ((c.tc : Thread nD τ).loc main_v47)
          = Cert.Spec.Gw (m ((c.tc : Thread nD τ).loc main_arg1))
              (Cert.Spec.G0 (m ((c.tc : Thread nD τ).loc main_arg0)) (m ((c.tc : Thread nD τ).loc main_arg3)) (m ((c.tc : Thread nD τ).loc main_arg4))
                (m ((c.tc : Thread nD τ).loc main_arg5)) (m ((c.tc : Thread nD τ).loc main_arg6)) (m ((c.tc : Thread nD τ).loc main_arg7))
                (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run Cert.ReferenceIdeal.defs _ _).mono (fun _ h c =>
    ⟨(h c main_v54).trans (value_v54 _), (h c main_v47).trans (value_v47 _),
     (h c main_arg0).trans (value_arg _ main_arg0 (by decide)), (h c main_arg1).trans (value_arg _ main_arg1 (by decide)),
     (h c main_arg2).trans (value_arg _ main_arg2 (by decide)), (h c main_arg3).trans (value_arg _ main_arg3 (by decide)),
     (h c main_arg4).trans (value_arg _ main_arg4 (by decide)), (h c main_arg5).trans (value_arg _ main_arg5 (by decide)),
     (h c main_arg6).trans (value_arg _ main_arg6 (by decide)), (h c main_arg7).trans (value_arg _ main_arg7 (by decide)),
     (h c main_arg8).trans (value_arg _ main_arg8 (by decide))⟩)
    (Cert.ReferenceIdeal.Hand.run_main (F := Ideal) m ρ)

/-- From memories that agree on the arguments the two idealized programs end with equal results: both result pairs are
    the specification's arrays of the arguments. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ?_) (reference_run m' ρ')
  obtain ⟨e0, e1, e2, e3, e4, e5, e6, e7, e8⟩ := hagree c
  obtain ⟨h54, h47, hr⟩ := h c
  refine ⟨h54.trans ?_, h47.trans ?_, hr⟩
  · rw [e0, e1, e2, e3, e4, e5, e6, e7, e8]
  · rw [e0, e1, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
